-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S8x2048x64 : Shape := ⟨3, ![8, 2048, 64]⟩
abbrev S1x2048x1024 : Shape := ⟨3, ![1, 2048, 1024]⟩
abbrev S1x2048x64 : Shape := ⟨3, ![1, 2048, 64]⟩
abbrev S2048x64 : Shape := ⟨2, ![2048, 64]⟩
abbrev S256x1 : Shape := ⟨2, ![256, 1]⟩
abbrev S256x64 : Shape := ⟨2, ![256, 64]⟩
abbrev S1x256x1024 : Shape := ⟨3, ![1, 256, 1024]⟩
abbrev S256x1024 : Shape := ⟨2, ![256, 1024]⟩
abbrev S256x256 : Shape := ⟨2, ![256, 256]⟩
abbrev S1x256 : Shape := ⟨2, ![1, 256]⟩
abbrev S256 : Shape := ⟨1, ![256]⟩
abbrev S1x256x64 : Shape := ⟨3, ![1, 256, 64]⟩

abbrev nBuf : Space → Nat
  | .hbm => 5
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .local _ .vmem, ⟨0, _⟩ => ⟨S1x2048x1024, .f32⟩
  | .local _ .vmem, ⟨1, _⟩ => ⟨S1x2048x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x2048x64, .f32⟩
  | .local _ .vmem, ⟨6, _⟩ => ⟨S1x2048x64, .f32⟩
  | .local _ .vmem, ⟨7, _⟩ => ⟨S2048x64, .bf16⟩
  | .local _ .vmem, ⟨8, _⟩ => ⟨S2048x64, .bf16⟩
  | .local _ .vmem, ⟨9, _⟩ => ⟨S256x1, .f32⟩
  | .local _ .vmem, ⟨10, _⟩ => ⟨S256x1, .f32⟩
  | .local _ .vmem, ⟨11, _⟩ => ⟨S256x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  bitsLt_bf16_f32 : FTy.bits .bf16 < FTy.bits .f32
  inb_S1x2048x1024_S1x256x1024_0_0_0 : ∀ a, (![0, 0, 0] : Fin 3 → Nat) a + S1x256x1024.size a ≤ S1x2048x1024.size a
  h_S1x256x1024 : 0 < S1x256x1024.numel
  shapeCasts_S1x256x1024_S256x1024 : S1x256x1024.ShapeCasts S256x1024
  inb_S2048x64_S256x64_0_0 : ∀ a, (![0, 0] : Fin 2 → Nat) a + S256x64.size a ≤ S2048x64.size a
  h_S256x64 : 0 < S256x64.numel
  shapeCasts_S256x64_S256x64 : S256x64.ShapeCasts S256x64
  packedbf16_S2048x64_S256x64_0_0 : (Rect.unit (s := S2048x64) ![0, 0] S256x64.size inb_S2048x64_S256x64_0_0).PackedRows (EltTy.packing .bf16)
  inb_S1x2048x1024_S1x256x1024_0_256_0 : ∀ a, (![0, 256, 0] : Fin 3 → Nat) a + S1x256x1024.size a ≤ S1x2048x1024.size a
  inb_S2048x64_S256x64_256_0 : ∀ a, (![256, 0] : Fin 2 → Nat) a + S256x64.size a ≤ S2048x64.size a
  packedbf16_S2048x64_S256x64_256_0 : (Rect.unit (s := S2048x64) ![256, 0] S256x64.size inb_S2048x64_S256x64_256_0).PackedRows (EltTy.packing .bf16)
  inb_S1x2048x1024_S1x256x1024_0_512_0 : ∀ a, (![0, 512, 0] : Fin 3 → Nat) a + S1x256x1024.size a ≤ S1x2048x1024.size a
  inb_S2048x64_S256x64_512_0 : ∀ a, (![512, 0] : Fin 2 → Nat) a + S256x64.size a ≤ S2048x64.size a
  packedbf16_S2048x64_S256x64_512_0 : (Rect.unit (s := S2048x64) ![512, 0] S256x64.size inb_S2048x64_S256x64_512_0).PackedRows (EltTy.packing .bf16)
  inb_S1x2048x1024_S1x256x1024_0_768_0 : ∀ a, (![0, 768, 0] : Fin 3 → Nat) a + S1x256x1024.size a ≤ S1x2048x1024.size a
  inb_S2048x64_S256x64_768_0 : ∀ a, (![768, 0] : Fin 2 → Nat) a + S256x64.size a ≤ S2048x64.size a
  packedbf16_S2048x64_S256x64_768_0 : (Rect.unit (s := S2048x64) ![768, 0] S256x64.size inb_S2048x64_S256x64_768_0).PackedRows (EltTy.packing .bf16)
  inb_S1x2048x1024_S1x256x1024_0_1024_0 : ∀ a, (![0, 1024, 0] : Fin 3 → Nat) a + S1x256x1024.size a ≤ S1x2048x1024.size a
  inb_S2048x64_S256x64_1024_0 : ∀ a, (![1024, 0] : Fin 2 → Nat) a + S256x64.size a ≤ S2048x64.size a
  packedbf16_S2048x64_S256x64_1024_0 : (Rect.unit (s := S2048x64) ![1024, 0] S256x64.size inb_S2048x64_S256x64_1024_0).PackedRows (EltTy.packing .bf16)
  inb_S1x2048x1024_S1x256x1024_0_1280_0 : ∀ a, (![0, 1280, 0] : Fin 3 → Nat) a + S1x256x1024.size a ≤ S1x2048x1024.size a
  inb_S2048x64_S256x64_1280_0 : ∀ a, (![1280, 0] : Fin 2 → Nat) a + S256x64.size a ≤ S2048x64.size a
  packedbf16_S2048x64_S256x64_1280_0 : (Rect.unit (s := S2048x64) ![1280, 0] S256x64.size inb_S2048x64_S256x64_1280_0).PackedRows (EltTy.packing .bf16)
  inb_S1x2048x1024_S1x256x1024_0_1536_0 : ∀ a, (![0, 1536, 0] : Fin 3 → Nat) a + S1x256x1024.size a ≤ S1x2048x1024.size a
  inb_S2048x64_S256x64_1536_0 : ∀ a, (![1536, 0] : Fin 2 → Nat) a + S256x64.size a ≤ S2048x64.size a
  packedbf16_S2048x64_S256x64_1536_0 : (Rect.unit (s := S2048x64) ![1536, 0] S256x64.size inb_S2048x64_S256x64_1536_0).PackedRows (EltTy.packing .bf16)
  inb_S1x2048x1024_S1x256x1024_0_1792_0 : ∀ a, (![0, 1792, 0] : Fin 3 → Nat) a + S1x256x1024.size a ≤ S1x2048x1024.size a
  inb_S2048x64_S256x64_1792_0 : ∀ a, (![1792, 0] : Fin 2 → Nat) a + S256x64.size a ≤ S2048x64.size a
  packedbf16_S2048x64_S256x64_1792_0 : (Rect.unit (s := S2048x64) ![1792, 0] S256x64.size inb_S2048x64_S256x64_1792_0).PackedRows (EltTy.packing .bf16)
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  iota_S256x1_d0_w32 : S256x1.Iotas .tc 32 [0]
  iota_S1x256_d1_w32 : S1x256.Iotas .tc 32 [1]
  broadcasts_S1x256_S256x256 : S1x256.Broadcasts S256x256
  broadcasts_S256x1_S256x256 : S256x1.Broadcasts S256x256
  reduces_S256x256_S256 : S256x256.Reduces [1] S256
  shapeCasts_S256_S256x1 : S256.ShapeCasts S256x1
  broadcasts_S256x1_S256x64 : S256x1.Broadcasts S256x64
  inb_S1x2048x64_S1x256x64_0_0_0 : ∀ a, (![0, 0, 0] : Fin 3 → Nat) a + S1x256x64.size a ≤ S1x2048x64.size a
  h_S1x256x64 : 0 < S1x256x64.numel
  shapeCasts_S1x256x64_S256x64 : S1x256x64.ShapeCasts S256x64
  shapeCasts_S256x64_S1x256x64 : S256x64.ShapeCasts S1x256x64
  inb_S1x2048x64_S1x256x64_0_256_0 : ∀ a, (![0, 256, 0] : Fin 3 → Nat) a + S1x256x64.size a ≤ S1x2048x64.size a
  inb_S1x2048x64_S1x256x64_0_512_0 : ∀ a, (![0, 512, 0] : Fin 3 → Nat) a + S1x256x64.size a ≤ S1x2048x64.size a
  inb_S1x2048x64_S1x256x64_0_768_0 : ∀ a, (![0, 768, 0] : Fin 3 → Nat) a + S1x256x64.size a ≤ S1x2048x64.size a
  inb_S1x2048x64_S1x256x64_0_1024_0 : ∀ a, (![0, 1024, 0] : Fin 3 → Nat) a + S1x256x64.size a ≤ S1x2048x64.size a
  inb_S1x2048x64_S1x256x64_0_1280_0 : ∀ a, (![0, 1280, 0] : Fin 3 → Nat) a + S1x256x64.size a ≤ S1x2048x64.size a
  inb_S1x2048x64_S1x256x64_0_1536_0 : ∀ a, (![0, 1536, 0] : Fin 3 → Nat) a + S1x256x64.size a ≤ S1x2048x64.size a
  inb_S1x2048x64_S1x256x64_0_1792_0 : ∀ a, (![0, 1792, 0] : Fin 3 → Nat) a + S1x256x64.size a ≤ S1x2048x64.size a
  dot_S256x1024_S1024x64_S256x64_1_0_0_1_n_n_wf : DotDims.WF S256x1024 S1024x64 S256x64 [1] [0] [0] [1] [] []
  dot_S256x64_S256x64_S256x256_1_1_0_0_n_n_wf : DotDims.WF S256x64 S256x64 S256x256 [1] [1] [0] [0] [] []
  dot_S256x256_S256x64_S256x64_1_0_0_1_n_n_wf : DotDims.WF S256x256 S256x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S8x2048x1024.size a
  hwx0_0 : ∀ i : grid0.Coords, EltTy.bits .f32 = 32 ∨ (Rect.block (s := S8x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x64.size a ≤ S8x2048x64.size a
  hwx0_4 : ∀ i : grid0.Coords, EltTy.bits .f32 = 32 ∨ (Rect.block (s := S8x2048x64) S1x2048x64.size (cc0_transform_4 i) (hinb0_4 i)).WholeWords (EltTy.packing .f32)

variable [Facts₀]

def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S256x64_S256x256_1_1_0_0_n_n : DotDims S256x64 S256x64 S256x256 where
  lhsContracting := [1]
  rhsContracting := [1]
  lhsNonContracting := [0]
  rhsNonContracting := [0]
  lhsBatch := []
  rhsBatch := []
  wf := dot_S256x64_S256x64_S256x256_1_1_0_0_n_n_wf
def dot_S256x256_S256x64_S256x64_1_0_0_1_n_n : DotDims S256x256 S256x64 S256x64 where
  lhsContracting := [1]
  rhsContracting := [0]
  lhsNonContracting := [0]
  rhsNonContracting := [1]
  lhsBatch := []
  rhsBatch := []
  wf := dot_S256x256_S256x64_S256x64_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.Spec.lean ====
/-
  Causal single-head attention over the reals, as one function of the input and the three weight matrices: the
  specification both programs are compared with. Row i attends to the rows j ≤ i with weights
  exp (score i j); the output row is the weighted mean of the value rows. A common shift μ of a row's scores
  cancels between numerator and denominator, which is why a running maximum may be subtracted.
-/
import Mathlib.Analysis.SpecialFunctions.Exp
import Mathlib.Algebra.BigOperators.Field
import Mathlib.Data.Real.Basic

noncomputable section

namespace Cert.Spec

open Finset

/-- The attention scale 2^-5: the kernel folds it into the query, the reference applies it to the scores. -/
def scR : ℝ := 1 / 32

variable (sc : ℝ) (X : Fin 2048 → Fin 1024 → ℝ) (WQ WK WV : Fin 1024 → Fin 64 → ℝ)

/-- A projection of the input: row t of X times the weight matrix W. -/
def proj (W : Fin 1024 → Fin 64 → ℝ) (t : Fin 2048) (h : Fin 64) : ℝ := ∑ c, X t c * W c h

/-- The scaled score of query row i against key row j. -/
def score (i j : Fin 2048) : ℝ := (∑ h, proj X WQ i h * proj X WK j h) * sc

/-- The causal weight of key row j for query row i, after subtracting μ from the score: zero above the diagonal. -/
def wgt (μ : ℝ) (i j : Fin 2048) : ℝ := if j ≤ i then Real.exp (score sc X WQ WK i j - μ) else 0

/-- Causal softmax attention, entry (i, h). -/
def attn (i : Fin 2048) (h : Fin 64) : ℝ :=
  (∑ j, wgt sc X WQ WK 0 i j * proj X WV j h) / (∑ j, wgt sc X WQ WK 0 i j)

theorem wgt_nonneg (μ : ℝ) (i j : Fin 2048) : 0 ≤ wgt sc X WQ WK μ i j := by
  unfold wgt; split
  · exact (Real.exp_pos _).le
  · exact le_rfl

theorem wgt_shift (μ : ℝ) (i j : Fin 2048) : wgt sc X WQ WK μ i j = wgt sc X WQ WK 0 i j * Real.exp (-μ) := by
  unfold wgt; split
  · rw [sub_zero, sub_eq_add_neg, Real.exp_add]
  · rw [zero_mul]

/-- The denominator is positive: the diagonal term is an exponential. -/
theorem denom_pos (μ : ℝ) (i : Fin 2048) : 0 < ∑ j, wgt sc X WQ WK μ i j := by
  refine lt_of_lt_of_le ?_ (Finset.single_le_sum (fun j _ => wgt_nonneg sc X WQ WK μ i j) (Finset.mem_univ i))
  unfold wgt; rw [if_pos le_rfl]; exact Real.exp_pos _

/-- Subtracting any real μ from every score of a row leaves the attention unchanged. -/
theorem attn_shift (μ : ℝ) (i : Fin 2048) (h : Fin 64) :
    (∑ j, wgt sc X WQ WK μ i j * proj X WV j h) / (∑ j, wgt sc X WQ WK μ i j) = attn sc X WQ WK WV i h := by
  unfold attn
  have e1 : ∑ j, wgt sc X WQ WK μ i j * proj X WV j h = (∑ j, wgt sc X WQ WK 0 i j * proj X WV j h) * Real.exp (-μ) := by
    rw [Finset.sum_mul]; refine Finset.sum_congr rfl fun j _ => ?_
    rw [wgt_shift sc X WQ WK μ i j]; ring
  have e2 : ∑ j, wgt sc X WQ WK μ i j = (∑ j, wgt sc X WQ WK 0 i j) * Real.exp (-μ) := by
    rw [Finset.sum_mul]; exact Finset.sum_congr rfl fun j _ => wgt_shift sc X WQ WK μ i j
  rw [e1, e2, mul_div_mul_right _ _ (Real.exp_pos _).ne']

end Cert.Spec

end
-- ==== Proof.SpecG.lean ====
/-
  The specification over the programs' arrays: each batch row of the result is the causal attention of that
  batch row of the input, computed over the reals its entries denote. The precondition makes every entry of the
  four argument arrays a real.
-/
import proofs.«409854_j43765716746377_3_alg».proof.Proof.Spec
import Idealize.ShloMosaic.PureOps.Ideal
import Idealize.ShloMosaic.Lib.ValueIdx

noncomputable section

namespace Cert.Spec

open Idealize.ShloMosaic Idealize.ShloMosaic.ValueIdx

/-- Every entry of an array of extended reals is a real. -/
def AllReal {S : Shape} (x : S.Idx → EReal) : Prop := ∀ i, x i = (((x i).toReal : ℝ) : EReal)

/-- The reals a batch row of the input denotes. -/
def xReal (x : (⟨3, ![8, 2048, 1024]⟩ : Shape).Idx → EReal) (b : Fin 8) : Fin 2048 → Fin 1024 → ℝ :=
  fun t c => (x (ix3 b t c)).toReal

/-- The reals a weight matrix denotes. -/
def wReal (w : (⟨2, ![1024, 64]⟩ : Shape).Idx → EReal) : Fin 1024 → Fin 64 → ℝ :=
  fun c h => (w (ix2 c h)).toReal

/-- The result array: entry (b, i, h) is the attention of batch row b at (i, h). -/
def G (x : (⟨3, ![8, 2048, 1024]⟩ : Shape).Idx → EReal) (wq wk wv : (⟨2, ![1024, 64]⟩ : Shape).Idx → EReal) :
    (⟨3, ![8, 2048, 64]⟩ : Shape).Idx → EReal :=
  fun idx => ((attn scR (xReal x (idx 0 : Fin 8)) (wReal wq) (wReal wk) (wReal wv) (idx 1 : Fin 2048) (idx 2 : Fin 64) : ℝ) : EReal)

end Cert.Spec

end
-- ==== Proof.KernelFns.lean ====
/-
  The attention kernel's arithmetic, one 256-row query tile against one 256-row key/value tile at a time, as
  functions of vectors at any float instance: the projections of a slab of the input, the score tile (plain, or
  with the causal mask of a diagonal tile), and the online-softmax update of the running maximum, the running
  denominator and the running numerator, with the final quotient.
-/
import proofs.«409854_j43765716746377_3_alg».proof.Proof.Gen.KernelIdeal

noncomputable section

namespace Cert.KernelIdeal.Flash

open Idealize.ShloMosaic Cert.KernelIdeal Cert.KernelIdeal.Gen

variable {F : FTy → Type} [FloatOps F] [Named F]

/-- A weight matrix as the matrix unit takes it. -/
def wcast (w : Vec F S1024x64 .f32) : FVec F S1024x64 .bf16 := truncf .bf16 w bitsLt_bf16_f32

/-- A 256-row slab of the input as the matrix unit takes it. -/
def xcast (xs : Vec F S1x256x1024 .f32) : FVec F S256x1024 .bf16 :=
  truncf .bf16 (shapeCast S256x1024 xs shapeCasts_S1x256x1024_S256x1024) bitsLt_bf16_f32

/-- A slab of the input times a weight matrix: row r, column h is the sum over c of x[r, c] * w[c, h]. -/
def proj (w : FVec F S1024x64 .bf16) (xs : Vec F S1x256x1024 .f32) : FVec F S256x64 .f32 :=
  matmul dot_S256x1024_S1024x64_S256x64_1_0_0_1_n_n none (xcast xs) w (constant S256x64 .f32 0x00000000#32)

/-- A key or value tile. -/
def kvTile (w : FVec F S1024x64 .bf16) (xs : Vec F S1x256x1024 .f32) : FVec F S256x64 .bf16 :=
  shapeCast S256x64 (truncf .bf16 (proj w xs) bitsLt_bf16_f32) shapeCasts_S256x64_S256x64

/-- A query tile, the attention scale 2^-5 folded in. -/
def qTile (w : FVec F S1024x64 .bf16) (xs : Vec F S1x256x1024 .f32) : FVec F S256x64 .bf16 :=
  truncf .bf16 (mulf (proj w xs) (broadcast S256x64 (Scalar.ofBits .f32 0x3D000000#32))) bitsLt_bf16_f32

/-- The scores of a query tile against a key tile: entry (r, c) is the sum over h of q[r, h] * k[c, h]. -/
def scoresOff (q : FVec F S256x64 .bf16) (k : Vec F S256x64 .bf16) : FVec F S256x256 .f32 :=
  matmul dot_S256x64_S256x64_S256x256_1_1_0_0_n_n none q k (constant S256x256 .f32 0x00000000#32)

/-- The causal mask of a diagonal tile whose rows and columns both start at position `off`: column ≤ row. -/
def causal (off : BitVec 32) : IVec S256x256 1 :=
  cmpi .sle
    (broadcastTo S256x256 (addi (broadcast S1x256 off) (iota .tc S1x256 32 [1] iota_S1x256_d1_w32)) broadcasts_S1x256_S256x256)
    (broadcastTo S256x256 (addi (broadcast S256x1 off) (iota .tc S256x1 32 [0] iota_S256x1_d0_w32)) broadcasts_S256x1_S256x256)

/-- The scores of a diagonal tile: above the diagonal the named stand-in for minus infinity. -/
def scoresDiag (off : BitVec 32) (q : FVec F S256x64 .bf16) (k : Vec F S256x64 .bf16) : FVec F S256x256 .f32 :=
  select (causal off) (scoresOff q k) (broadcast S256x256 (Named.named κ "neg_big" 0xFF333332#32))

/-- The running maximum after a tile of scores. -/
def mNew (s : FVec F S256x256 .f32) (m : Vec F S256x1 .f32) : FVec F S256x1 .f32 :=
  maximumf m (shapeCast S256x1 (multiReduction .maximumf [1] S256 s 0xFF800000#32 reduces_S256x256_S256 (.inl rfl) rfl) shapeCasts_S256_S256x1)

/-- The tile's weights exp (s - new maximum). -/
def pExp (s : FVec F S256x256 .f32) (m : Vec F S256x1 .f32) : FVec F S256x256 .f32 :=
  exp (subf s (broadcastTo S256x256 (mNew s m) broadcasts_S256x1_S256x256))

/-- The rescaling factor exp (old maximum - new maximum). -/
def alpha (s : FVec F S256x256 .f32) (m : Vec F S256x1 .f32) : FVec F S256x1 .f32 :=
  exp (subf m (mNew s m))

/-- The running denominator after the tile. -/
def lNew (s : FVec F S256x256 .f32) (m : Vec F S256x1 .f32) (l : Vec F S256x1 .f32) : FVec F S256x1 .f32 :=
  shapeCast S256x1
    (addf (mulf (alpha s m) l)
      (shapeCast S256x1 (multiReduction .add [1] S256 (pExp s m) 0x00000000#32 reduces_S256x256_S256 (.inl rfl) rfl) shapeCasts_S256_S256x1))
    shapeCasts_S256x1_S256x1

/-- The running numerator after the tile. -/
def accNew (s : FVec F S256x256 .f32) (v : Vec F S256x64 .bf16) (m : Vec F S256x1 .f32) (acc : Vec F S256x64 .f32) : FVec F S256x64 .f32 :=
  shapeCast S256x64
    (addf (mulf (broadcastTo S256x64 (alpha s m) broadcasts_S256x1_S256x64) acc)
      (matmul dot_S256x256_S256x64_S256x64_1_0_0_1_n_n none (truncf .bf16 (pExp s m) bitsLt_bf16_f32) v (constant S256x64 .f32 0x00000000#32)))
    shapeCasts_S256x64_S256x64

/-- The running maximum as stored. -/
def mStore (s : FVec F S256x256 .f32) (m : Vec F S256x1 .f32) : FVec F S256x1 .f32 :=
  shapeCast S256x1 (mNew s m) shapeCasts_S256x1_S256x1

/-- The state a query tile starts from: maximum minus infinity, denominator and numerator zero. -/
def m0 : FVec F S256x1 .f32 := shapeCast S256x1 (broadcast S256x1 (Scalar.ofBits .f32 0xFF800000#32)) shapeCasts_S256x1_S256x1
def l0 : FVec F S256x1 .f32 := shapeCast S256x1 (broadcast S256x1 (Scalar.ofBits .f32 0x00000000#32)) shapeCasts_S256x1_S256x1
def acc0 : FVec F S256x64 .f32 := shapeCast S256x64 (broadcast S256x64 (Scalar.ofBits .f32 0x00000000#32)) shapeCasts_S256x64_S256x64

/-- The tile's output: numerator over denominator, row by row. -/
def outTile (acc : Vec F S256x64 .f32) (l : Vec F S256x1 .f32) : FVec F S1x256x64 .f32 :=
  shapeCast S1x256x64 (divf acc (broadcastTo S256x64 l broadcasts_S256x1_S256x64)) shapeCasts_S256x64_S1x256x64

end Cert.KernelIdeal.Flash

end
-- ==== Proof.Sem.lean ====
/-
  What the kernel's vectors mean, for one batch row: a slab of the input and the weight matrices hold reals; a
  key, value or query tile holds the projections of its 256 rows; a score tile holds the scaled scores, minus
  infinity above the diagonal; and the online-softmax state after n key tiles holds, for some real μ per row,
  μ itself, the sum of the causal weights exp (score - μ) over the keys seen so far, and that sum weighted by
  the value rows. Stated at the exact instance, where a float is an extended real.
-/
import proofs.«409854_j43765716746377_3_alg».proof.Proof.KernelFns
import proofs.«409854_j43765716746377_3_alg».proof.Proof.Spec
import Idealize.ShloMosaic.PureOps.Ideal
import Idealize.ShloMosaic.Lib.ValueIdx

noncomputable section

namespace Cert.KernelIdeal.Gen.Flash

open Idealize.ShloMosaic Idealize.ShloMosaic.ValueIdx Cert.KernelIdeal Cert.KernelIdeal.Gen Cert.Spec

/-- Row r of the t-th 256-row tile, as a row of the whole sequence. -/
def row (t : Fin 8) (r : Fin 256) : Fin 2048 := ⟨256 * t.val + r.val, by omega⟩

variable (X : Fin 2048 → Fin 1024 → ℝ) (WQ WK WV : Fin 1024 → Fin 64 → ℝ)

/-- The t-th slab of the input holds the reals X. -/
def IsSlab (t : Fin 8) (xs : Vec Ideal S1x256x1024 .f32) : Prop :=
  ∀ (r : Fin 256) (c : Fin 1024), (xs (ix3 (0 : Fin 1) r c) : EReal) = ((X (row t r) c : ℝ) : EReal)

/-- A weight matrix holds the reals W. -/
def IsW (W : Fin 1024 → Fin 64 → ℝ) (w : Vec Ideal S1024x64 .f32) : Prop :=
  ∀ (c : Fin 1024) (h : Fin 64), (w (ix2 c h) : EReal) = ((W c h : ℝ) : EReal)

/-- A key or value tile holds the projection of its rows by W. -/
def IsKV (W : Fin 1024 → Fin 64 → ℝ) (t : Fin 8) (k : Vec Ideal S256x64 .bf16) : Prop :=
  ∀ (r : Fin 256) (h : Fin 64), (k (ix2 r h) : EReal) = ((proj X W (row t r) h : ℝ) : EReal)

/-- A query tile holds the scaled projection of its rows. -/
def IsQ (t : Fin 8) (q : FVec Ideal S256x64 .bf16) : Prop :=
  ∀ (r : Fin 256) (h : Fin 64), (q (ix2 r h) : EReal) = ((proj X WQ (row t r) h * scR : ℝ) : EReal)

/-- A score tile holds the scores of its query rows against its key rows, minus infinity where the key is later
    than the query. -/
def IsS (qi kt : Fin 8) (s : FVec Ideal S256x256 .f32) : Prop :=
  ∀ (r c : Fin 256), (s (ix2 r c) : EReal)
    = if row kt c ≤ row qi r then ((score scR X WQ WK (row qi r) (row kt c) : ℝ) : EReal) else ⊥

/-- The causal weight of key j for query i after subtracting μ, counted only among the first n key tiles. -/
def part (n : ℕ) (μ : ℝ) (i j : Fin 2048) : ℝ := if j.val < 256 * n then wgt scR X WQ WK μ i j else 0

/-- The online-softmax state of query tile qi after n key tiles: before the first tile the maximum is minus
    infinity and both sums are zero; afterwards some real μ per row is the stored maximum, and the stored sums are
    the weights' sum and the weighted sum of the value rows over the keys seen. -/
def Inv (qi : Fin 8) (n : ℕ) (m l : Vec Ideal S256x1 .f32) (acc : Vec Ideal S256x64 .f32) : Prop :=
  ∀ r : Fin 256,
    (n = 0 ∧ (m (ix2 r (0 : Fin 1)) : EReal) = ⊥ ∧ (l (ix2 r (0 : Fin 1)) : EReal) = 0
      ∧ ∀ h : Fin 64, (acc (ix2 r h) : EReal) = 0)
    ∨ ∃ μ : ℝ, (m (ix2 r (0 : Fin 1)) : EReal) = ((μ : ℝ) : EReal)
      ∧ (l (ix2 r (0 : Fin 1)) : EReal) = ((∑ j, part X WQ WK n μ (row qi r) j : ℝ) : EReal)
      ∧ ∀ h : Fin 64, (acc (ix2 r h) : EReal)
          = ((∑ j, part X WQ WK n μ (row qi r) j * proj X WV j h : ℝ) : EReal)

end Cert.KernelIdeal.Gen.Flash

end
-- ==== Proof.TileSemA.lean ====
/-
  The projections and the score tiles read at an index: a slab of real inputs times a real weight matrix is the
  real matrix product, and a query tile against a key tile is the scaled score, masked above the diagonal on a
  diagonal tile.
-/
import proofs.«409854_j43765716746377_3_alg».proof.Proof.Sem
import Idealize.ShloMosaic.PureOps.Ideal.Laws
import Idealize.ShloMosaic.Lib.Pipeline.Value
import Idealize.ShloMosaic.Lib.ValueLayout

noncomputable section

namespace Cert.KernelIdeal.Gen.Flash

open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The coercion of the reals into the extended reals commutes with finite sums. -/
private theorem coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! The operand indices of the slab-times-weights product at output index i and contraction index q, axis by axis:
    the left operand is read at (i 0, q), the right at (q, i 1). -/

private theorem lhsP_0 (i : S256x64.Idx) (q : dot_S256x1024_S1024x64_S256x64_1_0_0_1_n_n.contr.Idx) :
    (dot_S256x1024_S1024x64_S256x64_1_0_0_1_n_n.lhsIdx i q 0).val = (i 0).val := by
  unfold DotDims.lhsIdx
  rw [dif_neg (show ¬(0 : Fin S256x1024.rank) ∈ dot_S256x1024_S1024x64_S256x64_1_0_0_1_n_n.lhsBatch by decide), dif_pos (show (0 : Fin S256x1024.rank) ∈ dot_S256x1024_S1024x64_S256x64_1_0_0_1_n_n.lhsNonContracting by decide)]
  rfl
private theorem lhsP_1 (i : S256x64.Idx) (q : dot_S256x1024_S1024x64_S256x64_1_0_0_1_n_n.contr.Idx) :
    (dot_S256x1024_S1024x64_S256x64_1_0_0_1_n_n.lhsIdx i q 1).val = (q ⟨0, by decide⟩).val :=
  dot_S256x1024_S1024x64_S256x64_1_0_0_1_n_n.lhsIdx_val_of_single rfl i q
private theorem rhsP_0 (i : S256x64.Idx) (q : dot_S256x1024_S1024x64_S256x64_1_0_0_1_n_n.contr.Idx) :
    (dot_S256x1024_S1024x64_S256x64_1_0_0_1_n_n.rhsIdx i q 0).val = (q ⟨0, by decide⟩).val :=
  dot_S256x1024_S1024x64_S256x64_1_0_0_1_n_n.rhsIdx_val_of_single rfl i q
private theorem rhsP_1 (i : S256x64.Idx) (q : dot_S256x1024_S1024x64_S256x64_1_0_0_1_n_n.contr.Idx) :
    (dot_S256x1024_S1024x64_S256x64_1_0_0_1_n_n.rhsIdx i q 1).val = (i 1).val := by
  unfold DotDims.rhsIdx
  rw [dif_neg (show ¬(1 : Fin S1024x64.rank) ∈ dot_S256x1024_S1024x64_S256x64_1_0_0_1_n_n.rhsBatch by decide), dif_pos (show (1 : Fin S1024x64.rank) ∈ dot_S256x1024_S1024x64_S256x64_1_0_0_1_n_n.rhsNonContracting by decide)]
  rfl

/-- The slab times the weights at (r, h): the sum over c of x[0, r, c] * w[c, h]. -/
private theorem proj_apply (w : FVec Ideal S1024x64 .bf16) (xs : Vec Ideal S1x256x1024 .f32) (r : Fin 256) (h : Fin 64) :
    Cert.KernelIdeal.Flash.proj w xs (ix2 r h) = ∑ c : Fin 1024, xs (ix3 (0 : Fin 1) r c) * w (ix2 c h) := by
  unfold Cert.KernelIdeal.Flash.proj
  simp only [matmul]
  rw [Ideal.matmul_constant_zero_apply, ← Equiv.sum_comp (contrEquiv1 dot_S256x1024_S1024x64_S256x64_1_0_0_1_n_n 1024 rfl rfl).symm]
  refine Finset.sum_congr rfl fun k _ => ?_
  have hk := contrEquiv1_symm_val dot_S256x1024_S1024x64_S256x64_1_0_0_1_n_n 1024 rfl rfl k
  have el : dot_S256x1024_S1024x64_S256x64_1_0_0_1_n_n.lhsIdx (ix2 r h) ((contrEquiv1 dot_S256x1024_S1024x64_S256x64_1_0_0_1_n_n 1024 rfl rfl).symm k) = ix2 r k := funext fun a => Fin.ext (by
    match a with
    | ⟨0, _⟩ => exact lhsP_0 _ _
    | ⟨1, _⟩ => exact (lhsP_1 _ _).trans hk)
  have er : dot_S256x1024_S1024x64_S256x64_1_0_0_1_n_n.rhsIdx (ix2 r h) ((contrEquiv1 dot_S256x1024_S1024x64_S256x64_1_0_0_1_n_n 1024 rfl rfl).symm k) = ix2 k h := funext fun a => Fin.ext (by
    match a with
    | ⟨0, _⟩ => exact (rhsP_0 _ _).trans hk
    | ⟨1, _⟩ => exact rhsP_1 _ _)
  rw [el, er]
  unfold xcast
  rw [truncf_apply, shapeCast_1ab_ab_apply]

/-- With a real slab and real weights, the product at (r, h) is the real projection. -/
private theorem proj_real (W : Fin 1024 → Fin 64 → ℝ) (t : Fin 8) {w : Vec Ideal S1024x64 .f32} {xs : Vec Ideal S1x256x1024 .f32}
    (hw : IsW W w) (hxs : IsSlab X t xs) (r : Fin 256) (h : Fin 64) :
    (Cert.KernelIdeal.Flash.proj (wcast w) xs (ix2 r h) : EReal) = ((Cert.Spec.proj X W (row t r) h : ℝ) : EReal) := by
  rw [proj_apply]
  unfold Cert.Spec.proj
  rw [coe_sum]
  refine Finset.sum_congr rfl fun c _ => ?_
  unfold wcast
  rw [truncf_apply, hxs r c, hw c h, EReal.coe_mul]

/-- A key or value tile of slab t is the projection of the slab's rows. -/
theorem kv_sem (W : Fin 1024 → Fin 64 → ℝ) (t : Fin 8) {w : Vec Ideal S1024x64 .f32} {xs : Vec Ideal S1x256x1024 .f32}
    (hw : IsW W w) (hxs : IsSlab X t xs) : IsKV X W t (kvTile (wcast w) xs) := by
  intro r h
  unfold kvTile
  rw [shapeCast_self, truncf_apply]
  exact proj_real X W t hw hxs r h

/-- The attention scale's word is the real 1/32. -/
private theorem scale_word : (Scalar.ofBits (F := Ideal) .f32 0x3D000000#32 : EReal) = ((scR : ℝ) : EReal) := by
  show Ideal.ofBits .f32 0x3D000000#32 = _
  unfold scR
  simp [Ideal.ofBits, Ideal.ieee, -EReal.coe_mul]; norm_num

/-- A query tile of slab t is the scaled projection of the slab's rows. -/
theorem q_sem (t : Fin 8) {w : Vec Ideal S1024x64 .f32} {xs : Vec Ideal S1x256x1024 .f32}
    (hw : IsW WQ w) (hxs : IsSlab X t xs) : IsQ X WQ t (qTile (wcast w) xs) := by
  intro r h
  unfold qTile
  rw [truncf_apply, mulf_apply, broadcast_apply, proj_real X WQ t hw hxs r h, scale_word, EReal.coe_mul]

/-! The operand indices of the query-times-key product, which contracts the second axis of both operands: the left
    operand is read at (i 0, q), the right at (i 1, q). -/

private theorem lhsS_0 (i : S256x256.Idx) (q : dot_S256x64_S256x64_S256x256_1_1_0_0_n_n.contr.Idx) :
    (dot_S256x64_S256x64_S256x256_1_1_0_0_n_n.lhsIdx i q 0).val = (i 0).val := by
  unfold DotDims.lhsIdx
  rw [dif_neg (show ¬(0 : Fin S256x64.rank) ∈ dot_S256x64_S256x64_S256x256_1_1_0_0_n_n.lhsBatch by decide), dif_pos (show (0 : Fin S256x64.rank) ∈ dot_S256x64_S256x64_S256x256_1_1_0_0_n_n.lhsNonContracting by decide)]
  rfl
private theorem lhsS_1 (i : S256x256.Idx) (q : dot_S256x64_S256x64_S256x256_1_1_0_0_n_n.contr.Idx) :
    (dot_S256x64_S256x64_S256x256_1_1_0_0_n_n.lhsIdx i q 1).val = (q ⟨0, by decide⟩).val :=
  dot_S256x64_S256x64_S256x256_1_1_0_0_n_n.lhsIdx_val_of_single rfl i q
private theorem rhsS_0 (i : S256x256.Idx) (q : dot_S256x64_S256x64_S256x256_1_1_0_0_n_n.contr.Idx) :
    (dot_S256x64_S256x64_S256x256_1_1_0_0_n_n.rhsIdx i q 0).val = (i 1).val := by
  unfold DotDims.rhsIdx
  rw [dif_neg (show ¬(0 : Fin S256x64.rank) ∈ dot_S256x64_S256x64_S256x256_1_1_0_0_n_n.rhsBatch by decide), dif_pos (show (0 : Fin S256x64.rank) ∈ dot_S256x64_S256x64_S256x256_1_1_0_0_n_n.rhsNonContracting by decide)]
  rfl
private theorem rhsS_1 (i : S256x256.Idx) (q : dot_S256x64_S256x64_S256x256_1_1_0_0_n_n.contr.Idx) :
    (dot_S256x64_S256x64_S256x256_1_1_0_0_n_n.rhsIdx i q 1).val = (q ⟨0, by decide⟩).val :=
  dot_S256x64_S256x64_S256x256_1_1_0_0_n_n.rhsIdx_val_of_single rfl i q

/-- A query tile against a key tile at (r, c): the sum over h of q[r, h] * k[c, h]. -/
private theorem scoresOff_apply (q : FVec Ideal S256x64 .bf16) (k : Vec Ideal S256x64 .bf16) (r c : Fin 256) :
    scoresOff q k (ix2 r c) = ∑ h : Fin 64, q (ix2 r h) * k (ix2 c h) := by
  unfold scoresOff
  simp only [matmul]
  rw [Ideal.matmul_constant_zero_apply, ← Equiv.sum_comp (contrEquiv1 dot_S256x64_S256x64_S256x256_1_1_0_0_n_n 64 rfl rfl).symm]
  refine Finset.sum_congr rfl fun h _ => ?_
  have hk := contrEquiv1_symm_val dot_S256x64_S256x64_S256x256_1_1_0_0_n_n 64 rfl rfl h
  have el : dot_S256x64_S256x64_S256x256_1_1_0_0_n_n.lhsIdx (ix2 r c) ((contrEquiv1 dot_S256x64_S256x64_S256x256_1_1_0_0_n_n 64 rfl rfl).symm h) = ix2 r h := funext fun a => Fin.ext (by
    match a with
    | ⟨0, _⟩ => exact lhsS_0 _ _
    | ⟨1, _⟩ => exact (lhsS_1 _ _).trans hk)
  have er : dot_S256x64_S256x64_S256x256_1_1_0_0_n_n.rhsIdx (ix2 r c) ((contrEquiv1 dot_S256x64_S256x64_S256x256_1_1_0_0_n_n 64 rfl rfl).symm h) = ix2 c h := funext fun a => Fin.ext (by
    match a with
    | ⟨0, _⟩ => exact rhsS_0 _ _
    | ⟨1, _⟩ => exact (rhsS_1 _ _).trans hk)
  rw [el, er]

/-- A query tile of scaled projections against a key tile of projections at (r, c): the scaled score. -/
private theorem scoresOff_real (qi kt : Fin 8) {q : FVec Ideal S256x64 .bf16} {k : Vec Ideal S256x64 .bf16}
    (hq : IsQ X WQ qi q) (hk : IsKV X WK kt k) (r c : Fin 256) :
    (scoresOff q k (ix2 r c) : EReal) = ((score scR X WQ WK (row qi r) (row kt c) : ℝ) : EReal) := by
  rw [scoresOff_apply]
  unfold score
  rw [Finset.sum_mul, coe_sum]
  refine Finset.sum_congr rfl fun h _ => ?_
  rw [hq r h, hk c h, ← EReal.coe_mul]
  exact congrArg _ (by ring)

/-- Below the diagonal every key precedes every query: the plain product is the score tile. -/
theorem sOff_sem (qi kt : Fin 8) (hlt : kt < qi) {q : FVec Ideal S256x64 .bf16} {k : Vec Ideal S256x64 .bf16}
    (hq : IsQ X WQ qi q) (hk : IsKV X WK kt k) : IsS X WQ WK qi kt (scoresOff q k) := by
  intro r c
  have hle : row kt c ≤ row qi r := by
    rw [Fin.le_def]; unfold row
    have := r.isLt; have := c.isLt; have : kt.val < qi.val := hlt
    show 256 * kt.val + c.val ≤ 256 * qi.val + r.val
    omega
  rw [if_pos hle]
  exact scoresOff_real X WQ WK qi kt hq hk r c

/-- A number below 2^31 as a 32-bit word, read signed, is that number. -/
private theorem toInt_small {n : Nat} (hn : n < 2 ^ 31) : (BitVec.ofNat 32 n).toInt = (n : Int) := by
  have h1 : (BitVec.ofNat 32 n).toNat = n := by rw [BitVec.toNat_ofNat]; exact Nat.mod_eq_of_lt (by omega)
  rw [BitVec.toInt_eq_toNat_cond, h1]
  split <;> omega

/-- A column of 256 entries broadcast over 256 columns reads, at (r, c), its entry r. -/
private theorem broadcastTo_col {α : Type} (v : S256x1.Idx → α) (h : S256x1.Broadcasts S256x256) (r c : Fin 256) :
    broadcastTo S256x256 v h (ix2 r c) = v (ix2 r (0 : Fin 1)) := by
  refine broadcastTo_apply v h (ix2 r c) (ix2 r (0 : Fin 1)) fun ax => ?_
  match ax with
  | ⟨0, _⟩ => rfl
  | ⟨1, _⟩ => rfl

/-- The mask at (r, c) compares the column's position with the row's, both counted from the tile's start. -/
private theorem causal_apply (off : BitVec 32) (r c : Fin 256) :
    causal off (ix2 r c) = IntOp.cmpi .sle (off + BitVec.ofNat 32 c.val) (off + BitVec.ofNat 32 r.val) := by
  unfold causal
  show IntOp.cmpi .sle (broadcastTo S256x256 _ _ (ix2 r c)) (broadcastTo S256x256 _ _ (ix2 r c)) = _
  rw [broadcastTo_1b_ab_apply, broadcastTo_col]
  show IntOp.cmpi .sle (IntOp.addi off (iota .tc S1x256 32 [1] _ (ix2 (0 : Fin 1) c))) (IntOp.addi off (iota .tc S256x1 32 [0] _ (ix2 r (0 : Fin 1)))) = _
  rw [iota_single_apply, iota_single_apply]
  rfl

/-- On the tile that starts at 256 * qi no position overflows, so the mask is column ≤ row. -/
private theorem causal_iff (qi : Fin 8) (r c : Fin 256) :
    causal (BitVec.ofNat 32 (256 * qi.val)) (ix2 r c) = 1#1 ↔ row qi c ≤ row qi r := by
  have := qi.isLt; have := r.isLt; have := c.isLt
  rw [causal_apply, IntOp.cmpi_sle, ← BitVec.ofNat_add, ← BitVec.ofNat_add, toInt_small (by omega), toInt_small (by omega), Fin.le_def]
  unfold row
  show ((256 * qi.val + c.val : ℕ) : ℤ) ≤ ((256 * qi.val + r.val : ℕ) : ℤ) ↔ 256 * qi.val + c.val ≤ 256 * qi.val + r.val
  omega

/-- On the diagonal tile the mask keeps column ≤ row, and the named constant is minus infinity. -/
theorem sDiag_sem (qi : Fin 8) (off : BitVec 32) (hoff : off = BitVec.ofNat 32 (256 * qi.val))
    {q : FVec Ideal S256x64 .bf16} {k : Vec Ideal S256x64 .bf16}
    (hq : IsQ X WQ qi q) (hk : IsKV X WK qi k) : IsS X WQ WK qi qi (scoresDiag off q k) := by
  intro r c
  subst hoff
  unfold scoresDiag
  rw [select_apply, broadcast_apply]
  by_cases hle : row qi c ≤ row qi r
  · rw [if_pos hle, (causal_iff qi r c).mpr hle, select_one]
    exact scoresOff_real X WQ WK qi qi hq hk r c
  · rw [if_neg hle, eq_zero_of_ne_one (fun h => hle ((causal_iff qi r c).mp h)), select_zero]
    rfl

end Cert.KernelIdeal.Gen.Flash

end
-- ==== Proof.TileSemB.lean ====
/-
  The online-softmax update keeps the invariant: after one more key tile the stored maximum is again a real, and
  the stored sums are the weights' sum and the weighted value sum over the keys seen, rescaled to the new maximum.
  At the end the quotient of the two sums is the attention, because a common shift of a row's scores cancels.
-/
import proofs.«409854_j43765716746377_3_alg».proof.Proof.Sem
import Idealize.ShloMosaic.PureOps.Ideal.Laws
import Idealize.ShloMosaic.Lib.Pipeline.Value
import Idealize.ShloMosaic.Lib.ValueLayout
import Mathlib.Data.Finset.Fold
import Mathlib.Data.EReal.Operations

noncomputable section

namespace Cert.KernelIdeal.Gen.Flash

open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-! ## The kernel's vectors read at an entry -/

/-- The word of minus infinity denotes the bottom of the extended reals. -/
theorem ofBits_ninf : Ideal.ofBits .f32 0xFF800000#32 = ⊥ := by simp [Ideal.ofBits, Ideal.ieee]

/-- A column vector [256,1] broadcast along the rows of a [256,n] tile reads its row's entry. -/
theorem bcast_col_apply {n : ℕ} (x : (⟨2, ![256, 1]⟩ : Shape).Idx → EReal)
    (hb : (⟨2, ![256, 1]⟩ : Shape).Broadcasts ⟨2, ![256, n]⟩) (r : Fin 256) (c : Fin n) :
    broadcastTo ⟨2, ![256, n]⟩ x hb (ix2 r c) = x (ix2 r (0 : Fin 1)) := by
  refine broadcastTo_apply x hb (ix2 r c) (ix2 r (0 : Fin 1)) fun ax => ?_
  match ax with
  | ⟨0, _⟩ => rfl
  | ⟨1, _⟩ => rfl

/-- A vector [256] cast to a column [256,1] reads its entry. -/
theorem cast_col_apply (x : (⟨1, ![256]⟩ : Shape).Idx → EReal)
    (hc : (⟨1, ![256]⟩ : Shape).ShapeCasts ⟨2, ![256, 1]⟩) (r : Fin 256) :
    shapeCast ⟨2, ![256, 1]⟩ x hc (ix2 r (0 : Fin 1)) = x (ix1 r) := by
  refine shapeCast_apply x hc (ix2 r (0 : Fin 1)) (ix1 r) ?_
  rw [Shape.rowMajor_val_one, Shape.rowMajor_val_two]
  show r.val = r.val * 1 + 0
  omega

/-- The index a reduction over the columns inserts is (row, column). -/
theorem lift_row (r : Fin 256) (c : Fin 256) :
    reduces_S256x256_S256.lift (ix1 r) c = (ix2 r c : S256x256.Idx) := by
  refine funext fun a => Fin.ext ?_
  match a with
  | ⟨0, _⟩ => rfl
  | ⟨1, _⟩ => rfl

/-- The running maximum read at a row. -/
theorem mNew_apply (s : FVec Ideal S256x256 .f32) (m : Vec Ideal S256x1 .f32) (r : Fin 256) :
    (mNew s m (ix2 r (0 : Fin 1)) : EReal)
      = max (m (ix2 r (0 : Fin 1))) ((Finset.univ : Finset (Fin 256)).fold max ⊥ (fun c => (s (ix2 r c) : EReal))) := by
  unfold mNew
  rw [maximumf_apply]
  refine congrArg (max _) ?_
  refine (cast_col_apply _ _ r).trans ?_
  refine (Ideal.multiReduction_maximumf_single s _ reduces_S256x256_S256 _ _ (ix1 r)).trans ?_
  show (Finset.univ : Finset (Fin 256)).fold max (Ideal.ofBits .f32 0xFF800000#32) _ = _
  rw [ofBits_ninf]
  refine congrArg (fun f => (Finset.univ : Finset (Fin 256)).fold max ⊥ f) (funext fun c => ?_)
  exact congrArg s (lift_row r c)

/-- The tile's weights read at an entry. -/
theorem pExp_apply (s : FVec Ideal S256x256 .f32) (m : Vec Ideal S256x1 .f32) (r c : Fin 256) :
    (pExp s m (ix2 r c) : EReal) = Ideal.exp (s (ix2 r c) - mNew s m (ix2 r (0 : Fin 1))) := by
  unfold pExp
  show Ideal.exp (subf s _ (ix2 r c)) = _
  rw [subf_apply, bcast_col_apply]

/-- The rescaling factor read at a row. -/
theorem alpha_apply (s : FVec Ideal S256x256 .f32) (m : Vec Ideal S256x1 .f32) (r : Fin 256) :
    (alpha s m (ix2 r (0 : Fin 1)) : EReal) = Ideal.exp (m (ix2 r (0 : Fin 1)) - mNew s m (ix2 r (0 : Fin 1))) := rfl

/-- The running denominator read at a row. -/
theorem lNew_apply (s : FVec Ideal S256x256 .f32) (m l : Vec Ideal S256x1 .f32) (r : Fin 256) :
    (lNew s m l (ix2 r (0 : Fin 1)) : EReal)
      = alpha s m (ix2 r (0 : Fin 1)) * l (ix2 r (0 : Fin 1)) + ∑ c : Fin 256, (pExp s m (ix2 r c) : EReal) := by
  unfold lNew
  rw [shapeCast_self, addf_apply, mulf_apply]
  refine congrArg (fun z : EReal => alpha s m (ix2 r (0 : Fin 1)) * l (ix2 r (0 : Fin 1)) + z) ?_
  refine (cast_col_apply _ _ r).trans ?_
  refine (Ideal.multiReduction_add_single (pExp s m) _ reduces_S256x256_S256 _ _ (ix1 r)).trans ?_
  show ∑ c : Fin 256, pExp s m (reduces_S256x256_S256.lift (ix1 r) c) = _
  exact Finset.sum_congr rfl fun c _ => congrArg (pExp s m) (lift_row r c)

/-- The four coordinates of the operand indices of the product weights × values. -/
theorem pv_lhs_0 (i : S256x64.Idx) (q : dot_S256x256_S256x64_S256x64_1_0_0_1_n_n.contr.Idx) :
    (dot_S256x256_S256x64_S256x64_1_0_0_1_n_n.lhsIdx i q 0).val = (i 0).val := by
  unfold DotDims.lhsIdx
  rw [dif_neg (show ¬(0 : Fin S256x256.rank) ∈ dot_S256x256_S256x64_S256x64_1_0_0_1_n_n.lhsBatch by decide), dif_pos (show (0 : Fin S256x256.rank) ∈ dot_S256x256_S256x64_S256x64_1_0_0_1_n_n.lhsNonContracting by decide)]
  rfl
theorem pv_lhs_1 (i : S256x64.Idx) (q : dot_S256x256_S256x64_S256x64_1_0_0_1_n_n.contr.Idx) :
    (dot_S256x256_S256x64_S256x64_1_0_0_1_n_n.lhsIdx i q 1).val = (q ⟨0, by decide⟩).val :=
  dot_S256x256_S256x64_S256x64_1_0_0_1_n_n.lhsIdx_val_of_single rfl i q
theorem pv_rhs_0 (i : S256x64.Idx) (q : dot_S256x256_S256x64_S256x64_1_0_0_1_n_n.contr.Idx) :
    (dot_S256x256_S256x64_S256x64_1_0_0_1_n_n.rhsIdx i q 0).val = (q ⟨0, by decide⟩).val :=
  dot_S256x256_S256x64_S256x64_1_0_0_1_n_n.rhsIdx_val_of_single rfl i q
theorem pv_rhs_1 (i : S256x64.Idx) (q : dot_S256x256_S256x64_S256x64_1_0_0_1_n_n.contr.Idx) :
    (dot_S256x256_S256x64_S256x64_1_0_0_1_n_n.rhsIdx i q 1).val = (i 1).val := by
  unfold DotDims.rhsIdx
  rw [dif_neg (show ¬(1 : Fin S256x64.rank) ∈ dot_S256x256_S256x64_S256x64_1_0_0_1_n_n.rhsBatch by decide), dif_pos (show (1 : Fin S256x64.rank) ∈ dot_S256x256_S256x64_S256x64_1_0_0_1_n_n.rhsNonContracting by decide)]
  rfl

/-- The product weights × values into the zero accumulator, read at an entry: the sum over the tile's keys. -/
theorem pv_apply (p : FVec Ideal S256x256 .bf16) (v : FVec Ideal S256x64 .bf16) (r : Fin 256) (h : Fin 64) :
    (matmul dot_S256x256_S256x64_S256x64_1_0_0_1_n_n none p v (constant S256x64 .f32 0x00000000#32) (ix2 r h) : EReal)
      = ∑ c : Fin 256, (p (ix2 r c) : EReal) * v (ix2 c h) := by
  simp only [matmul]
  rw [Ideal.matmul_constant_zero_apply, ← Equiv.sum_comp (contrEquiv1 dot_S256x256_S256x64_S256x64_1_0_0_1_n_n 256 rfl rfl).symm]
  refine Finset.sum_congr rfl fun k _ => ?_
  have hk := contrEquiv1_symm_val dot_S256x256_S256x64_S256x64_1_0_0_1_n_n 256 rfl rfl k
  have el : dot_S256x256_S256x64_S256x64_1_0_0_1_n_n.lhsIdx (ix2 r h) ((contrEquiv1 dot_S256x256_S256x64_S256x64_1_0_0_1_n_n 256 rfl rfl).symm k) = (ix2 r k : S256x256.Idx) := funext fun a => Fin.ext (by
    match a with
    | ⟨0, _⟩ => exact pv_lhs_0 _ _
    | ⟨1, _⟩ => exact (pv_lhs_1 _ _).trans hk)
  have er : dot_S256x256_S256x64_S256x64_1_0_0_1_n_n.rhsIdx (ix2 r h) ((contrEquiv1 dot_S256x256_S256x64_S256x64_1_0_0_1_n_n 256 rfl rfl).symm k) = (ix2 k h : S256x64.Idx) := funext fun a => Fin.ext (by
    match a with
    | ⟨0, _⟩ => exact (pv_rhs_0 _ _).trans hk
    | ⟨1, _⟩ => exact pv_rhs_1 _ _)
  rw [el, er]

/-- The running numerator read at an entry. -/
theorem accNew_apply (s : FVec Ideal S256x256 .f32) (v : Vec Ideal S256x64 .bf16) (m : Vec Ideal S256x1 .f32)
    (acc : Vec Ideal S256x64 .f32) (r : Fin 256) (h : Fin 64) :
    (accNew s v m acc (ix2 r h) : EReal)
      = alpha s m (ix2 r (0 : Fin 1)) * acc (ix2 r h) + ∑ c : Fin 256, (pExp s m (ix2 r c) : EReal) * v (ix2 c h) := by
  unfold accNew
  rw [shapeCast_self, addf_apply, mulf_apply, bcast_col_apply, pv_apply]
  rfl

/-- The running maximum is stored as it is. -/
theorem mStore_eq (s : FVec Ideal S256x256 .f32) (m : Vec Ideal S256x1 .f32) : mStore s m = mNew s m := by
  unfold mStore
  rw [shapeCast_self]

/-- The output tile read at an entry: numerator over the row's denominator. -/
theorem outTile_apply (acc : Vec Ideal S256x64 .f32) (l : Vec Ideal S256x1 .f32) (r : Fin 256) (h : Fin 64) :
    (outTile acc l (ix3 (0 : Fin 1) r h) : EReal) = Ideal.div (acc (ix2 r h)) (l (ix2 r (0 : Fin 1))) := by
  unfold outTile
  rw [shapeCast_ab_1ab_apply, divf_apply, bcast_col_apply]

theorem m0_apply (r : Fin 256) : (m0 (F := Ideal) (ix2 r (0 : Fin 1)) : EReal) = ⊥ := by
  unfold m0
  rw [shapeCast_self, broadcast_apply]
  exact ofBits_ninf
theorem l0_apply (r : Fin 256) : (l0 (F := Ideal) (ix2 r (0 : Fin 1)) : EReal) = 0 := by
  unfold l0
  rw [shapeCast_self, broadcast_apply]
  exact Ideal.ofBits_zero_f32
theorem acc0_apply (r : Fin 256) (h : Fin 64) : (acc0 (F := Ideal) (ix2 r h) : EReal) = 0 := by
  unfold acc0
  rw [shapeCast_self, broadcast_apply]
  exact Ideal.ofBits_zero_f32

/-- The state a query tile starts from. -/
theorem init_sem (qi : Fin 8) : Inv X WQ WK WV qi 0 (m0 (F := Ideal)) (l0 (F := Ideal)) (acc0 (F := Ideal)) :=
  fun r => Or.inl ⟨rfl, m0_apply r, l0_apply r, fun h => acc0_apply r h⟩

/-! ## Sums over the keys seen, and the row maximum -/

/-- A real sum read in the extended reals, term by term. -/
theorem coe_sum {ι : Type} (t : Finset ι) (f : ι → ℝ) : ((∑ c ∈ t, f c : ℝ) : EReal) = ∑ c ∈ t, (f c : EReal) := by
  classical
  induction t using Finset.induction_on with
  | empty => simp
  | insert a t ha ih => rw [Finset.sum_insert ha, Finset.sum_insert ha, EReal.coe_add, ih]

theorem row_val (t : Fin 8) (r : Fin 256) : (row t r).val = 256 * t.val + r.val := rfl

theorem row_injective (t : Fin 8) : Function.Injective (row t) := fun a b h => Fin.ext (by
  have := congrArg Fin.val h
  simp only [row_val] at this
  omega)

/-- The keys of the first n + 1 tiles are those of the first n tiles and the rows of tile n. -/
theorem sum_tiles_succ (kt : Fin 8) (g : Fin 2048 → ℝ) :
    ∑ j : Fin 2048, (if j.val < 256 * (kt.val + 1) then g j else 0)
      = ∑ j : Fin 2048, (if j.val < 256 * kt.val then g j else 0) + ∑ c : Fin 256, g (row kt c) := by
  classical
  have hsplit : ∀ j : Fin 2048, (if j.val < 256 * (kt.val + 1) then g j else 0)
      = (if j.val < 256 * kt.val then g j else 0)
        + (if 256 * kt.val ≤ j.val ∧ j.val < 256 * (kt.val + 1) then g j else 0) := by
    intro j
    by_cases h1 : j.val < 256 * kt.val
    · have h2 : j.val < 256 * (kt.val + 1) := by omega
      have h3 : ¬ (256 * kt.val ≤ j.val ∧ j.val < 256 * (kt.val + 1)) := by omega
      rw [if_pos h1, if_pos h2, if_neg h3, add_zero]
    · by_cases h2 : j.val < 256 * (kt.val + 1)
      · have h3 : 256 * kt.val ≤ j.val ∧ j.val < 256 * (kt.val + 1) := by omega
        rw [if_neg h1, if_pos h2, if_pos h3, zero_add]
      · have h3 : ¬ (256 * kt.val ≤ j.val ∧ j.val < 256 * (kt.val + 1)) := by omega
        rw [if_neg h1, if_neg h2, if_neg h3, add_zero]
  rw [Finset.sum_congr rfl (fun j _ => hsplit j), Finset.sum_add_distrib]
  refine congrArg (fun z : ℝ => ∑ j : Fin 2048, (if j.val < 256 * kt.val then g j else 0) + z) ?_
  rw [← Finset.sum_filter]
  have himg : (Finset.univ.filter fun j : Fin 2048 => 256 * kt.val ≤ j.val ∧ j.val < 256 * (kt.val + 1))
      = Finset.univ.image (row kt) := by
    ext j
    simp only [Finset.mem_filter, Finset.mem_univ, true_and, Finset.mem_image]
    constructor
    · rintro ⟨h1, h2⟩
      exact ⟨⟨j.val - 256 * kt.val, by omega⟩, Fin.ext (by show 256 * kt.val + (j.val - 256 * kt.val) = j.val; omega)⟩
    · rintro ⟨c, rfl⟩
      have := c.isLt
      exact ⟨by show 256 * kt.val ≤ 256 * kt.val + c.val; omega, by show 256 * kt.val + c.val < 256 * (kt.val + 1); omega⟩
  rw [himg, Finset.sum_image (fun a _ b _ h => row_injective kt h)]

/-- Changing the subtracted maximum rescales a weight by an exponential. -/
theorem wgt_rescale (μ μ' : ℝ) (i j : Fin 2048) :
    Real.exp (μ - μ') * wgt scR X WQ WK μ i j = wgt scR X WQ WK μ' i j := by
  unfold wgt
  split
  · rw [← Real.exp_add]; congr 1; ring
  · rw [mul_zero]

theorem part_rescale (n : ℕ) (μ μ' : ℝ) (i j : Fin 2048) :
    Real.exp (μ - μ') * part X WQ WK n μ i j = part X WQ WK n μ' i j := by
  unfold part
  split
  · exact wgt_rescale X WQ WK μ μ' i j
  · rw [mul_zero]

/-- An entry of the score tile minus a real maximum, exponentiated, is the causal weight. -/
theorem exp_entry (μ' : ℝ) (i j : Fin 2048) :
    Ideal.exp ((if j ≤ i then ((score scR X WQ WK i j : ℝ) : EReal) else ⊥) - (μ' : EReal))
      = ((wgt scR X WQ WK μ' i j : ℝ) : EReal) := by
  unfold wgt
  split
  · rw [← EReal.coe_sub, Ideal.exp_coe]
  · rw [EReal.bot_sub, Ideal.exp_bot, EReal.coe_zero]

/-- The maximum of a value below the top and of entries below the top, one of them above the bottom, is a real. -/
theorem max_fold_real (M : EReal) (f : Fin 256 → EReal) (hM : M ≠ ⊤) (hf : ∀ c, f c ≠ ⊤) (c0 : Fin 256)
    (h0 : f c0 ≠ ⊥) : ∃ μ : ℝ, max M ((Finset.univ : Finset (Fin 256)).fold max ⊥ f) = (μ : EReal) := by
  refine ⟨(max M ((Finset.univ : Finset (Fin 256)).fold max ⊥ f)).toReal, (EReal.coe_toReal ?_ ?_).symm⟩
  · refine ne_of_lt (max_lt (lt_top_iff_ne_top.mpr hM) ?_)
    rw [Finset.fold_max_lt]
    exact ⟨bot_lt_top, fun c _ => lt_top_iff_ne_top.mpr (hf c)⟩
  · refine ne_of_gt (lt_of_lt_of_le (bot_lt_iff_ne_bot.mpr h0) (le_trans ?_ (le_max_right _ _)))
    rw [Finset.le_fold_max]
    exact Or.inr ⟨c0, Finset.mem_univ _, le_rfl⟩

/-! ## The update and the final quotient -/

theorem part_mul (n : ℕ) (μ : ℝ) (i j : Fin 2048) (y : ℝ) :
    part X WQ WK n μ i j * y = if j.val < 256 * n then wgt scR X WQ WK μ i j * y else 0 := by
  unfold part
  split
  · rfl
  · exact zero_mul y

/-- One key tile more. -/
theorem step_sem (qi kt : Fin 8) (hle : kt ≤ qi) {m l : Vec Ideal S256x1 .f32} {acc : Vec Ideal S256x64 .f32}
    {s : FVec Ideal S256x256 .f32} {v : Vec Ideal S256x64 .bf16}
    (hinv : Inv X WQ WK WV qi kt.val m l acc) (hs : IsS X WQ WK qi kt s) (hv : IsKV X WV kt v) :
    Inv X WQ WK WV qi (kt.val + 1) (mStore s m) (lNew s m l) (accNew s v m acc) := by
  intro r
  -- the new maximum of the row is a real
  have hMtop : (m (ix2 r (0 : Fin 1)) : EReal) ≠ ⊤ := by
    rcases hinv r with ⟨_, hm, _, _⟩ | ⟨μ, hm, _, _⟩
    · rw [hm]; exact bot_ne_top
    · rw [hm]; exact EReal.coe_ne_top μ
  have hstop : ∀ c : Fin 256, (s (ix2 r c) : EReal) ≠ ⊤ := by
    intro c
    rw [hs r c]
    split
    · exact EReal.coe_ne_top _
    · exact bot_ne_top
  have hc0 : row kt (0 : Fin 256) ≤ row qi r := by
    have h1 : kt.val ≤ qi.val := hle
    show (row kt (0 : Fin 256)).val ≤ (row qi r).val
    rw [row_val, row_val]
    show 256 * kt.val + 0 ≤ 256 * qi.val + r.val
    omega
  have hs0 : (s (ix2 r (0 : Fin 256)) : EReal) ≠ ⊥ := by
    rw [hs r 0, if_pos hc0]
    exact EReal.coe_ne_bot _
  obtain ⟨μ', hμ'⟩ := max_fold_real _ (fun c => (s (ix2 r c) : EReal)) hMtop hstop 0 hs0
  have hmN : (mNew s m (ix2 r (0 : Fin 1)) : EReal) = (μ' : EReal) := (mNew_apply s m r).trans hμ'
  -- the tile's weights
  have hp : ∀ c : Fin 256,
      (pExp s m (ix2 r c) : EReal) = ((wgt scR X WQ WK μ' (row qi r) (row kt c) : ℝ) : EReal) := by
    intro c
    rw [pExp_apply, hmN, hs r c]
    exact exp_entry X WQ WK μ' (row qi r) (row kt c)
  -- the rescaling factor carries the old sums to the new maximum
  have hold : ∃ (a L : ℝ) (A : Fin 64 → ℝ), (alpha s m (ix2 r (0 : Fin 1)) : EReal) = (a : EReal)
      ∧ (l (ix2 r (0 : Fin 1)) : EReal) = (L : EReal) ∧ (∀ h, (acc (ix2 r h) : EReal) = (A h : EReal))
      ∧ a * L = ∑ j, part X WQ WK kt.val μ' (row qi r) j
      ∧ ∀ h, a * A h = ∑ j, part X WQ WK kt.val μ' (row qi r) j * proj X WV j h := by
    rcases hinv r with ⟨hn, hm, hl, hacc⟩ | ⟨μ, hm, hl, hacc⟩
    · refine ⟨0, 0, fun _ => 0, ?_, ?_, ?_, ?_, ?_⟩
      · rw [alpha_apply, hm, EReal.bot_sub, Ideal.exp_bot, EReal.coe_zero]
      · rw [hl, EReal.coe_zero]
      · intro h; rw [hacc h, EReal.coe_zero]
      · rw [mul_zero]
        refine (Finset.sum_eq_zero fun j _ => ?_).symm
        unfold part
        rw [hn, if_neg (by omega)]
      · intro h
        rw [mul_zero]
        refine (Finset.sum_eq_zero fun j _ => ?_).symm
        unfold part
        rw [hn, if_neg (by omega), zero_mul]
    · refine ⟨Real.exp (μ - μ'), _, _, ?_, hl, hacc, ?_, ?_⟩
      · rw [alpha_apply, hm, hmN, ← EReal.coe_sub, Ideal.exp_coe]
      · rw [Finset.mul_sum]
        exact Finset.sum_congr rfl fun j _ => part_rescale X WQ WK _ μ μ' _ j
      · intro h
        rw [Finset.mul_sum]
        refine Finset.sum_congr rfl fun j _ => ?_
        rw [← mul_assoc, part_rescale]
  obtain ⟨a, L, A, ha, hL, hA, haL, haA⟩ := hold
  refine Or.inr ⟨μ', ?_, ?_, ?_⟩
  · rw [mStore_eq]; exact hmN
  · have e1 : ∑ c : Fin 256, (pExp s m (ix2 r c) : EReal)
        = ((∑ c : Fin 256, wgt scR X WQ WK μ' (row qi r) (row kt c) : ℝ) : EReal) := by
      rw [coe_sum]
      exact Finset.sum_congr rfl fun c _ => hp c
    rw [lNew_apply, ha, hL, e1, ← EReal.coe_mul, ← EReal.coe_add, haL]
    refine congrArg (fun x : ℝ => (x : EReal)) ?_
    exact (sum_tiles_succ kt (fun j => wgt scR X WQ WK μ' (row qi r) j)).symm
  · intro h
    have e1 : ∑ c : Fin 256, (pExp s m (ix2 r c) : EReal) * v (ix2 c h)
        = ((∑ c : Fin 256, wgt scR X WQ WK μ' (row qi r) (row kt c) * proj X WV (row kt c) h : ℝ) : EReal) := by
      rw [coe_sum]
      refine Finset.sum_congr rfl fun c _ => ?_
      rw [hp c, hv c h, ← EReal.coe_mul]
    rw [accNew_apply, ha, hA h, e1, ← EReal.coe_mul, ← EReal.coe_add, haA h]
    refine congrArg (fun x : ℝ => (x : EReal)) ?_
    rw [Finset.sum_congr rfl (fun j _ => part_mul X WQ WK kt.val μ' (row qi r) j (proj X WV j h)),
      Finset.sum_congr rfl (fun j _ => part_mul X WQ WK (kt.val + 1) μ' (row qi r) j (proj X WV j h))]
    exact (sum_tiles_succ kt (fun j => wgt scR X WQ WK μ' (row qi r) j * proj X WV j h)).symm

/-- After the diagonal tile every key a row may attend to has been seen. -/
theorem part_last (qi : Fin 8) (r : Fin 256) (μ : ℝ) (j : Fin 2048) :
    part X WQ WK (qi.val + 1) μ (row qi r) j = wgt scR X WQ WK μ (row qi r) j := by
  unfold part
  split
  · rfl
  · rename_i hj
    unfold wgt
    rw [if_neg]
    intro hle
    have h1 : j.val ≤ (row qi r).val := hle
    rw [row_val] at h1
    have := r.isLt
    omega

/-- After the diagonal tile the quotient is the attention of the tile's rows. -/
theorem out_sem (qi : Fin 8) {m l : Vec Ideal S256x1 .f32} {acc : Vec Ideal S256x64 .f32}
    (hinv : Inv X WQ WK WV qi (qi.val + 1) m l acc) (r : Fin 256) (h : Fin 64) :
    (outTile acc l (ix3 (0 : Fin 1) r h) : EReal) = ((attn scR X WQ WK WV (row qi r) h : ℝ) : EReal) := by
  rcases hinv r with ⟨hn, _⟩ | ⟨μ, _, hl, hacc⟩
  · omega
  · have hden : (∑ j, part X WQ WK (qi.val + 1) μ (row qi r) j) = ∑ j, wgt scR X WQ WK μ (row qi r) j :=
      Finset.sum_congr rfl fun j _ => part_last X WQ WK qi r μ j
    have hnum : (∑ j, part X WQ WK (qi.val + 1) μ (row qi r) j * proj X WV j h)
        = ∑ j, wgt scR X WQ WK μ (row qi r) j * proj X WV j h :=
      Finset.sum_congr rfl fun j _ => by rw [part_last]
    have hpos := denom_pos scR X WQ WK μ (row qi r)
    rw [outTile_apply, hacc h, hl, hnum, hden, Ideal.div_coe hpos.ne', ← EReal.coe_mul,
      ← attn_shift scR X WQ WK WV μ (row qi r) h]
    exact congrArg (fun x : ℝ => (x : EReal)) (div_eq_mul_one_div _ _).symm

end Cert.KernelIdeal.Gen.Flash

end
-- ==== Proof.Loads.lean ====
/-
  What the kernel's loads read: a weight matrix whole; a 256-row slab of the input block, which holds the reals
  of its rows; and a 256-row tile of the key or value scratch after the eight 256-row stores that fill it, which
  is the store of those rows.
-/
import proofs.«409854_j43765716746377_3_alg».proof.Proof.Sem
import proofs.«409854_j43765716746377_3_alg».proof.Proof.Gen.KernelIdeal.Frame.Runs
import Idealize.ShloMosaic.Lib.Pipeline.Value
import Idealize.ShloMosaic.Lib.Pipeline.FrameBody
import Idealize.ShloMosaic.Lib.Pipeline.RowLoads

noncomputable section

namespace Cert.KernelIdeal.Gen.Flash

open Idealize.ShloMosaic Idealize.ShloMosaic.ValueIdx Cert.KernelIdeal Cert.KernelIdeal.Gen Cert.KernelIdeal.Flash Cert.Spec

variable {F : FTy → Type} [FloatOps F] [Named F]

/-- A weight matrix is loaded whole. -/
theorem read_w (arg : Memref sig .tc .vmem S1024x64 .f32) (harg : arg.IsWhole) (w : Vec F S1024x64 .f32) :
    View.readAt (Elt F) arg.view (Rect.unit (s := S1024x64) ![0, 0] S1024x64.size inb_S1024x64_S1024x64_0_0).toLoadRect (harg.unread w) = w := by
  have hz : (![0, 0] : Fin S1024x64.rank → Nat) = fun _ => 0 := by funext a; fin_cases a <;> rfl
  simp only [View.readAt_eq_ld, harg.read_unread, View.ld_unit_zero (S := S1024x64) hz]

/-- The slab of rows o to o + 255 of the input block holds the reals of the t-th tile's rows, o = 256 t. -/
theorem slab_sem (X : Fin 2048 → Fin 1024 → ℝ) (x0 : Vec Ideal S1x2048x1024 .f32)
    (hx : ∀ (i : Fin 2048) (c : Fin 1024), (x0 (ix3 (0 : Fin 1) i c) : EReal) = ((X i c : ℝ) : EReal))
    (arg1 : Memref sig .tc .vmem S1x2048x1024 .f32) (harg1 : arg1.IsWhole) (t : Fin 8) (o : Nat) (ho : o = 256 * t.val)
    (inb : ∀ a, (![0, o, 0] : Fin 3 → Nat) a + S1x256x1024.size a ≤ S1x2048x1024.size a) :
    IsSlab X t (View.readAt (Elt Ideal) arg1.view (Rect.unit (s := S1x2048x1024) ![0, o, 0] S1x256x1024.size inb).toLoadRect (harg1.unread x0)) := by
  intro r c
  simp only [View.readAt_eq_ld, harg1.read_unread]
  show (x0 ((Rect.unit (s := S1x2048x1024) ![0, o, 0] S1x256x1024.size inb).idx (ix3 (0 : Fin 1) r c)) : EReal) = _
  rw [← hx (row t r) c]
  refine congrArg x0 ?_
  funext a; apply Fin.ext
  fin_cases a
  · show 0 + 1 * 0 = 0; omega
  · show o + 1 * r.val = 256 * t.val + r.val; omega
  · show 0 + 1 * c.val = c.val; omega

/-- A load of rows 0 to 255 after the eight 256-row stores reads the store of those rows. -/
theorem read_kv0 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![0, 0] S256x64.size inb_S2048x64_S256x64_0_0).toLoadRect = p0 := by
  refine (View.readCov_cons_of_rows_disjoint (m := 2048) (n := 64) (k := 256) (k' := 256) v 1792 0 (Or.inr (by norm_num)) p7 _ inb_S2048x64_S256x64_1792_0 inb_S2048x64_S256x64_0_0).trans ?_
  refine (View.readCov_cons_of_rows_disjoint (m := 2048) (n := 64) (k := 256) (k' := 256) v 1536 0 (Or.inr (by norm_num)) p6 _ inb_S2048x64_S256x64_1536_0 inb_S2048x64_S256x64_0_0).trans ?_
  refine (View.readCov_cons_of_rows_disjoint (m := 2048) (n := 64) (k := 256) (k' := 256) v 1280 0 (Or.inr (by norm_num)) p5 _ inb_S2048x64_S256x64_1280_0 inb_S2048x64_S256x64_0_0).trans ?_
  refine (View.readCov_cons_of_rows_disjoint (m := 2048) (n := 64) (k := 256) (k' := 256) v 1024 0 (Or.inr (by norm_num)) p4 _ inb_S2048x64_S256x64_1024_0 inb_S2048x64_S256x64_0_0).trans ?_
  refine (View.readCov_cons_of_rows_disjoint (m := 2048) (n := 64) (k := 256) (k' := 256) v 768 0 (Or.inr (by norm_num)) p3 _ inb_S2048x64_S256x64_768_0 inb_S2048x64_S256x64_0_0).trans ?_
  refine (View.readCov_cons_of_rows_disjoint (m := 2048) (n := 64) (k := 256) (k' := 256) v 512 0 (Or.inr (by norm_num)) p2 _ inb_S2048x64_S256x64_512_0 inb_S2048x64_S256x64_0_0).trans ?_
  refine (View.readCov_cons_of_rows_disjoint (m := 2048) (n := 64) (k := 256) (k' := 256) v 256 0 (Or.inr (by norm_num)) p1 _ inb_S2048x64_S256x64_256_0 inb_S2048x64_S256x64_0_0).trans ?_
  exact View.readCov_cons_toLoadRect _ _ _ _

/-- A load of rows 256 to 511 after the eight 256-row stores reads the store of those rows. -/
theorem read_kv1 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![256, 0] S256x64.size inb_S2048x64_S256x64_256_0).toLoadRect = p1 := by
  refine (View.readCov_cons_of_rows_disjoint (m := 2048) (n := 64) (k := 256) (k' := 256) v 1792 256 (Or.inr (by norm_num)) p7 _ inb_S2048x64_S256x64_1792_0 inb_S2048x64_S256x64_256_0).trans ?_
  refine (View.readCov_cons_of_rows_disjoint (m := 2048) (n := 64) (k := 256) (k' := 256) v 1536 256 (Or.inr (by norm_num)) p6 _ inb_S2048x64_S256x64_1536_0 inb_S2048x64_S256x64_256_0).trans ?_
  refine (View.readCov_cons_of_rows_disjoint (m := 2048) (n := 64) (k := 256) (k' := 256) v 1280 256 (Or.inr (by norm_num)) p5 _ inb_S2048x64_S256x64_1280_0 inb_S2048x64_S256x64_256_0).trans ?_
  refine (View.readCov_cons_of_rows_disjoint (m := 2048) (n := 64) (k := 256) (k' := 256) v 1024 256 (Or.inr (by norm_num)) p4 _ inb_S2048x64_S256x64_1024_0 inb_S2048x64_S256x64_256_0).trans ?_
  refine (View.readCov_cons_of_rows_disjoint (m := 2048) (n := 64) (k := 256) (k' := 256) v 768 256 (Or.inr (by norm_num)) p3 _ inb_S2048x64_S256x64_768_0 inb_S2048x64_S256x64_256_0).trans ?_
  refine (View.readCov_cons_of_rows_disjoint (m := 2048) (n := 64) (k := 256) (k' := 256) v 512 256 (Or.inr (by norm_num)) p2 _ inb_S2048x64_S256x64_512_0 inb_S2048x64_S256x64_256_0).trans ?_
  exact View.readCov_cons_toLoadRect _ _ _ _

/-- A load of rows 512 to 767 after the eight 256-row stores reads the store of those rows. -/
theorem read_kv2 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![512, 0] S256x64.size inb_S2048x64_S256x64_512_0).toLoadRect = p2 := by
  refine (View.readCov_cons_of_rows_disjoint (m := 2048) (n := 64) (k := 256) (k' := 256) v 1792 512 (Or.inr (by norm_num)) p7 _ inb_S2048x64_S256x64_1792_0 inb_S2048x64_S256x64_512_0).trans ?_
  refine (View.readCov_cons_of_rows_disjoint (m := 2048) (n := 64) (k := 256) (k' := 256) v 1536 512 (Or.inr (by norm_num)) p6 _ inb_S2048x64_S256x64_1536_0 inb_S2048x64_S256x64_512_0).trans ?_
  refine (View.readCov_cons_of_rows_disjoint (m := 2048) (n := 64) (k := 256) (k' := 256) v 1280 512 (Or.inr (by norm_num)) p5 _ inb_S2048x64_S256x64_1280_0 inb_S2048x64_S256x64_512_0).trans ?_
  refine (View.readCov_cons_of_rows_disjoint (m := 2048) (n := 64) (k := 256) (k' := 256) v 1024 512 (Or.inr (by norm_num)) p4 _ inb_S2048x64_S256x64_1024_0 inb_S2048x64_S256x64_512_0).trans ?_
  refine (View.readCov_cons_of_rows_disjoint (m := 2048) (n := 64) (k := 256) (k' := 256) v 768 512 (Or.inr (by norm_num)) p3 _ inb_S2048x64_S256x64_768_0 inb_S2048x64_S256x64_512_0).trans ?_
  exact View.readCov_cons_toLoadRect _ _ _ _

/-- A load of rows 768 to 1023 after the eight 256-row stores reads the store of those rows. -/
theorem read_kv3 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![768, 0] S256x64.size inb_S2048x64_S256x64_768_0).toLoadRect = p3 := by
  refine (View.readCov_cons_of_rows_disjoint (m := 2048) (n := 64) (k := 256) (k' := 256) v 1792 768 (Or.inr (by norm_num)) p7 _ inb_S2048x64_S256x64_1792_0 inb_S2048x64_S256x64_768_0).trans ?_
  refine (View.readCov_cons_of_rows_disjoint (m := 2048) (n := 64) (k := 256) (k' := 256) v 1536 768 (Or.inr (by norm_num)) p6 _ inb_S2048x64_S256x64_1536_0 inb_S2048x64_S256x64_768_0).trans ?_
  refine (View.readCov_cons_of_rows_disjoint (m := 2048) (n := 64) (k := 256) (k' := 256) v 1280 768 (Or.inr (by norm_num)) p5 _ inb_S2048x64_S256x64_1280_0 inb_S2048x64_S256x64_768_0).trans ?_
  refine (View.readCov_cons_of_rows_disjoint (m := 2048) (n := 64) (k := 256) (k' := 256) v 1024 768 (Or.inr (by norm_num)) p4 _ inb_S2048x64_S256x64_1024_0 inb_S2048x64_S256x64_768_0).trans ?_
  exact View.readCov_cons_toLoadRect _ _ _ _

/-- A load of rows 1024 to 1279 after the eight 256-row stores reads the store of those rows. -/
theorem read_kv4 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![1024, 0] S256x64.size inb_S2048x64_S256x64_1024_0).toLoadRect = p4 := by
  refine (View.readCov_cons_of_rows_disjoint (m := 2048) (n := 64) (k := 256) (k' := 256) v 1792 1024 (Or.inr (by norm_num)) p7 _ inb_S2048x64_S256x64_1792_0 inb_S2048x64_S256x64_1024_0).trans ?_
  refine (View.readCov_cons_of_rows_disjoint (m := 2048) (n := 64) (k := 256) (k' := 256) v 1536 1024 (Or.inr (by norm_num)) p6 _ inb_S2048x64_S256x64_1536_0 inb_S2048x64_S256x64_1024_0).trans ?_
  refine (View.readCov_cons_of_rows_disjoint (m := 2048) (n := 64) (k := 256) (k' := 256) v 1280 1024 (Or.inr (by norm_num)) p5 _ inb_S2048x64_S256x64_1280_0 inb_S2048x64_S256x64_1024_0).trans ?_
  exact View.readCov_cons_toLoadRect _ _ _ _

/-- A load of rows 1280 to 1535 after the eight 256-row stores reads the store of those rows. -/
theorem read_kv5 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![1280, 0] S256x64.size inb_S2048x64_S256x64_1280_0).toLoadRect = p5 := by
  refine (View.readCov_cons_of_rows_disjoint (m := 2048) (n := 64) (k := 256) (k' := 256) v 1792 1280 (Or.inr (by norm_num)) p7 _ inb_S2048x64_S256x64_1792_0 inb_S2048x64_S256x64_1280_0).trans ?_
  refine (View.readCov_cons_of_rows_disjoint (m := 2048) (n := 64) (k := 256) (k' := 256) v 1536 1280 (Or.inr (by norm_num)) p6 _ inb_S2048x64_S256x64_1536_0 inb_S2048x64_S256x64_1280_0).trans ?_
  exact View.readCov_cons_toLoadRect _ _ _ _

/-- A load of rows 1536 to 1791 after the eight 256-row stores reads the store of those rows. -/
theorem read_kv6 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![1536, 0] S256x64.size inb_S2048x64_S256x64_1536_0).toLoadRect = p6 := by
  refine (View.readCov_cons_of_rows_disjoint (m := 2048) (n := 64) (k := 256) (k' := 256) v 1792 1536 (Or.inr (by norm_num)) p7 _ inb_S2048x64_S256x64_1792_0 inb_S2048x64_S256x64_1536_0).trans ?_
  exact View.readCov_cons_toLoadRect _ _ _ _

/-- A load of rows 1792 to 2047 after the eight 256-row stores reads the store of those rows. -/
theorem read_kv7 (v : View sig .tc .vmem S2048x64 .bf16)
    (p7 : (Rect.unit (s := S2048x64) ![1792, 0] S256x64.size inb_S2048x64_S256x64_1792_0).shape.Idx → Elt F .bf16)
    (p6 : (Rect.unit (s := S2048x64) ![1536, 0] S256x64.size inb_S2048x64_S256x64_1536_0).shape.Idx → Elt F .bf16)
    (p5 : (Rect.unit (s := S2048x64) ![1280, 0] S256x64.size inb_S2048x64_S256x64_1280_0).shape.Idx → Elt F .bf16)
    (p4 : (Rect.unit (s := S2048x64) ![1024, 0] S256x64.size inb_S2048x64_S256x64_1024_0).shape.Idx → Elt F .bf16)
    (p3 : (Rect.unit (s := S2048x64) ![768, 0] S256x64.size inb_S2048x64_S256x64_768_0).shape.Idx → Elt F .bf16)
    (p2 : (Rect.unit (s := S2048x64) ![512, 0] S256x64.size inb_S2048x64_S256x64_512_0).shape.Idx → Elt F .bf16)
    (p1 : (Rect.unit (s := S2048x64) ![256, 0] S256x64.size inb_S2048x64_S256x64_256_0).shape.Idx → Elt F .bf16)
    (p0 : (Rect.unit (s := S2048x64) ![0, 0] S256x64.size inb_S2048x64_S256x64_0_0).shape.Idx → Elt F .bf16) :
    v.readCov [(⟨Rect.unit ![1792, 0] S256x64.size inb_S2048x64_S256x64_1792_0, p7⟩ : View.Piece (Elt F) S2048x64 .bf16),
      (⟨Rect.unit ![1536, 0] S256x64.size inb_S2048x64_S256x64_1536_0, p6⟩ : View.Piece (Elt F) S2048x64 .bf16),
      (⟨Rect.unit ![1280, 0] S256x64.size inb_S2048x64_S256x64_1280_0, p5⟩ : View.Piece (Elt F) S2048x64 .bf16),
      (⟨Rect.unit ![1024, 0] S256x64.size inb_S2048x64_S256x64_1024_0, p4⟩ : View.Piece (Elt F) S2048x64 .bf16),
      (⟨Rect.unit ![768, 0] S256x64.size inb_S2048x64_S256x64_768_0, p3⟩ : View.Piece (Elt F) S2048x64 .bf16),
      (⟨Rect.unit ![512, 0] S256x64.size inb_S2048x64_S256x64_512_0, p2⟩ : View.Piece (Elt F) S2048x64 .bf16),
      (⟨Rect.unit ![256, 0] S256x64.size inb_S2048x64_S256x64_256_0, p1⟩ : View.Piece (Elt F) S2048x64 .bf16),
      (⟨Rect.unit ![0, 0] S256x64.size inb_S2048x64_S256x64_0_0, p0⟩ : View.Piece (Elt F) S2048x64 .bf16)]
      (Rect.unit (s := S2048x64) ![1792, 0] S256x64.size inb_S2048x64_S256x64_1792_0).toLoadRect = p7 := by
  exact View.readCov_cons_toLoadRect _ _ _ _

end Cert.KernelIdeal.Gen.Flash

end
-- ==== Proof.KVLoads.lean ====
/-
  The key and value tiles the attention steps load: tile j of the key (value) scratch, read back after the eight
  256-row stores that fill it, is the projection of the j-th slab of the input by the key (value) weights.
-/
import proofs.«409854_j43765716746377_3_alg».proof.Proof.TileSemA
import proofs.«409854_j43765716746377_3_alg».proof.Proof.Loads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- A weight matrix as loaded holds the reals the argument holds. -/
theorem w_sem (W : Fin 1024 → Fin 64 → ℝ) {w : Vec Ideal S1024x64 .f32} (hw : IsW W w)
    (arg : Memref sig .tc .vmem S1024x64 .f32) (harg : arg.IsWhole) :
    IsW W (View.readAt (Elt Ideal) arg.view (Rect.unit (s := S1024x64) ![0, 0] S1024x64.size inb_S1024x64_S1024x64_0_0).toLoadRect (harg.unread w)) := by
  rw [read_w arg harg w]
  exact hw

/-- The key tile 0 read back from the scratch is the projection of slab 0. -/
theorem k_load0 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 0 (kernelRun0_A.sl.v129 (F := Ideal) c arg1 harg1 arg3 harg3 arg6 x0 x2) := by
  unfold kernelRun0_A.sl.v129 kernelRun0_A.sl.HS0_8
  erw [read_kv0]
  exact kv_sem X WK 0 (w_sem WK hk _ _) (slab_sem X x0 hx arg1 harg1 0 0 rfl inb_S1x2048x1024_S1x256x1024_0_0_0)

/-- The value tile 0 read back from the scratch is the projection of slab 0. -/
theorem v_load0 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 0 (kernelRun0_A.sl.v130 (F := Ideal) c arg1 harg1 arg4 harg4 arg7 x0 x3) := by
  unfold kernelRun0_A.sl.v130 kernelRun0_A.sl.HS1_8
  erw [read_kv0]
  exact kv_sem X WV 0 (w_sem WV hv _ _) (slab_sem X x0 hx arg1 harg1 0 0 rfl inb_S1x2048x1024_S1x256x1024_0_0_0)

/-- The key tile 1 read back from the scratch is the projection of slab 1. -/
theorem k_load1 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 1 (kernelRun0_A.sl.v (F := Ideal) c arg1 harg1 arg3 harg3 arg6 x0 x2) := by
  unfold kernelRun0_A.sl.v kernelRun0_A.sl.HS0_8
  erw [read_kv1]
  exact kv_sem X WK 1 (w_sem WK hk _ _) (slab_sem X x0 hx arg1 harg1 1 256 rfl inb_S1x2048x1024_S1x256x1024_0_256_0)

/-- The value tile 1 read back from the scratch is the projection of slab 1. -/
theorem v_load1 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 1 (kernelRun0_A.sl.v231 (F := Ideal) c arg1 harg1 arg4 harg4 arg7 x0 x3) := by
  unfold kernelRun0_A.sl.v231 kernelRun0_A.sl.HS1_8
  erw [read_kv1]
  exact kv_sem X WV 1 (w_sem WV hv _ _) (slab_sem X x0 hx arg1 harg1 1 256 rfl inb_S1x2048x1024_S1x256x1024_0_256_0)

/-- The key tile 2 read back from the scratch is the projection of slab 2. -/
theorem k_load2 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 2 (kernelRun0_A.sl.v363 (F := Ideal) c arg1 harg1 arg3 harg3 arg6 x0 x2) := by
  unfold kernelRun0_A.sl.v363 kernelRun0_A.sl.HS0_8
  erw [read_kv2]
  exact kv_sem X WK 2 (w_sem WK hk _ _) (slab_sem X x0 hx arg1 harg1 2 512 rfl inb_S1x2048x1024_S1x256x1024_0_512_0)

/-- The value tile 2 read back from the scratch is the projection of slab 2. -/
theorem v_load2 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 2 (kernelRun0_A.sl.v364 (F := Ideal) c arg1 harg1 arg4 harg4 arg7 x0 x3) := by
  unfold kernelRun0_A.sl.v364 kernelRun0_A.sl.HS1_8
  erw [read_kv2]
  exact kv_sem X WV 2 (w_sem WV hv _ _) (slab_sem X x0 hx arg1 harg1 2 512 rfl inb_S1x2048x1024_S1x256x1024_0_512_0)

/-- The key tile 3 read back from the scratch is the projection of slab 3. -/
theorem k_load3 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 3 (kernelRun0_A.sl.v528 (F := Ideal) c arg1 harg1 arg3 harg3 arg6 x0 x2) := by
  unfold kernelRun0_A.sl.v528 kernelRun0_A.sl.HS0_8
  erw [read_kv3]
  exact kv_sem X WK 3 (w_sem WK hk _ _) (slab_sem X x0 hx arg1 harg1 3 768 rfl inb_S1x2048x1024_S1x256x1024_0_768_0)

/-- The value tile 3 read back from the scratch is the projection of slab 3. -/
theorem v_load3 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 3 (kernelRun0_A.sl.v529 (F := Ideal) c arg1 harg1 arg4 harg4 arg7 x0 x3) := by
  unfold kernelRun0_A.sl.v529 kernelRun0_A.sl.HS1_8
  erw [read_kv3]
  exact kv_sem X WV 3 (w_sem WV hv _ _) (slab_sem X x0 hx arg1 harg1 3 768 rfl inb_S1x2048x1024_S1x256x1024_0_768_0)

/-- The key tile 4 read back from the scratch is the projection of slab 4. -/
theorem k_load4 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 4 (kernelRun0_A.sl.v725 (F := Ideal) c arg1 harg1 arg3 harg3 arg6 x0 x2) := by
  unfold kernelRun0_A.sl.v725 kernelRun0_A.sl.HS0_8
  erw [read_kv4]
  exact kv_sem X WK 4 (w_sem WK hk _ _) (slab_sem X x0 hx arg1 harg1 4 1024 rfl inb_S1x2048x1024_S1x256x1024_0_1024_0)

/-- The value tile 4 read back from the scratch is the projection of slab 4. -/
theorem v_load4 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 4 (kernelRun0_A.sl.v726 (F := Ideal) c arg1 harg1 arg4 harg4 arg7 x0 x3) := by
  unfold kernelRun0_A.sl.v726 kernelRun0_A.sl.HS1_8
  erw [read_kv4]
  exact kv_sem X WV 4 (w_sem WV hv _ _) (slab_sem X x0 hx arg1 harg1 4 1024 rfl inb_S1x2048x1024_S1x256x1024_0_1024_0)

/-- The key tile 5 read back from the scratch is the projection of slab 5. -/
theorem k_load5 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 5 (kernelRun0_A.sl.v954 (F := Ideal) c arg1 harg1 arg3 harg3 arg6 x0 x2) := by
  unfold kernelRun0_A.sl.v954 kernelRun0_A.sl.HS0_8
  erw [read_kv5]
  exact kv_sem X WK 5 (w_sem WK hk _ _) (slab_sem X x0 hx arg1 harg1 5 1280 rfl inb_S1x2048x1024_S1x256x1024_0_1280_0)

/-- The value tile 5 read back from the scratch is the projection of slab 5. -/
theorem v_load5 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 5 (kernelRun0_A.sl.v955 (F := Ideal) c arg1 harg1 arg4 harg4 arg7 x0 x3) := by
  unfold kernelRun0_A.sl.v955 kernelRun0_A.sl.HS1_8
  erw [read_kv5]
  exact kv_sem X WV 5 (w_sem WV hv _ _) (slab_sem X x0 hx arg1 harg1 5 1280 rfl inb_S1x2048x1024_S1x256x1024_0_1280_0)

/-- The key tile 6 read back from the scratch is the projection of slab 6. -/
theorem k_load6 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 6 (kernelRun0_A.sl.v1215 (F := Ideal) c arg1 harg1 arg3 harg3 arg6 x0 x2) := by
  unfold kernelRun0_A.sl.v1215 kernelRun0_A.sl.HS0_8
  erw [read_kv6]
  exact kv_sem X WK 6 (w_sem WK hk _ _) (slab_sem X x0 hx arg1 harg1 6 1536 rfl inb_S1x2048x1024_S1x256x1024_0_1536_0)

/-- The value tile 6 read back from the scratch is the projection of slab 6. -/
theorem v_load6 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 6 (kernelRun0_A.sl.v1216 (F := Ideal) c arg1 harg1 arg4 harg4 arg7 x0 x3) := by
  unfold kernelRun0_A.sl.v1216 kernelRun0_A.sl.HS1_8
  erw [read_kv6]
  exact kv_sem X WV 6 (w_sem WV hv _ _) (slab_sem X x0 hx arg1 harg1 6 1536 rfl inb_S1x2048x1024_S1x256x1024_0_1536_0)

/-- The key tile 7 read back from the scratch is the projection of slab 7. -/
theorem k_load7 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hk : IsW WK x2) : IsKV X WK 7 (kernelRun0_A.sl.v1508 (F := Ideal) c arg1 harg1 arg3 harg3 arg6 x0 x2) := by
  unfold kernelRun0_A.sl.v1508 kernelRun0_A.sl.HS0_8
  erw [read_kv7]
  exact kv_sem X WK 7 (w_sem WK hk _ _) (slab_sem X x0 hx arg1 harg1 7 1792 rfl inb_S1x2048x1024_S1x256x1024_0_1792_0)

/-- The value tile 7 read back from the scratch is the projection of slab 7. -/
theorem v_load7 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hv : IsW WV x3) : IsKV X WV 7 (kernelRun0_A.sl.v1509 (F := Ideal) c arg1 harg1 arg4 harg4 arg7 x0 x3) := by
  unfold kernelRun0_A.sl.v1509 kernelRun0_A.sl.HS1_8
  erw [read_kv7]
  exact kv_sem X WV 7 (w_sem WV hv _ _) (slab_sem X x0 hx arg1 harg1 7 1792 rfl inb_S1x2048x1024_S1x256x1024_0_1792_0)

end Cert.KernelIdeal.Gen.Flash

end
-- ==== Proof.Tile0.lean ====
/-
  Query tile 0 (rows 0 to 255 of a batch row): what the kernel stores for it is the causal attention of
  those rows. The tile's query block is the scaled projection of its slab of the input; key and value tiles
  0 to 0 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 0, entry (r, h), is the attention at row 0 + r. -/
theorem tile0 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay43 (kernelRun0_A.sl.v172 c arg1 harg1 arg2 harg2 arg3 harg3 arg4 harg4 arg6 arg7 arg8 arg10 x0 x1 x2 x3) (kernelRun0_A.sl.v173 c arg1 harg1 arg2 harg2 arg3 harg3 arg6 arg8 arg9 x0 x1 x2)) (ix3 (0 : Fin 1) r h) : EReal) = ((attn scR X WQ WK WV (row 0 r) h : ℝ) : EReal) := by
  have hQ := q_sem X WQ 0 (w_sem WQ hq arg2 harg2) (slab_sem X x0 hx arg1 harg1 0 0 rfl inb_S1x2048x1024_S1x256x1024_0_0_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have s0 : Inv X WQ WK WV 0 0 (kernelRun0_A.sl.v143 (F := Ideal) c arg8) (kernelRun0_A.sl.v152 (F := Ideal) c arg9) (kernelRun0_A.sl.v160 (F := Ideal) c arg10) := by
    unfold kernelRun0_A.sl.v143 kernelRun0_A.sl.v152 kernelRun0_A.sl.v160 kernelRun0_A.sl.HS2_1 kernelRun0_A.sl.HS3_1 kernelRun0_A.sl.HS4_1
    rw [View.readCov_cons_toLoadRect, View.readCov_cons_toLoadRect, View.readCov_cons_toLoadRect]
    exact init_sem X WQ WK WV 0
  have hS0 := sDiag_sem X WQ WK 0 0#32 rfl hQ hK0
  have st0 := step_sem X WQ WK WV 0 0 (by decide) s0 hS0 hV0
  have fin := out_sem X WQ WK WV 0 st0 r h
  unfold kernelRun0_A.sl.v172 kernelRun0_A.sl.v173 kernelRun0_A.sl.HS4_2 kernelRun0_A.sl.HS3_2
  rw [View.readCov_cons_toLoadRect, View.readCov_cons_toLoadRect]
  exact fin

end Cert.KernelIdeal.Gen.Flash

end
-- ==== Proof.Tile1.lean ====
/-
  Query tile 1 (rows 256 to 511 of a batch row): what the kernel stores for it is the causal attention of
  those rows. The tile's query block is the scaled projection of its slab of the input; key and value tiles
  0 to 1 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 1, entry (r, h), is the attention at row 256 + r. -/
theorem tile1 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay62 (kernelRun0_A.sl.v273 c arg1 harg1 arg2 harg2 arg3 harg3 arg4 harg4 arg6 arg7 arg8 arg10 x0 x1 x2 x3) (kernelRun0_A.sl.v274 c arg1 harg1 arg2 harg2 arg3 harg3 arg6 arg8 arg9 x0 x1 x2)) (ix3 (0 : Fin 1) r h) : EReal) = ((attn scR X WQ WK WV (row 1 r) h : ℝ) : EReal) := by
  have hQ := q_sem X WQ 1 (w_sem WQ hq arg2 harg2) (slab_sem X x0 hx arg1 harg1 1 256 rfl inb_S1x2048x1024_S1x256x1024_0_256_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have hK1 := k_load1 X WK c i arg1 harg1 arg2 harg2 arg3 harg3 arg4 harg4 arg5 harg5 arg6 harg6 arg7 harg7 arg8 harg8 arg9 harg9 arg10 harg10 x0 x1 x2 x3 hx hk
  have hV1 := v_load1 X WV c i arg1 harg1 arg2 harg2 arg3 harg3 arg4 harg4 arg5 harg5 arg6 harg6 arg7 harg7 arg8 harg8 arg9 harg9 arg10 harg10 x0 x1 x2 x3 hx hv
  have s0 : Inv X WQ WK WV 1 0 (kernelRun0_A.sl.v201 (F := Ideal) c arg1 harg1 arg2 harg2 arg3 harg3 arg6 arg8 x0 x1 x2) (kernelRun0_A.sl.v210 (F := Ideal) c arg1 harg1 arg2 harg2 arg3 harg3 arg6 arg8 arg9 x0 x1 x2) (kernelRun0_A.sl.v218 (F := Ideal) c arg1 harg1 arg2 harg2 arg3 harg3 arg4 harg4 arg6 arg7 arg8 arg10 x0 x1 x2 x3) := by
    unfold kernelRun0_A.sl.v201 kernelRun0_A.sl.v210 kernelRun0_A.sl.v218 kernelRun0_A.sl.HS2_3 kernelRun0_A.sl.HS3_3 kernelRun0_A.sl.HS4_3
    rw [View.readCov_cons_toLoadRect, View.readCov_cons_toLoadRect, View.readCov_cons_toLoadRect]
    exact init_sem X WQ WK WV 1
  have hS0 := sOff_sem X WQ WK 1 0 (by decide) hQ hK0
  have st0 := step_sem X WQ WK WV 1 0 (by decide) s0 hS0 hV0
  have s1 : Inv X WQ WK WV 1 1 (kernelRun0_A.sl.v244 (F := Ideal) c arg1 harg1 arg2 harg2 arg3 harg3 arg6 arg8 x0 x1 x2) (kernelRun0_A.sl.v253 (F := Ideal) c arg1 harg1 arg2 harg2 arg3 harg3 arg6 arg8 arg9 x0 x1 x2) (kernelRun0_A.sl.v261 (F := Ideal) c arg1 harg1 arg2 harg2 arg3 harg3 arg4 harg4 arg6 arg7 arg8 arg10 x0 x1 x2 x3) := by
    unfold kernelRun0_A.sl.v244 kernelRun0_A.sl.v253 kernelRun0_A.sl.v261 kernelRun0_A.sl.HS2_4 kernelRun0_A.sl.HS3_4 kernelRun0_A.sl.HS4_4
    rw [View.readCov_cons_toLoadRect, View.readCov_cons_toLoadRect, View.readCov_cons_toLoadRect]
    exact st0
  have hS1 := sDiag_sem X WQ WK 1 256#32 rfl hQ hK1
  have st1 := step_sem X WQ WK WV 1 1 (by decide) s1 hS1 hV1
  have fin := out_sem X WQ WK WV 1 st1 r h
  unfold kernelRun0_A.sl.v273 kernelRun0_A.sl.v274 kernelRun0_A.sl.HS4_5 kernelRun0_A.sl.HS3_5
  rw [View.readCov_cons_toLoadRect, View.readCov_cons_toLoadRect]
  exact fin

end Cert.KernelIdeal.Gen.Flash

end
-- ==== Proof.Tile2.lean ====
/-
  Query tile 2 (rows 512 to 767 of a batch row): what the kernel stores for it is the causal attention of
  those rows. The tile's query block is the scaled projection of its slab of the input; key and value tiles
  0 to 2 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 2, entry (r, h), is the attention at row 512 + r. -/
theorem tile2 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay90 (kernelRun0_A.sl.v_1 c arg1 harg1 arg2 harg2 arg3 harg3 arg4 harg4 arg6 arg7 arg8 arg10 x0 x1 x2 x3) (kernelRun0_A.sl.v407 c arg1 harg1 arg2 harg2 arg3 harg3 arg6 arg8 arg9 x0 x1 x2)) (ix3 (0 : Fin 1) r h) : EReal) = ((attn scR X WQ WK WV (row 2 r) h : ℝ) : EReal) := by
  have hQ := q_sem X WQ 2 (w_sem WQ hq arg2 harg2) (slab_sem X x0 hx arg1 harg1 2 512 rfl inb_S1x2048x1024_S1x256x1024_0_512_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have hK1 := k_load1 X WK c i arg1 harg1 arg2 harg2 arg3 harg3 arg4 harg4 arg5 harg5 arg6 harg6 arg7 harg7 arg8 harg8 arg9 harg9 arg10 harg10 x0 x1 x2 x3 hx hk
  have hV1 := v_load1 X WV c i arg1 harg1 arg2 harg2 arg3 harg3 arg4 harg4 arg5 harg5 arg6 harg6 arg7 harg7 arg8 harg8 arg9 harg9 arg10 harg10 x0 x1 x2 x3 hx hv
  have hK2 := k_load2 X WK c i arg1 harg1 arg2 harg2 arg3 harg3 arg4 harg4 arg5 harg5 arg6 harg6 arg7 harg7 arg8 harg8 arg9 harg9 arg10 harg10 x0 x1 x2 x3 hx hk
  have hV2 := v_load2 X WV c i arg1 harg1 arg2 harg2 arg3 harg3 arg4 harg4 arg5 harg5 arg6 harg6 arg7 harg7 arg8 harg8 arg9 harg9 arg10 harg10 x0 x1 x2 x3 hx hv
  have s0 : Inv X WQ WK WV 2 0 (kernelRun0_A.sl.v302 (F := Ideal) c arg1 harg1 arg2 harg2 arg3 harg3 arg6 arg8 x0 x1 x2) (kernelRun0_A.sl.v311 (F := Ideal) c arg1 harg1 arg2 harg2 arg3 harg3 arg6 arg8 arg9 x0 x1 x2) (kernelRun0_A.sl.v319 (F := Ideal) c arg1 harg1 arg2 harg2 arg3 harg3 arg4 harg4 arg6 arg7 arg8 arg10 x0 x1 x2 x3) := by
    unfold kernelRun0_A.sl.v302 kernelRun0_A.sl.v311 kernelRun0_A.sl.v319 kernelRun0_A.sl.HS2_6 kernelRun0_A.sl.HS3_6 kernelRun0_A.sl.HS4_6
    rw [View.readCov_cons_toLoadRect, View.readCov_cons_toLoadRect, View.readCov_cons_toLoadRect]
    exact init_sem X WQ WK WV 2
  have hS0 := sOff_sem X WQ WK 2 0 (by decide) hQ hK0
  have st0 := step_sem X WQ WK WV 2 0 (by decide) s0 hS0 hV0
  have s1 : Inv X WQ WK WV 2 1 (kernelRun0_A.sl.v334 (F := Ideal) c arg1 harg1 arg2 harg2 arg3 harg3 arg6 arg8 x0 x1 x2) (kernelRun0_A.sl.v343 (F := Ideal) c arg1 harg1 arg2 harg2 arg3 harg3 arg6 arg8 arg9 x0 x1 x2) (kernelRun0_A.sl.v351 (F := Ideal) c arg1 harg1 arg2 harg2 arg3 harg3 arg4 harg4 arg6 arg7 arg8 arg10 x0 x1 x2 x3) := by
    unfold kernelRun0_A.sl.v334 kernelRun0_A.sl.v343 kernelRun0_A.sl.v351 kernelRun0_A.sl.HS2_7 kernelRun0_A.sl.HS3_7 kernelRun0_A.sl.HS4_7
    rw [View.readCov_cons_toLoadRect, View.readCov_cons_toLoadRect, View.readCov_cons_toLoadRect]
    exact st0
  have hS1 := sOff_sem X WQ WK 2 1 (by decide) hQ hK1
  have st1 := step_sem X WQ WK WV 2 1 (by decide) s1 hS1 hV1
  have s2 : Inv X WQ WK WV 2 2 (kernelRun0_A.sl.v377 (F := Ideal) c arg1 harg1 arg2 harg2 arg3 harg3 arg6 arg8 x0 x1 x2) (kernelRun0_A.sl.v386 (F := Ideal) c arg1 harg1 arg2 harg2 arg3 harg3 arg6 arg8 arg9 x0 x1 x2) (kernelRun0_A.sl.v394 (F := Ideal) c arg1 harg1 arg2 harg2 arg3 harg3 arg4 harg4 arg6 arg7 arg8 arg10 x0 x1 x2 x3) := by
    unfold kernelRun0_A.sl.v377 kernelRun0_A.sl.v386 kernelRun0_A.sl.v394 kernelRun0_A.sl.HS2_8 kernelRun0_A.sl.HS3_8 kernelRun0_A.sl.HS4_8
    rw [View.readCov_cons_toLoadRect, View.readCov_cons_toLoadRect, View.readCov_cons_toLoadRect]
    exact st1
  have hS2 := sDiag_sem X WQ WK 2 512#32 rfl hQ hK2
  have st2 := step_sem X WQ WK WV 2 2 (by decide) s2 hS2 hV2
  have fin := out_sem X WQ WK WV 2 st2 r h
  unfold kernelRun0_A.sl.v_1 kernelRun0_A.sl.v407 kernelRun0_A.sl.HS4_9 kernelRun0_A.sl.HS3_9
  rw [View.readCov_cons_toLoadRect, View.readCov_cons_toLoadRect]
  exact fin

end Cert.KernelIdeal.Gen.Flash

end
-- ==== Proof.Tile3.lean ====
/-
  Query tile 3 (rows 768 to 1023 of a batch row): what the kernel stores for it is the causal attention of
  those rows. The tile's query block is the scaled projection of its slab of the input; key and value tiles
  0 to 3 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 3, entry (r, h), is the attention at row 768 + r. -/
theorem tile3 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay126 (kernelRun0_A.sl.v571 c arg1 harg1 arg2 harg2 arg3 harg3 arg4 harg4 arg6 arg7 arg8 arg10 x0 x1 x2 x3) (kernelRun0_A.sl.v572 c arg1 harg1 arg2 harg2 arg3 harg3 arg6 arg8 arg9 x0 x1 x2)) (ix3 (0 : Fin 1) r h) : EReal) = ((attn scR X WQ WK WV (row 3 r) h : ℝ) : EReal) := by
  have hQ := q_sem X WQ 3 (w_sem WQ hq arg2 harg2) (slab_sem X x0 hx arg1 harg1 3 768 rfl inb_S1x2048x1024_S1x256x1024_0_768_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have hK1 := k_load1 X WK c i arg1 harg1 arg2 harg2 arg3 harg3 arg4 harg4 arg5 harg5 arg6 harg6 arg7 harg7 arg8 harg8 arg9 harg9 arg10 harg10 x0 x1 x2 x3 hx hk
  have hV1 := v_load1 X WV c i arg1 harg1 arg2 harg2 arg3 harg3 arg4 harg4 arg5 harg5 arg6 harg6 arg7 harg7 arg8 harg8 arg9 harg9 arg10 harg10 x0 x1 x2 x3 hx hv
  have hK2 := k_load2 X WK c i arg1 harg1 arg2 harg2 arg3 harg3 arg4 harg4 arg5 harg5 arg6 harg6 arg7 harg7 arg8 harg8 arg9 harg9 arg10 harg10 x0 x1 x2 x3 hx hk
  have hV2 := v_load2 X WV c i arg1 harg1 arg2 harg2 arg3 harg3 arg4 harg4 arg5 harg5 arg6 harg6 arg7 harg7 arg8 harg8 arg9 harg9 arg10 harg10 x0 x1 x2 x3 hx hv
  have hK3 := k_load3 X WK c i arg1 harg1 arg2 harg2 arg3 harg3 arg4 harg4 arg5 harg5 arg6 harg6 arg7 harg7 arg8 harg8 arg9 harg9 arg10 harg10 x0 x1 x2 x3 hx hk
  have hV3 := v_load3 X WV c i arg1 harg1 arg2 harg2 arg3 harg3 arg4 harg4 arg5 harg5 arg6 harg6 arg7 harg7 arg8 harg8 arg9 harg9 arg10 harg10 x0 x1 x2 x3 hx hv
  have s0 : Inv X WQ WK WV 3 0 (kernelRun0_A.sl.v435 (F := Ideal) c arg1 harg1 arg2 harg2 arg3 harg3 arg6 arg8 x0 x1 x2) (kernelRun0_A.sl.v444 (F := Ideal) c arg1 harg1 arg2 harg2 arg3 harg3 arg6 arg8 arg9 x0 x1 x2) (kernelRun0_A.sl.v452 (F := Ideal) c arg1 harg1 arg2 harg2 arg3 harg3 arg4 harg4 arg6 arg7 arg8 arg10 x0 x1 x2 x3) := by
    unfold kernelRun0_A.sl.v435 kernelRun0_A.sl.v444 kernelRun0_A.sl.v452 kernelRun0_A.sl.HS2_10 kernelRun0_A.sl.HS3_10 kernelRun0_A.sl.HS4_10
    rw [View.readCov_cons_toLoadRect, View.readCov_cons_toLoadRect, View.readCov_cons_toLoadRect]
    exact init_sem X WQ WK WV 3
  have hS0 := sOff_sem X WQ WK 3 0 (by decide) hQ hK0
  have st0 := step_sem X WQ WK WV 3 0 (by decide) s0 hS0 hV0
  have s1 : Inv X WQ WK WV 3 1 (kernelRun0_A.sl.v467 (F := Ideal) c arg1 harg1 arg2 harg2 arg3 harg3 arg6 arg8 x0 x1 x2) (kernelRun0_A.sl.v476 (F := Ideal) c arg1 harg1 arg2 harg2 arg3 harg3 arg6 arg8 arg9 x0 x1 x2) (kernelRun0_A.sl.v484 (F := Ideal) c arg1 harg1 arg2 harg2 arg3 harg3 arg4 harg4 arg6 arg7 arg8 arg10 x0 x1 x2 x3) := by
    unfold kernelRun0_A.sl.v467 kernelRun0_A.sl.v476 kernelRun0_A.sl.v484 kernelRun0_A.sl.HS2_11 kernelRun0_A.sl.HS3_11 kernelRun0_A.sl.HS4_11
    rw [View.readCov_cons_toLoadRect, View.readCov_cons_toLoadRect, View.readCov_cons_toLoadRect]
    exact st0
  have hS1 := sOff_sem X WQ WK 3 1 (by decide) hQ hK1
  have st1 := step_sem X WQ WK WV 3 1 (by decide) s1 hS1 hV1
  have s2 : Inv X WQ WK WV 3 2 (kernelRun0_A.sl.v499 (F := Ideal) c arg1 harg1 arg2 harg2 arg3 harg3 arg6 arg8 x0 x1 x2) (kernelRun0_A.sl.v508 (F := Ideal) c arg1 harg1 arg2 harg2 arg3 harg3 arg6 arg8 arg9 x0 x1 x2) (kernelRun0_A.sl.v516 (F := Ideal) c arg1 harg1 arg2 harg2 arg3 harg3 arg4 harg4 arg6 arg7 arg8 arg10 x0 x1 x2 x3) := by
    unfold kernelRun0_A.sl.v499 kernelRun0_A.sl.v508 kernelRun0_A.sl.v516 kernelRun0_A.sl.HS2_12 kernelRun0_A.sl.HS3_12 kernelRun0_A.sl.HS4_12
    rw [View.readCov_cons_toLoadRect, View.readCov_cons_toLoadRect, View.readCov_cons_toLoadRect]
    exact st1
  have hS2 := sOff_sem X WQ WK 3 2 (by decide) hQ hK2
  have st2 := step_sem X WQ WK WV 3 2 (by decide) s2 hS2 hV2
  have s3 : Inv X WQ WK WV 3 3 (kernelRun0_A.sl.v542 (F := Ideal) c arg1 harg1 arg2 harg2 arg3 harg3 arg6 arg8 x0 x1 x2) (kernelRun0_A.sl.v551 (F := Ideal) c arg1 harg1 arg2 harg2 arg3 harg3 arg6 arg8 arg9 x0 x1 x2) (kernelRun0_A.sl.v559 (F := Ideal) c arg1 harg1 arg2 harg2 arg3 harg3 arg4 harg4 arg6 arg7 arg8 arg10 x0 x1 x2 x3) := by
    unfold kernelRun0_A.sl.v542 kernelRun0_A.sl.v551 kernelRun0_A.sl.v559 kernelRun0_A.sl.HS2_13 kernelRun0_A.sl.HS3_13 kernelRun0_A.sl.HS4_13
    rw [View.readCov_cons_toLoadRect, View.readCov_cons_toLoadRect, View.readCov_cons_toLoadRect]
    exact st2
  have hS3 := sDiag_sem X WQ WK 3 768#32 rfl hQ hK3
  have st3 := step_sem X WQ WK WV 3 3 (by decide) s3 hS3 hV3
  have fin := out_sem X WQ WK WV 3 st3 r h
  unfold kernelRun0_A.sl.v571 kernelRun0_A.sl.v572 kernelRun0_A.sl.HS4_14 kernelRun0_A.sl.HS3_14
  rw [View.readCov_cons_toLoadRect, View.readCov_cons_toLoadRect]
  exact fin

end Cert.KernelIdeal.Gen.Flash

end
-- ==== Proof.Tile4.lean ====
/-
  Query tile 4 (rows 1024 to 1279 of a batch row): what the kernel stores for it is the causal attention of
  those rows. The tile's query block is the scaled projection of its slab of the input; key and value tiles
  0 to 4 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 4, entry (r, h), is the attention at row 1024 + r. -/
theorem tile4 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay170 (kernelRun0_A.sl.v768 c arg1 harg1 arg2 harg2 arg3 harg3 arg4 harg4 arg6 arg7 arg8 arg10 x0 x1 x2 x3) (kernelRun0_A.sl.v769 c arg1 harg1 arg2 harg2 arg3 harg3 arg6 arg8 arg9 x0 x1 x2)) (ix3 (0 : Fin 1) r h) : EReal) = ((attn scR X WQ WK WV (row 4 r) h : ℝ) : EReal) := by
  have hQ := q_sem X WQ 4 (w_sem WQ hq arg2 harg2) (slab_sem X x0 hx arg1 harg1 4 1024 rfl inb_S1x2048x1024_S1x256x1024_0_1024_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have hK1 := k_load1 X WK c i arg1 harg1 arg2 harg2 arg3 harg3 arg4 harg4 arg5 harg5 arg6 harg6 arg7 harg7 arg8 harg8 arg9 harg9 arg10 harg10 x0 x1 x2 x3 hx hk
  have hV1 := v_load1 X WV c i arg1 harg1 arg2 harg2 arg3 harg3 arg4 harg4 arg5 harg5 arg6 harg6 arg7 harg7 arg8 harg8 arg9 harg9 arg10 harg10 x0 x1 x2 x3 hx hv
  have hK2 := k_load2 X WK c i arg1 harg1 arg2 harg2 arg3 harg3 arg4 harg4 arg5 harg5 arg6 harg6 arg7 harg7 arg8 harg8 arg9 harg9 arg10 harg10 x0 x1 x2 x3 hx hk
  have hV2 := v_load2 X WV c i arg1 harg1 arg2 harg2 arg3 harg3 arg4 harg4 arg5 harg5 arg6 harg6 arg7 harg7 arg8 harg8 arg9 harg9 arg10 harg10 x0 x1 x2 x3 hx hv
  have hK3 := k_load3 X WK c i arg1 harg1 arg2 harg2 arg3 harg3 arg4 harg4 arg5 harg5 arg6 harg6 arg7 harg7 arg8 harg8 arg9 harg9 arg10 harg10 x0 x1 x2 x3 hx hk
  have hV3 := v_load3 X WV c i arg1 harg1 arg2 harg2 arg3 harg3 arg4 harg4 arg5 harg5 arg6 harg6 arg7 harg7 arg8 harg8 arg9 harg9 arg10 harg10 x0 x1 x2 x3 hx hv
  have hK4 := k_load4 X WK c i arg1 harg1 arg2 harg2 arg3 harg3 arg4 harg4 arg5 harg5 arg6 harg6 arg7 harg7 arg8 harg8 arg9 harg9 arg10 harg10 x0 x1 x2 x3 hx hk
  have hV4 := v_load4 X WV c i arg1 harg1 arg2 harg2 arg3 harg3 arg4 harg4 arg5 harg5 arg6 harg6 arg7 harg7 arg8 harg8 arg9 harg9 arg10 harg10 x0 x1 x2 x3 hx hv
  have s0 : Inv X WQ WK WV 4 0 (kernelRun0_A.sl.v600 (F := Ideal) c arg1 harg1 arg2 harg2 arg3 harg3 arg6 arg8 x0 x1 x2) (kernelRun0_A.sl.v609 (F := Ideal) c arg1 harg1 arg2 harg2 arg3 harg3 arg6 arg8 arg9 x0 x1 x2) (kernelRun0_A.sl.v617 (F := Ideal) c arg1 harg1 arg2 harg2 arg3 harg3 arg4 harg4 arg6 arg7 arg8 arg10 x0 x1 x2 x3) := by
    unfold kernelRun0_A.sl.v600 kernelRun0_A.sl.v609 kernelRun0_A.sl.v617 kernelRun0_A.sl.HS2_15 kernelRun0_A.sl.HS3_15 kernelRun0_A.sl.HS4_15
    rw [View.readCov_cons_toLoadRect, View.readCov_cons_toLoadRect, View.readCov_cons_toLoadRect]
    exact init_sem X WQ WK WV 4
  have hS0 := sOff_sem X WQ WK 4 0 (by decide) hQ hK0
  have st0 := step_sem X WQ WK WV 4 0 (by decide) s0 hS0 hV0
  have s1 : Inv X WQ WK WV 4 1 (kernelRun0_A.sl.v632 (F := Ideal) c arg1 harg1 arg2 harg2 arg3 harg3 arg6 arg8 x0 x1 x2) (kernelRun0_A.sl.v641 (F := Ideal) c arg1 harg1 arg2 harg2 arg3 harg3 arg6 arg8 arg9 x0 x1 x2) (kernelRun0_A.sl.v649 (F := Ideal) c arg1 harg1 arg2 harg2 arg3 harg3 arg4 harg4 arg6 arg7 arg8 arg10 x0 x1 x2 x3) := by
    unfold kernelRun0_A.sl.v632 kernelRun0_A.sl.v641 kernelRun0_A.sl.v649 kernelRun0_A.sl.HS2_16 kernelRun0_A.sl.HS3_16 kernelRun0_A.sl.HS4_16
    rw [View.readCov_cons_toLoadRect, View.readCov_cons_toLoadRect, View.readCov_cons_toLoadRect]
    exact st0
  have hS1 := sOff_sem X WQ WK 4 1 (by decide) hQ hK1
  have st1 := step_sem X WQ WK WV 4 1 (by decide) s1 hS1 hV1
  have s2 : Inv X WQ WK WV 4 2 (kernelRun0_A.sl.v664 (F := Ideal) c arg1 harg1 arg2 harg2 arg3 harg3 arg6 arg8 x0 x1 x2) (kernelRun0_A.sl.v673 (F := Ideal) c arg1 harg1 arg2 harg2 arg3 harg3 arg6 arg8 arg9 x0 x1 x2) (kernelRun0_A.sl.v681 (F := Ideal) c arg1 harg1 arg2 harg2 arg3 harg3 arg4 harg4 arg6 arg7 arg8 arg10 x0 x1 x2 x3) := by
    unfold kernelRun0_A.sl.v664 kernelRun0_A.sl.v673 kernelRun0_A.sl.v681 kernelRun0_A.sl.HS2_17 kernelRun0_A.sl.HS3_17 kernelRun0_A.sl.HS4_17
    rw [View.readCov_cons_toLoadRect, View.readCov_cons_toLoadRect, View.readCov_cons_toLoadRect]
    exact st1
  have hS2 := sOff_sem X WQ WK 4 2 (by decide) hQ hK2
  have st2 := step_sem X WQ WK WV 4 2 (by decide) s2 hS2 hV2
  have s3 : Inv X WQ WK WV 4 3 (kernelRun0_A.sl.v696 (F := Ideal) c arg1 harg1 arg2 harg2 arg3 harg3 arg6 arg8 x0 x1 x2) (kernelRun0_A.sl.v705 (F := Ideal) c arg1 harg1 arg2 harg2 arg3 harg3 arg6 arg8 arg9 x0 x1 x2) (kernelRun0_A.sl.v713 (F := Ideal) c arg1 harg1 arg2 harg2 arg3 harg3 arg4 harg4 arg6 arg7 arg8 arg10 x0 x1 x2 x3) := by
    unfold kernelRun0_A.sl.v696 kernelRun0_A.sl.v705 kernelRun0_A.sl.v713 kernelRun0_A.sl.HS2_18 kernelRun0_A.sl.HS3_18 kernelRun0_A.sl.HS4_18
    rw [View.readCov_cons_toLoadRect, View.readCov_cons_toLoadRect, View.readCov_cons_toLoadRect]
    exact st2
  have hS3 := sOff_sem X WQ WK 4 3 (by decide) hQ hK3
  have st3 := step_sem X WQ WK WV 4 3 (by decide) s3 hS3 hV3
  have s4 : Inv X WQ WK WV 4 4 (kernelRun0_A.sl.v739 (F := Ideal) c arg1 harg1 arg2 harg2 arg3 harg3 arg6 arg8 x0 x1 x2) (kernelRun0_A.sl.v748 (F := Ideal) c arg1 harg1 arg2 harg2 arg3 harg3 arg6 arg8 arg9 x0 x1 x2) (kernelRun0_A.sl.v756 (F := Ideal) c arg1 harg1 arg2 harg2 arg3 harg3 arg4 harg4 arg6 arg7 arg8 arg10 x0 x1 x2 x3) := by
    unfold kernelRun0_A.sl.v739 kernelRun0_A.sl.v748 kernelRun0_A.sl.v756 kernelRun0_A.sl.HS2_19 kernelRun0_A.sl.HS3_19 kernelRun0_A.sl.HS4_19
    rw [View.readCov_cons_toLoadRect, View.readCov_cons_toLoadRect, View.readCov_cons_toLoadRect]
    exact st3
  have hS4 := sDiag_sem X WQ WK 4 1024#32 rfl hQ hK4
  have st4 := step_sem X WQ WK WV 4 4 (by decide) s4 hS4 hV4
  have fin := out_sem X WQ WK WV 4 st4 r h
  unfold kernelRun0_A.sl.v768 kernelRun0_A.sl.v769 kernelRun0_A.sl.HS4_20 kernelRun0_A.sl.HS3_20
  rw [View.readCov_cons_toLoadRect, View.readCov_cons_toLoadRect]
  exact fin

end Cert.KernelIdeal.Gen.Flash

end
-- ==== Proof.Tile5.lean ====
/-
  Query tile 5 (rows 1280 to 1535 of a batch row): what the kernel stores for it is the causal attention of
  those rows. The tile's query block is the scaled projection of its slab of the input; key and value tiles
  0 to 5 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 5, entry (r, h), is the attention at row 1280 + r. -/
theorem tile5 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay220 (kernelRun0_A.sl.v_2 c arg1 harg1 arg2 harg2 arg3 harg3 arg4 harg4 arg6 arg7 arg8 arg10 x0 x1 x2 x3) (kernelRun0_A.sl.v998 c arg1 harg1 arg2 harg2 arg3 harg3 arg6 arg8 arg9 x0 x1 x2)) (ix3 (0 : Fin 1) r h) : EReal) = ((attn scR X WQ WK WV (row 5 r) h : ℝ) : EReal) := by
  have hQ := q_sem X WQ 5 (w_sem WQ hq arg2 harg2) (slab_sem X x0 hx arg1 harg1 5 1280 rfl inb_S1x2048x1024_S1x256x1024_0_1280_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have hK1 := k_load1 X WK c i arg1 harg1 arg2 harg2 arg3 harg3 arg4 harg4 arg5 harg5 arg6 harg6 arg7 harg7 arg8 harg8 arg9 harg9 arg10 harg10 x0 x1 x2 x3 hx hk
  have hV1 := v_load1 X WV c i arg1 harg1 arg2 harg2 arg3 harg3 arg4 harg4 arg5 harg5 arg6 harg6 arg7 harg7 arg8 harg8 arg9 harg9 arg10 harg10 x0 x1 x2 x3 hx hv
  have hK2 := k_load2 X WK c i arg1 harg1 arg2 harg2 arg3 harg3 arg4 harg4 arg5 harg5 arg6 harg6 arg7 harg7 arg8 harg8 arg9 harg9 arg10 harg10 x0 x1 x2 x3 hx hk
  have hV2 := v_load2 X WV c i arg1 harg1 arg2 harg2 arg3 harg3 arg4 harg4 arg5 harg5 arg6 harg6 arg7 harg7 arg8 harg8 arg9 harg9 arg10 harg10 x0 x1 x2 x3 hx hv
  have hK3 := k_load3 X WK c i arg1 harg1 arg2 harg2 arg3 harg3 arg4 harg4 arg5 harg5 arg6 harg6 arg7 harg7 arg8 harg8 arg9 harg9 arg10 harg10 x0 x1 x2 x3 hx hk
  have hV3 := v_load3 X WV c i arg1 harg1 arg2 harg2 arg3 harg3 arg4 harg4 arg5 harg5 arg6 harg6 arg7 harg7 arg8 harg8 arg9 harg9 arg10 harg10 x0 x1 x2 x3 hx hv
  have hK4 := k_load4 X WK c i arg1 harg1 arg2 harg2 arg3 harg3 arg4 harg4 arg5 harg5 arg6 harg6 arg7 harg7 arg8 harg8 arg9 harg9 arg10 harg10 x0 x1 x2 x3 hx hk
  have hV4 := v_load4 X WV c i arg1 harg1 arg2 harg2 arg3 harg3 arg4 harg4 arg5 harg5 arg6 harg6 arg7 harg7 arg8 harg8 arg9 harg9 arg10 harg10 x0 x1 x2 x3 hx hv
  have hK5 := k_load5 X WK c i arg1 harg1 arg2 harg2 arg3 harg3 arg4 harg4 arg5 harg5 arg6 harg6 arg7 harg7 arg8 harg8 arg9 harg9 arg10 harg10 x0 x1 x2 x3 hx hk
  have hV5 := v_load5 X WV c i arg1 harg1 arg2 harg2 arg3 harg3 arg4 harg4 arg5 harg5 arg6 harg6 arg7 harg7 arg8 harg8 arg9 harg9 arg10 harg10 x0 x1 x2 x3 hx hv
  have s0 : Inv X WQ WK WV 5 0 (kernelRun0_A.sl.v797 (F := Ideal) c arg1 harg1 arg2 harg2 arg3 harg3 arg6 arg8 x0 x1 x2) (kernelRun0_A.sl.v806 (F := Ideal) c arg1 harg1 arg2 harg2 arg3 harg3 arg6 arg8 arg9 x0 x1 x2) (kernelRun0_A.sl.v814 (F := Ideal) c arg1 harg1 arg2 harg2 arg3 harg3 arg4 harg4 arg6 arg7 arg8 arg10 x0 x1 x2 x3) := by
    unfold kernelRun0_A.sl.v797 kernelRun0_A.sl.v806 kernelRun0_A.sl.v814 kernelRun0_A.sl.HS2_21 kernelRun0_A.sl.HS3_21 kernelRun0_A.sl.HS4_21
    rw [View.readCov_cons_toLoadRect, View.readCov_cons_toLoadRect, View.readCov_cons_toLoadRect]
    exact init_sem X WQ WK WV 5
  have hS0 := sOff_sem X WQ WK 5 0 (by decide) hQ hK0
  have st0 := step_sem X WQ WK WV 5 0 (by decide) s0 hS0 hV0
  have s1 : Inv X WQ WK WV 5 1 (kernelRun0_A.sl.v829 (F := Ideal) c arg1 harg1 arg2 harg2 arg3 harg3 arg6 arg8 x0 x1 x2) (kernelRun0_A.sl.v838 (F := Ideal) c arg1 harg1 arg2 harg2 arg3 harg3 arg6 arg8 arg9 x0 x1 x2) (kernelRun0_A.sl.v846 (F := Ideal) c arg1 harg1 arg2 harg2 arg3 harg3 arg4 harg4 arg6 arg7 arg8 arg10 x0 x1 x2 x3) := by
    unfold kernelRun0_A.sl.v829 kernelRun0_A.sl.v838 kernelRun0_A.sl.v846 kernelRun0_A.sl.HS2_22 kernelRun0_A.sl.HS3_22 kernelRun0_A.sl.HS4_22
    rw [View.readCov_cons_toLoadRect, View.readCov_cons_toLoadRect, View.readCov_cons_toLoadRect]
    exact st0
  have hS1 := sOff_sem X WQ WK 5 1 (by decide) hQ hK1
  have st1 := step_sem X WQ WK WV 5 1 (by decide) s1 hS1 hV1
  have s2 : Inv X WQ WK WV 5 2 (kernelRun0_A.sl.v861 (F := Ideal) c arg1 harg1 arg2 harg2 arg3 harg3 arg6 arg8 x0 x1 x2) (kernelRun0_A.sl.v870 (F := Ideal) c arg1 harg1 arg2 harg2 arg3 harg3 arg6 arg8 arg9 x0 x1 x2) (kernelRun0_A.sl.v878 (F := Ideal) c arg1 harg1 arg2 harg2 arg3 harg3 arg4 harg4 arg6 arg7 arg8 arg10 x0 x1 x2 x3) := by
    unfold kernelRun0_A.sl.v861 kernelRun0_A.sl.v870 kernelRun0_A.sl.v878 kernelRun0_A.sl.HS2_23 kernelRun0_A.sl.HS3_23 kernelRun0_A.sl.HS4_23
    rw [View.readCov_cons_toLoadRect, View.readCov_cons_toLoadRect, View.readCov_cons_toLoadRect]
    exact st1
  have hS2 := sOff_sem X WQ WK 5 2 (by decide) hQ hK2
  have st2 := step_sem X WQ WK WV 5 2 (by decide) s2 hS2 hV2
  have s3 : Inv X WQ WK WV 5 3 (kernelRun0_A.sl.v893 (F := Ideal) c arg1 harg1 arg2 harg2 arg3 harg3 arg6 arg8 x0 x1 x2) (kernelRun0_A.sl.v902 (F := Ideal) c arg1 harg1 arg2 harg2 arg3 harg3 arg6 arg8 arg9 x0 x1 x2) (kernelRun0_A.sl.v910 (F := Ideal) c arg1 harg1 arg2 harg2 arg3 harg3 arg4 harg4 arg6 arg7 arg8 arg10 x0 x1 x2 x3) := by
    unfold kernelRun0_A.sl.v893 kernelRun0_A.sl.v902 kernelRun0_A.sl.v910 kernelRun0_A.sl.HS2_24 kernelRun0_A.sl.HS3_24 kernelRun0_A.sl.HS4_24
    rw [View.readCov_cons_toLoadRect, View.readCov_cons_toLoadRect, View.readCov_cons_toLoadRect]
    exact st2
  have hS3 := sOff_sem X WQ WK 5 3 (by decide) hQ hK3
  have st3 := step_sem X WQ WK WV 5 3 (by decide) s3 hS3 hV3
  have s4 : Inv X WQ WK WV 5 4 (kernelRun0_A.sl.v925 (F := Ideal) c arg1 harg1 arg2 harg2 arg3 harg3 arg6 arg8 x0 x1 x2) (kernelRun0_A.sl.v934 (F := Ideal) c arg1 harg1 arg2 harg2 arg3 harg3 arg6 arg8 arg9 x0 x1 x2) (kernelRun0_A.sl.v942 (F := Ideal) c arg1 harg1 arg2 harg2 arg3 harg3 arg4 harg4 arg6 arg7 arg8 arg10 x0 x1 x2 x3) := by
    unfold kernelRun0_A.sl.v925 kernelRun0_A.sl.v934 kernelRun0_A.sl.v942 kernelRun0_A.sl.HS2_25 kernelRun0_A.sl.HS3_25 kernelRun0_A.sl.HS4_25
    rw [View.readCov_cons_toLoadRect, View.readCov_cons_toLoadRect, View.readCov_cons_toLoadRect]
    exact st3
  have hS4 := sOff_sem X WQ WK 5 4 (by decide) hQ hK4
  have st4 := step_sem X WQ WK WV 5 4 (by decide) s4 hS4 hV4
  have s5 : Inv X WQ WK WV 5 5 (kernelRun0_A.sl.v968 (F := Ideal) c arg1 harg1 arg2 harg2 arg3 harg3 arg6 arg8 x0 x1 x2) (kernelRun0_A.sl.v977 (F := Ideal) c arg1 harg1 arg2 harg2 arg3 harg3 arg6 arg8 arg9 x0 x1 x2) (kernelRun0_A.sl.v985 (F := Ideal) c arg1 harg1 arg2 harg2 arg3 harg3 arg4 harg4 arg6 arg7 arg8 arg10 x0 x1 x2 x3) := by
    unfold kernelRun0_A.sl.v968 kernelRun0_A.sl.v977 kernelRun0_A.sl.v985 kernelRun0_A.sl.HS2_26 kernelRun0_A.sl.HS3_26 kernelRun0_A.sl.HS4_26
    rw [View.readCov_cons_toLoadRect, View.readCov_cons_toLoadRect, View.readCov_cons_toLoadRect]
    exact st4
  have hS5 := sDiag_sem X WQ WK 5 1280#32 rfl hQ hK5
  have st5 := step_sem X WQ WK WV 5 5 (by decide) s5 hS5 hV5
  have fin := out_sem X WQ WK WV 5 st5 r h
  unfold kernelRun0_A.sl.v_2 kernelRun0_A.sl.v998 kernelRun0_A.sl.HS4_27 kernelRun0_A.sl.HS3_27
  rw [View.readCov_cons_toLoadRect, View.readCov_cons_toLoadRect]
  exact fin

end Cert.KernelIdeal.Gen.Flash

end
-- ==== Proof.Tile6.lean ====
/-
  Query tile 6 (rows 1536 to 1791 of a batch row): what the kernel stores for it is the causal attention of
  those rows. The tile's query block is the scaled projection of its slab of the input; key and value tiles
  0 to 6 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 6, entry (r, h), is the attention at row 1536 + r. -/
theorem tile6 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay280 (kernelRun0_A.sl.v1258 c arg1 harg1 arg2 harg2 arg3 harg3 arg4 harg4 arg6 arg7 arg8 arg10 x0 x1 x2 x3) (kernelRun0_A.sl.v1259 c arg1 harg1 arg2 harg2 arg3 harg3 arg6 arg8 arg9 x0 x1 x2)) (ix3 (0 : Fin 1) r h) : EReal) = ((attn scR X WQ WK WV (row 6 r) h : ℝ) : EReal) := by
  have hQ := q_sem X WQ 6 (w_sem WQ hq arg2 harg2) (slab_sem X x0 hx arg1 harg1 6 1536 rfl inb_S1x2048x1024_S1x256x1024_0_1536_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have hK1 := k_load1 X WK c i arg1 harg1 arg2 harg2 arg3 harg3 arg4 harg4 arg5 harg5 arg6 harg6 arg7 harg7 arg8 harg8 arg9 harg9 arg10 harg10 x0 x1 x2 x3 hx hk
  have hV1 := v_load1 X WV c i arg1 harg1 arg2 harg2 arg3 harg3 arg4 harg4 arg5 harg5 arg6 harg6 arg7 harg7 arg8 harg8 arg9 harg9 arg10 harg10 x0 x1 x2 x3 hx hv
  have hK2 := k_load2 X WK c i arg1 harg1 arg2 harg2 arg3 harg3 arg4 harg4 arg5 harg5 arg6 harg6 arg7 harg7 arg8 harg8 arg9 harg9 arg10 harg10 x0 x1 x2 x3 hx hk
  have hV2 := v_load2 X WV c i arg1 harg1 arg2 harg2 arg3 harg3 arg4 harg4 arg5 harg5 arg6 harg6 arg7 harg7 arg8 harg8 arg9 harg9 arg10 harg10 x0 x1 x2 x3 hx hv
  have hK3 := k_load3 X WK c i arg1 harg1 arg2 harg2 arg3 harg3 arg4 harg4 arg5 harg5 arg6 harg6 arg7 harg7 arg8 harg8 arg9 harg9 arg10 harg10 x0 x1 x2 x3 hx hk
  have hV3 := v_load3 X WV c i arg1 harg1 arg2 harg2 arg3 harg3 arg4 harg4 arg5 harg5 arg6 harg6 arg7 harg7 arg8 harg8 arg9 harg9 arg10 harg10 x0 x1 x2 x3 hx hv
  have hK4 := k_load4 X WK c i arg1 harg1 arg2 harg2 arg3 harg3 arg4 harg4 arg5 harg5 arg6 harg6 arg7 harg7 arg8 harg8 arg9 harg9 arg10 harg10 x0 x1 x2 x3 hx hk
  have hV4 := v_load4 X WV c i arg1 harg1 arg2 harg2 arg3 harg3 arg4 harg4 arg5 harg5 arg6 harg6 arg7 harg7 arg8 harg8 arg9 harg9 arg10 harg10 x0 x1 x2 x3 hx hv
  have hK5 := k_load5 X WK c i arg1 harg1 arg2 harg2 arg3 harg3 arg4 harg4 arg5 harg5 arg6 harg6 arg7 harg7 arg8 harg8 arg9 harg9 arg10 harg10 x0 x1 x2 x3 hx hk
  have hV5 := v_load5 X WV c i arg1 harg1 arg2 harg2 arg3 harg3 arg4 harg4 arg5 harg5 arg6 harg6 arg7 harg7 arg8 harg8 arg9 harg9 arg10 harg10 x0 x1 x2 x3 hx hv
  have hK6 := k_load6 X WK c i arg1 harg1 arg2 harg2 arg3 harg3 arg4 harg4 arg5 harg5 arg6 harg6 arg7 harg7 arg8 harg8 arg9 harg9 arg10 harg10 x0 x1 x2 x3 hx hk
  have hV6 := v_load6 X WV c i arg1 harg1 arg2 harg2 arg3 harg3 arg4 harg4 arg5 harg5 arg6 harg6 arg7 harg7 arg8 harg8 arg9 harg9 arg10 harg10 x0 x1 x2 x3 hx hv
  have s0 : Inv X WQ WK WV 6 0 (kernelRun0_A.sl.v1026 (F := Ideal) c arg1 harg1 arg2 harg2 arg3 harg3 arg6 arg8 x0 x1 x2) (kernelRun0_A.sl.v1035 (F := Ideal) c arg1 harg1 arg2 harg2 arg3 harg3 arg6 arg8 arg9 x0 x1 x2) (kernelRun0_A.sl.v1043 (F := Ideal) c arg1 harg1 arg2 harg2 arg3 harg3 arg4 harg4 arg6 arg7 arg8 arg10 x0 x1 x2 x3) := by
    unfold kernelRun0_A.sl.v1026 kernelRun0_A.sl.v1035 kernelRun0_A.sl.v1043 kernelRun0_A.sl.HS2_28 kernelRun0_A.sl.HS3_28 kernelRun0_A.sl.HS4_28
    rw [View.readCov_cons_toLoadRect, View.readCov_cons_toLoadRect, View.readCov_cons_toLoadRect]
    exact init_sem X WQ WK WV 6
  have hS0 := sOff_sem X WQ WK 6 0 (by decide) hQ hK0
  have st0 := step_sem X WQ WK WV 6 0 (by decide) s0 hS0 hV0
  have s1 : Inv X WQ WK WV 6 1 (kernelRun0_A.sl.v1058 (F := Ideal) c arg1 harg1 arg2 harg2 arg3 harg3 arg6 arg8 x0 x1 x2) (kernelRun0_A.sl.v1067 (F := Ideal) c arg1 harg1 arg2 harg2 arg3 harg3 arg6 arg8 arg9 x0 x1 x2) (kernelRun0_A.sl.v1075 (F := Ideal) c arg1 harg1 arg2 harg2 arg3 harg3 arg4 harg4 arg6 arg7 arg8 arg10 x0 x1 x2 x3) := by
    unfold kernelRun0_A.sl.v1058 kernelRun0_A.sl.v1067 kernelRun0_A.sl.v1075 kernelRun0_A.sl.HS2_29 kernelRun0_A.sl.HS3_29 kernelRun0_A.sl.HS4_29
    rw [View.readCov_cons_toLoadRect, View.readCov_cons_toLoadRect, View.readCov_cons_toLoadRect]
    exact st0
  have hS1 := sOff_sem X WQ WK 6 1 (by decide) hQ hK1
  have st1 := step_sem X WQ WK WV 6 1 (by decide) s1 hS1 hV1
  have s2 : Inv X WQ WK WV 6 2 (kernelRun0_A.sl.v1090 (F := Ideal) c arg1 harg1 arg2 harg2 arg3 harg3 arg6 arg8 x0 x1 x2) (kernelRun0_A.sl.v1099 (F := Ideal) c arg1 harg1 arg2 harg2 arg3 harg3 arg6 arg8 arg9 x0 x1 x2) (kernelRun0_A.sl.v1107 (F := Ideal) c arg1 harg1 arg2 harg2 arg3 harg3 arg4 harg4 arg6 arg7 arg8 arg10 x0 x1 x2 x3) := by
    unfold kernelRun0_A.sl.v1090 kernelRun0_A.sl.v1099 kernelRun0_A.sl.v1107 kernelRun0_A.sl.HS2_30 kernelRun0_A.sl.HS3_30 kernelRun0_A.sl.HS4_30
    rw [View.readCov_cons_toLoadRect, View.readCov_cons_toLoadRect, View.readCov_cons_toLoadRect]
    exact st1
  have hS2 := sOff_sem X WQ WK 6 2 (by decide) hQ hK2
  have st2 := step_sem X WQ WK WV 6 2 (by decide) s2 hS2 hV2
  have s3 : Inv X WQ WK WV 6 3 (kernelRun0_A.sl.v1122 (F := Ideal) c arg1 harg1 arg2 harg2 arg3 harg3 arg6 arg8 x0 x1 x2) (kernelRun0_A.sl.v1131 (F := Ideal) c arg1 harg1 arg2 harg2 arg3 harg3 arg6 arg8 arg9 x0 x1 x2) (kernelRun0_A.sl.v1139 (F := Ideal) c arg1 harg1 arg2 harg2 arg3 harg3 arg4 harg4 arg6 arg7 arg8 arg10 x0 x1 x2 x3) := by
    unfold kernelRun0_A.sl.v1122 kernelRun0_A.sl.v1131 kernelRun0_A.sl.v1139 kernelRun0_A.sl.HS2_31 kernelRun0_A.sl.HS3_31 kernelRun0_A.sl.HS4_31
    rw [View.readCov_cons_toLoadRect, View.readCov_cons_toLoadRect, View.readCov_cons_toLoadRect]
    exact st2
  have hS3 := sOff_sem X WQ WK 6 3 (by decide) hQ hK3
  have st3 := step_sem X WQ WK WV 6 3 (by decide) s3 hS3 hV3
  have s4 : Inv X WQ WK WV 6 4 (kernelRun0_A.sl.v1154 (F := Ideal) c arg1 harg1 arg2 harg2 arg3 harg3 arg6 arg8 x0 x1 x2) (kernelRun0_A.sl.v1163 (F := Ideal) c arg1 harg1 arg2 harg2 arg3 harg3 arg6 arg8 arg9 x0 x1 x2) (kernelRun0_A.sl.v1171 (F := Ideal) c arg1 harg1 arg2 harg2 arg3 harg3 arg4 harg4 arg6 arg7 arg8 arg10 x0 x1 x2 x3) := by
    unfold kernelRun0_A.sl.v1154 kernelRun0_A.sl.v1163 kernelRun0_A.sl.v1171 kernelRun0_A.sl.HS2_32 kernelRun0_A.sl.HS3_32 kernelRun0_A.sl.HS4_32
    rw [View.readCov_cons_toLoadRect, View.readCov_cons_toLoadRect, View.readCov_cons_toLoadRect]
    exact st3
  have hS4 := sOff_sem X WQ WK 6 4 (by decide) hQ hK4
  have st4 := step_sem X WQ WK WV 6 4 (by decide) s4 hS4 hV4
  have s5 : Inv X WQ WK WV 6 5 (kernelRun0_A.sl.v1186 (F := Ideal) c arg1 harg1 arg2 harg2 arg3 harg3 arg6 arg8 x0 x1 x2) (kernelRun0_A.sl.v1195 (F := Ideal) c arg1 harg1 arg2 harg2 arg3 harg3 arg6 arg8 arg9 x0 x1 x2) (kernelRun0_A.sl.v1203 (F := Ideal) c arg1 harg1 arg2 harg2 arg3 harg3 arg4 harg4 arg6 arg7 arg8 arg10 x0 x1 x2 x3) := by
    unfold kernelRun0_A.sl.v1186 kernelRun0_A.sl.v1195 kernelRun0_A.sl.v1203 kernelRun0_A.sl.HS2_33 kernelRun0_A.sl.HS3_33 kernelRun0_A.sl.HS4_33
    rw [View.readCov_cons_toLoadRect, View.readCov_cons_toLoadRect, View.readCov_cons_toLoadRect]
    exact st4
  have hS5 := sOff_sem X WQ WK 6 5 (by decide) hQ hK5
  have st5 := step_sem X WQ WK WV 6 5 (by decide) s5 hS5 hV5
  have s6 : Inv X WQ WK WV 6 6 (kernelRun0_A.sl.v1229 (F := Ideal) c arg1 harg1 arg2 harg2 arg3 harg3 arg6 arg8 x0 x1 x2) (kernelRun0_A.sl.v1238 (F := Ideal) c arg1 harg1 arg2 harg2 arg3 harg3 arg6 arg8 arg9 x0 x1 x2) (kernelRun0_A.sl.v1246 (F := Ideal) c arg1 harg1 arg2 harg2 arg3 harg3 arg4 harg4 arg6 arg7 arg8 arg10 x0 x1 x2 x3) := by
    unfold kernelRun0_A.sl.v1229 kernelRun0_A.sl.v1238 kernelRun0_A.sl.v1246 kernelRun0_A.sl.HS2_34 kernelRun0_A.sl.HS3_34 kernelRun0_A.sl.HS4_34
    rw [View.readCov_cons_toLoadRect, View.readCov_cons_toLoadRect, View.readCov_cons_toLoadRect]
    exact st5
  have hS6 := sDiag_sem X WQ WK 6 1536#32 rfl hQ hK6
  have st6 := step_sem X WQ WK WV 6 6 (by decide) s6 hS6 hV6
  have fin := out_sem X WQ WK WV 6 st6 r h
  unfold kernelRun0_A.sl.v1258 kernelRun0_A.sl.v1259 kernelRun0_A.sl.HS4_35 kernelRun0_A.sl.HS3_35
  rw [View.readCov_cons_toLoadRect, View.readCov_cons_toLoadRect]
  exact fin

end Cert.KernelIdeal.Gen.Flash

end
-- ==== Proof.Tile7.lean ====
/-
  Query tile 7 (rows 1792 to 2047 of a batch row): what the kernel stores for it is the causal attention of
  those rows. The tile's query block is the scaled projection of its slab of the input; key and value tiles
  0 to 7 are the projections of their slabs, read back from the scratch they were stored to. The running
  maximum, denominator and numerator are kept in three scratch buffers, each rewritten whole at every step, so a
  load reads what the last store left. The state starts at (minus infinity, 0, 0); each key tile below the
  diagonal takes one unmasked online-softmax step, the diagonal tile a masked one; the stored quotient
  numerator / denominator is then the attention of the tile's rows.
-/
import proofs.«409854_j43765716746377_3_alg».proof.Proof.TileSemA
import proofs.«409854_j43765716746377_3_alg».proof.Proof.TileSemB
import proofs.«409854_j43765716746377_3_alg».proof.Proof.Loads
import proofs.«409854_j43765716746377_3_alg».proof.Proof.KVLoads
import proofs.«409854_j43765716746377_3_alg».proof.Proof.Gen.KernelIdeal.Frame

set_option maxRecDepth 65536

noncomputable section

namespace Cert.KernelIdeal.Gen.Flash

open Idealize.ShloMosaic Idealize.ShloMosaic.TcCoe Idealize.ShloMosaic.Tactic Idealize.SL Idealize.SL.Sem
open Idealize.ShloMosaic Idealize.ShloMosaic.ValueIdx Cert.KernelIdeal Cert.KernelIdeal.Gen Cert.KernelIdeal.Flash Cert.Spec

variable (X : Fin 2048 → Fin 1024 → ℝ) (WQ WK WV : Fin 1024 → Fin 64 → ℝ)

/-- The store of query tile 7, entry (r, h), is the attention at row 1792 + r. -/
theorem tile7 (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx : ∀ (i : Fin 2048) (c : Fin 1024), (x0 (ix3 (0 : Fin 1) i c) : EReal) = ((X i c : ℝ) : EReal))
    (hq : IsW WQ x1) (hk : IsW WK x2) (hv : IsW WV x3) (r : Fin 256) (h : Fin 64) :
    ((k0_pay1 (kernelRun0_A.sl.r_82 c arg1 harg1 arg2 harg2 arg3 harg3 arg4 harg4 arg6 arg7 arg8 arg9 arg10 x0 x1 x2 x3)) (ix3 (0 : Fin 1) r h) : EReal) = ((attn scR X WQ WK WV (row 7 r) h : ℝ) : EReal) := by
  have hQ := q_sem X WQ 7 (w_sem WQ hq arg2 harg2) (slab_sem X x0 hx arg1 harg1 7 1792 rfl inb_S1x2048x1024_S1x256x1024_0_1792_0)
  have hK0 := k_load0 X WK c i arg1 harg1 arg2 harg2 arg3 harg3 arg4 harg4 arg5 harg5 arg6 harg6 arg7 harg7 arg8 harg8 arg9 harg9 arg10 harg10 x0 x1 x2 x3 hx hk
  have hV0 := v_load0 X WV c i arg1 harg1 arg2 harg2 arg3 harg3 arg4 harg4 arg5 harg5 arg6 harg6 arg7 harg7 arg8 harg8 arg9 harg9 arg10 harg10 x0 x1 x2 x3 hx hv
  have hK1 := k_load1 X WK c i arg1 harg1 arg2 harg2 arg3 harg3 arg4 harg4 arg5 harg5 arg6 harg6 arg7 harg7 arg8 harg8 arg9 harg9 arg10 harg10 x0 x1 x2 x3 hx hk
  have hV1 := v_load1 X WV c i arg1 harg1 arg2 harg2 arg3 harg3 arg4 harg4 arg5 harg5 arg6 harg6 arg7 harg7 arg8 harg8 arg9 harg9 arg10 harg10 x0 x1 x2 x3 hx hv
  have hK2 := k_load2 X WK c i arg1 harg1 arg2 harg2 arg3 harg3 arg4 harg4 arg5 harg5 arg6 harg6 arg7 harg7 arg8 harg8 arg9 harg9 arg10 harg10 x0 x1 x2 x3 hx hk
  have hV2 := v_load2 X WV c i arg1 harg1 arg2 harg2 arg3 harg3 arg4 harg4 arg5 harg5 arg6 harg6 arg7 harg7 arg8 harg8 arg9 harg9 arg10 harg10 x0 x1 x2 x3 hx hv
  have hK3 := k_load3 X WK c i arg1 harg1 arg2 harg2 arg3 harg3 arg4 harg4 arg5 harg5 arg6 harg6 arg7 harg7 arg8 harg8 arg9 harg9 arg10 harg10 x0 x1 x2 x3 hx hk
  have hV3 := v_load3 X WV c i arg1 harg1 arg2 harg2 arg3 harg3 arg4 harg4 arg5 harg5 arg6 harg6 arg7 harg7 arg8 harg8 arg9 harg9 arg10 harg10 x0 x1 x2 x3 hx hv
  have hK4 := k_load4 X WK c i arg1 harg1 arg2 harg2 arg3 harg3 arg4 harg4 arg5 harg5 arg6 harg6 arg7 harg7 arg8 harg8 arg9 harg9 arg10 harg10 x0 x1 x2 x3 hx hk
  have hV4 := v_load4 X WV c i arg1 harg1 arg2 harg2 arg3 harg3 arg4 harg4 arg5 harg5 arg6 harg6 arg7 harg7 arg8 harg8 arg9 harg9 arg10 harg10 x0 x1 x2 x3 hx hv
  have hK5 := k_load5 X WK c i arg1 harg1 arg2 harg2 arg3 harg3 arg4 harg4 arg5 harg5 arg6 harg6 arg7 harg7 arg8 harg8 arg9 harg9 arg10 harg10 x0 x1 x2 x3 hx hk
  have hV5 := v_load5 X WV c i arg1 harg1 arg2 harg2 arg3 harg3 arg4 harg4 arg5 harg5 arg6 harg6 arg7 harg7 arg8 harg8 arg9 harg9 arg10 harg10 x0 x1 x2 x3 hx hv
  have hK6 := k_load6 X WK c i arg1 harg1 arg2 harg2 arg3 harg3 arg4 harg4 arg5 harg5 arg6 harg6 arg7 harg7 arg8 harg8 arg9 harg9 arg10 harg10 x0 x1 x2 x3 hx hk
  have hV6 := v_load6 X WV c i arg1 harg1 arg2 harg2 arg3 harg3 arg4 harg4 arg5 harg5 arg6 harg6 arg7 harg7 arg8 harg8 arg9 harg9 arg10 harg10 x0 x1 x2 x3 hx hv
  have hK7 := k_load7 X WK c i arg1 harg1 arg2 harg2 arg3 harg3 arg4 harg4 arg5 harg5 arg6 harg6 arg7 harg7 arg8 harg8 arg9 harg9 arg10 harg10 x0 x1 x2 x3 hx hk
  have hV7 := v_load7 X WV c i arg1 harg1 arg2 harg2 arg3 harg3 arg4 harg4 arg5 harg5 arg6 harg6 arg7 harg7 arg8 harg8 arg9 harg9 arg10 harg10 x0 x1 x2 x3 hx hv
  have s0 : Inv X WQ WK WV 7 0 (kernelRun0_A.sl.v1287 (F := Ideal) c arg1 harg1 arg2 harg2 arg3 harg3 arg6 arg8 x0 x1 x2) (kernelRun0_A.sl.v1296 (F := Ideal) c arg1 harg1 arg2 harg2 arg3 harg3 arg6 arg8 arg9 x0 x1 x2) (kernelRun0_A.sl.v1304 (F := Ideal) c arg1 harg1 arg2 harg2 arg3 harg3 arg4 harg4 arg6 arg7 arg8 arg10 x0 x1 x2 x3) := by
    unfold kernelRun0_A.sl.v1287 kernelRun0_A.sl.v1296 kernelRun0_A.sl.v1304 kernelRun0_A.sl.HS2_36 kernelRun0_A.sl.HS3_36 kernelRun0_A.sl.HS4_36
    rw [View.readCov_cons_toLoadRect, View.readCov_cons_toLoadRect, View.readCov_cons_toLoadRect]
    exact init_sem X WQ WK WV 7
  have hS0 := sOff_sem X WQ WK 7 0 (by decide) hQ hK0
  have st0 := step_sem X WQ WK WV 7 0 (by decide) s0 hS0 hV0
  have s1 : Inv X WQ WK WV 7 1 (kernelRun0_A.sl.v1319 (F := Ideal) c arg1 harg1 arg2 harg2 arg3 harg3 arg6 arg8 x0 x1 x2) (kernelRun0_A.sl.v1328 (F := Ideal) c arg1 harg1 arg2 harg2 arg3 harg3 arg6 arg8 arg9 x0 x1 x2) (kernelRun0_A.sl.v1336 (F := Ideal) c arg1 harg1 arg2 harg2 arg3 harg3 arg4 harg4 arg6 arg7 arg8 arg10 x0 x1 x2 x3) := by
    unfold kernelRun0_A.sl.v1319 kernelRun0_A.sl.v1328 kernelRun0_A.sl.v1336 kernelRun0_A.sl.HS2_37 kernelRun0_A.sl.HS3_37 kernelRun0_A.sl.HS4_37
    rw [View.readCov_cons_toLoadRect, View.readCov_cons_toLoadRect, View.readCov_cons_toLoadRect]
    exact st0
  have hS1 := sOff_sem X WQ WK 7 1 (by decide) hQ hK1
  have st1 := step_sem X WQ WK WV 7 1 (by decide) s1 hS1 hV1
  have s2 : Inv X WQ WK WV 7 2 (kernelRun0_A.sl.v1351 (F := Ideal) c arg1 harg1 arg2 harg2 arg3 harg3 arg6 arg8 x0 x1 x2) (kernelRun0_A.sl.v1360 (F := Ideal) c arg1 harg1 arg2 harg2 arg3 harg3 arg6 arg8 arg9 x0 x1 x2) (kernelRun0_A.sl.v1368 (F := Ideal) c arg1 harg1 arg2 harg2 arg3 harg3 arg4 harg4 arg6 arg7 arg8 arg10 x0 x1 x2 x3) := by
    unfold kernelRun0_A.sl.v1351 kernelRun0_A.sl.v1360 kernelRun0_A.sl.v1368 kernelRun0_A.sl.HS2_38 kernelRun0_A.sl.HS3_38 kernelRun0_A.sl.HS4_38
    rw [View.readCov_cons_toLoadRect, View.readCov_cons_toLoadRect, View.readCov_cons_toLoadRect]
    exact st1
  have hS2 := sOff_sem X WQ WK 7 2 (by decide) hQ hK2
  have st2 := step_sem X WQ WK WV 7 2 (by decide) s2 hS2 hV2
  have s3 : Inv X WQ WK WV 7 3 (kernelRun0_A.sl.v1383 (F := Ideal) c arg1 harg1 arg2 harg2 arg3 harg3 arg6 arg8 x0 x1 x2) (kernelRun0_A.sl.v1392 (F := Ideal) c arg1 harg1 arg2 harg2 arg3 harg3 arg6 arg8 arg9 x0 x1 x2) (kernelRun0_A.sl.v1400 (F := Ideal) c arg1 harg1 arg2 harg2 arg3 harg3 arg4 harg4 arg6 arg7 arg8 arg10 x0 x1 x2 x3) := by
    unfold kernelRun0_A.sl.v1383 kernelRun0_A.sl.v1392 kernelRun0_A.sl.v1400 kernelRun0_A.sl.HS2_39 kernelRun0_A.sl.HS3_39 kernelRun0_A.sl.HS4_39
    rw [View.readCov_cons_toLoadRect, View.readCov_cons_toLoadRect, View.readCov_cons_toLoadRect]
    exact st2
  have hS3 := sOff_sem X WQ WK 7 3 (by decide) hQ hK3
  have st3 := step_sem X WQ WK WV 7 3 (by decide) s3 hS3 hV3
  have s4 : Inv X WQ WK WV 7 4 (kernelRun0_A.sl.v1415 (F := Ideal) c arg1 harg1 arg2 harg2 arg3 harg3 arg6 arg8 x0 x1 x2) (kernelRun0_A.sl.v1424 (F := Ideal) c arg1 harg1 arg2 harg2 arg3 harg3 arg6 arg8 arg9 x0 x1 x2) (kernelRun0_A.sl.v1432 (F := Ideal) c arg1 harg1 arg2 harg2 arg3 harg3 arg4 harg4 arg6 arg7 arg8 arg10 x0 x1 x2 x3) := by
    unfold kernelRun0_A.sl.v1415 kernelRun0_A.sl.v1424 kernelRun0_A.sl.v1432 kernelRun0_A.sl.HS2_40 kernelRun0_A.sl.HS3_40 kernelRun0_A.sl.HS4_40
    rw [View.readCov_cons_toLoadRect, View.readCov_cons_toLoadRect, View.readCov_cons_toLoadRect]
    exact st3
  have hS4 := sOff_sem X WQ WK 7 4 (by decide) hQ hK4
  have st4 := step_sem X WQ WK WV 7 4 (by decide) s4 hS4 hV4
  have s5 : Inv X WQ WK WV 7 5 (kernelRun0_A.sl.v1447 (F := Ideal) c arg1 harg1 arg2 harg2 arg3 harg3 arg6 arg8 x0 x1 x2) (kernelRun0_A.sl.v1456 (F := Ideal) c arg1 harg1 arg2 harg2 arg3 harg3 arg6 arg8 arg9 x0 x1 x2) (kernelRun0_A.sl.v1464 (F := Ideal) c arg1 harg1 arg2 harg2 arg3 harg3 arg4 harg4 arg6 arg7 arg8 arg10 x0 x1 x2 x3) := by
    unfold kernelRun0_A.sl.v1447 kernelRun0_A.sl.v1456 kernelRun0_A.sl.v1464 kernelRun0_A.sl.HS2_41 kernelRun0_A.sl.HS3_41 kernelRun0_A.sl.HS4_41
    rw [View.readCov_cons_toLoadRect, View.readCov_cons_toLoadRect, View.readCov_cons_toLoadRect]
    exact st4
  have hS5 := sOff_sem X WQ WK 7 5 (by decide) hQ hK5
  have st5 := step_sem X WQ WK WV 7 5 (by decide) s5 hS5 hV5
  have s6 : Inv X WQ WK WV 7 6 (kernelRun0_A.sl.v1479 (F := Ideal) c arg1 harg1 arg2 harg2 arg3 harg3 arg6 arg8 x0 x1 x2) (kernelRun0_A.sl.v1488 (F := Ideal) c arg1 harg1 arg2 harg2 arg3 harg3 arg6 arg8 arg9 x0 x1 x2) (kernelRun0_A.sl.v1496 (F := Ideal) c arg1 harg1 arg2 harg2 arg3 harg3 arg4 harg4 arg6 arg7 arg8 arg10 x0 x1 x2 x3) := by
    unfold kernelRun0_A.sl.v1479 kernelRun0_A.sl.v1488 kernelRun0_A.sl.v1496 kernelRun0_A.sl.HS2_42 kernelRun0_A.sl.HS3_42 kernelRun0_A.sl.HS4_42
    rw [View.readCov_cons_toLoadRect, View.readCov_cons_toLoadRect, View.readCov_cons_toLoadRect]
    exact st5
  have hS6 := sOff_sem X WQ WK 7 6 (by decide) hQ hK6
  have st6 := step_sem X WQ WK WV 7 6 (by decide) s6 hS6 hV6
  have s7 : Inv X WQ WK WV 7 7 (kernelRun0_A.sl.v1522 (F := Ideal) c arg1 harg1 arg2 harg2 arg3 harg3 arg6 arg8 x0 x1 x2) (kernelRun0_A.sl.v1531 (F := Ideal) c arg1 harg1 arg2 harg2 arg3 harg3 arg6 arg8 arg9 x0 x1 x2) (kernelRun0_A.sl.v1539 (F := Ideal) c arg1 harg1 arg2 harg2 arg3 harg3 arg4 harg4 arg6 arg7 arg8 arg10 x0 x1 x2 x3) := by
    unfold kernelRun0_A.sl.v1522 kernelRun0_A.sl.v1531 kernelRun0_A.sl.v1539 kernelRun0_A.sl.HS2_43 kernelRun0_A.sl.HS3_43 kernelRun0_A.sl.HS4_43
    rw [View.readCov_cons_toLoadRect, View.readCov_cons_toLoadRect, View.readCov_cons_toLoadRect]
    exact st6
  have hS7 := sDiag_sem X WQ WK 7 1792#32 rfl hQ hK7
  have st7 := step_sem X WQ WK WV 7 7 (by decide) s7 hS7 hV7
  have fin := out_sem X WQ WK WV 7 st7 r h
  unfold kernelRun0_A.sl.r_82 kernelRun0_A.sl.v1551 kernelRun0_A.sl.v1552 kernelRun0_A.sl.HS4_44 kernelRun0_A.sl.HS3_44
  rw [View.readCov_cons_toLoadRect, View.readCov_cons_toLoadRect]
  exact fin

end Cert.KernelIdeal.Gen.Flash

end
-- ==== Proof.KernelValue.lean ====
/-
  The kernel computes the specification: at every grid point (one batch row) the eight stores of the output block
  hold the attention of the block's rows, so the block is the specification's batch row, and the blocks of the
  eight grid points tile the result array.
-/
import proofs.«409854_j43765716746377_3_alg».proof.Proof.SpecG
import proofs.«409854_j43765716746377_3_alg».proof.Proof.Gen.KernelIdeal.Value
import proofs.«409854_j43765716746377_3_alg».proof.Proof.Tile0
import proofs.«409854_j43765716746377_3_alg».proof.Proof.Tile1
import proofs.«409854_j43765716746377_3_alg».proof.Proof.Tile2
import proofs.«409854_j43765716746377_3_alg».proof.Proof.Tile3
import proofs.«409854_j43765716746377_3_alg».proof.Proof.Tile4
import proofs.«409854_j43765716746377_3_alg».proof.Proof.Tile5
import proofs.«409854_j43765716746377_3_alg».proof.Proof.Tile6
import proofs.«409854_j43765716746377_3_alg».proof.Proof.Tile7

noncomputable section

namespace Cert.KernelIdeal.AttnValue

open Cert.KernelIdeal Cert.KernelIdeal.Gen Cert.KernelIdeal.Value Idealize.ShloMosaic Idealize.ShloMosaic.TcCoe Idealize.SL.Sem Idealize.ShloMosaic.ValueIdx Cert.Spec

open Cert.KernelIdeal.Gen.Flash (row IsW)

set_option maxRecDepth 65536

section Blocks

/-- The reals a block of the input (one batch row) denotes. -/
def rowsReal (x0 : Vec Ideal S1x2048x1024 .f32) : Fin 2048 → Fin 1024 → ℝ :=
  fun t c => (x0 (ix3 (0 : Fin 1) t c)).toReal

/-- Entry (r, h) of the store of rows o to o + 255, o = 256 t, sits in the output block at row 256 t + r. -/
theorem emb_tile (o : Nat) (t : Fin 8) (ho : o = 256 * t.val)
    (inb : ∀ a, (![0, o, 0] : Fin 3 → Nat) a + (![1, 256, 64] : Fin 3 → Nat) a ≤ S1x2048x64.size a) (r : Fin 256) (h : Fin 64) :
    (Rect.unit (s := S1x2048x64) ![0, o, 0] ![1, 256, 64] inb).emb (ix3 (0 : Fin 1) r h) = ix3 (0 : Fin 1) (row t r) h := by
  funext a; apply Fin.ext
  fin_cases a
  · show 0 + 1 * 0 = 0; omega
  · show o + 1 * r.val = 256 * t.val + r.val; omega
  · show 0 + 1 * h.val = h.val; omega

/-- The output block a grid point leaves, from a real input block and real weights: entry (0, i, h) is the
    attention of the block's rows at (i, h). The eight stores each hold the attention of their 256 rows, and
    together they cover the block. -/
theorem block_attn (c : Dev nD) (i : grid0.Coords) (arg1 : Memref sig .tc .vmem S1x2048x1024 .f32) (harg1 : arg1.IsWhole) (arg2 : Memref sig .tc .vmem S1024x64 .f32) (harg2 : arg2.IsWhole) (arg3 : Memref sig .tc .vmem S1024x64 .f32) (harg3 : arg3.IsWhole) (arg4 : Memref sig .tc .vmem S1024x64 .f32) (harg4 : arg4.IsWhole) (arg5 : Memref sig .tc .vmem S1x2048x64 .f32) (harg5 : arg5.IsWhole) (arg6 : Memref sig .tc .vmem S2048x64 .bf16) (harg6 : arg6.IsWhole) (arg7 : Memref sig .tc .vmem S2048x64 .bf16) (harg7 : arg7.IsWhole) (arg8 : Memref sig .tc .vmem S256x1 .f32) (harg8 : arg8.IsWhole) (arg9 : Memref sig .tc .vmem S256x1 .f32) (harg9 : arg9.IsWhole) (arg10 : Memref sig .tc .vmem S256x64 .f32) (harg10 : arg10.IsWhole)
    (x0 : Vec Ideal S1x2048x1024 .f32) (x1 : Vec Ideal S1024x64 .f32) (x2 : Vec Ideal S1024x64 .f32) (x3 : Vec Ideal S1024x64 .f32)
    (hx0 : ∀ j, (x0 j : EReal) = (((x0 j : EReal).toReal : ℝ) : EReal)) (hx1 : ∀ j, (x1 j : EReal) = (((x1 j : EReal).toReal : ℝ) : EReal))
    (hx2 : ∀ j, (x2 j : EReal) = (((x2 j : EReal).toReal : ℝ) : EReal)) (hx3 : ∀ j, (x3 j : EReal) = (((x3 j : EReal).toReal : ℝ) : EReal)) :
    out0_A_4 c i arg1 harg1 arg2 harg2 arg3 harg3 arg4 harg4 arg5 harg5 arg6 harg6 arg7 harg7 arg8 harg8 arg9 harg9 arg10 harg10 x0 x1 x2 x3
      = fun idx => ((attn scR (rowsReal x0) (wReal x1) (wReal x2) (wReal x3) (idx 1 : Fin 2048) (idx 2 : Fin 64) : ℝ) : EReal) := by
  have hX : ∀ (i : Fin 2048) (c : Fin 1024), (x0 (ix3 (0 : Fin 1) i c) : EReal) = ((rowsReal x0 i c : ℝ) : EReal) := fun i c => hx0 _
  have hq : IsW (wReal x1) x1 := fun c h => hx1 _
  have hk : IsW (wReal x2) x2 := fun c h => hx2 _
  have hv : IsW (wReal x3) x3 := fun c h => hx3 _
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 x0 x1 x2 x3)]
  funext y
  refine View.canon_apply_of_pieces (fun idx : S1x2048x64.Idx => ((attn scR (rowsReal x0) (wReal x1) (wReal x2) (wReal x3) (idx 1 : Fin 2048) (idx 2 : Fin 64) : ℝ) : EReal)) _ ?_ y (cover0_A_4 c i arg1 harg1 arg2 harg2 arg3 harg3 arg4 harg4 arg5 harg5 arg6 harg6 arg7 harg7 arg8 harg8 arg9 harg9 arg10 harg10 x0 x1 x2 x3 y)
  unfold kernelRun0_A
  dsimp only
  intro p hp x
  simp only [List.mem_cons, List.not_mem_nil, or_false] at hp
  rcases hp with rfl | rfl | rfl | rfl | rfl | rfl | rfl | rfl
  · -- rows 1792 to 2047
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile7 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 1792 7 rfl]
  · -- rows 1536 to 1791
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile6 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 1536 6 rfl]
  · -- rows 1280 to 1535
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile5 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 1280 5 rfl]
  · -- rows 1024 to 1279
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile4 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 1024 4 rfl]
  · -- rows 768 to 1023
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile3 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 768 3 rfl]
  · -- rows 512 to 767
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile2 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 512 2 rfl]
  · -- rows 256 to 511
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile1 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 256 1 rfl]
  · -- rows 0 to 255
    obtain ⟨a, r, h, rfl⟩ : ∃ (a : Fin 1) (r : Fin 256) (h : Fin 64), x = ix3 a r h := ⟨x 0, x 1, x 2, eq_ix3 x⟩
    obtain rfl : a = 0 := Subsingleton.elim _ _
    refine (Flash.tile0 (rowsReal x0) (wReal x1) (wReal x2) (wReal x3) c i arg1 harg1 arg2 harg2 arg3 harg3 arg4 harg4 arg5 harg5 arg6 harg6 arg7 harg7 arg8 harg8 arg9 harg9 arg10 harg10 x0 x1 x2 x3 hX hq hk hv r h).trans ?_
    rw [emb_tile 0 0 rfl]

variable (m : (ℓ : Loc nD τ sig) → Buf (Elt Ideal) ℓ)

/-- The printed index maps, decided over the grid: at point t the input's block and the result's block are batch
    row t (block index (t, 0, 0)), and each weight's block is its whole matrix (block index (0, 0)). -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The input's block at point t reads the argument array at batch row t. -/
theorem xblk_apply (c : Dev nD) (t : Fin cfg0.N) (y : S1x2048x1024.Idx) (k : S8x2048x1024.Idx)
    (h0 : (k 0).val = t.val) (h1 : (k 1).val = (y 1).val) (h2 : (k 2).val = (y 2).val) :
    ((iblk m c 0 t : Vec Ideal S1x2048x1024 .f32) y : EReal) = ((m ((c.tc : Thread nD τ).loc main_arg0)) : S8x2048x1024.Idx → EReal) k := by
  obtain ⟨e0, e1, e2, -⟩ := idx_facts t
  show V m c main_arg0 (((cfg0.win 0).blk t).view.emb y) = _
  rw [V_main_arg0]
  refine congrArg _ ?_
  funext a; apply Fin.ext
  have hy : (y 0).val < 1 := (y 0).isLt
  match a with
  | ⟨0, _⟩ => show win0_0.index t (0 : Fin 3) * 1 + 1 * (y 0).val = (k 0).val; omega
  | ⟨1, _⟩ => show win0_0.index t (1 : Fin 3) * 2048 + 1 * (y 1).val = (k 1).val; omega
  | ⟨2, _⟩ => show win0_0.index t (2 : Fin 3) * 1024 + 1 * (y 2).val = (k 2).val; omega

/-- A weight's block at any point is the whole weight matrix: the query weight's, -/
theorem wblk1_apply (c : Dev nD) (t : Fin cfg0.N) (y : S1024x64.Idx) :
    ((iblk m c 1 t : Vec Ideal S1024x64 .f32) y : EReal) = ((m ((c.tc : Thread nD τ).loc main_arg1)) : S1024x64.Idx → EReal) y := by
  obtain ⟨-, -, -, e0, e1, -⟩ := idx_facts t
  show V m c main_arg1 (((cfg0.win 1).blk t).view.emb y) = _
  rw [V_main_arg1]
  refine congrArg _ ?_
  funext a; apply Fin.ext
  match a with
  | ⟨0, _⟩ => show win0_1.index t (0 : Fin 2) * 1024 + 1 * (y 0).val = (y 0).val; omega
  | ⟨1, _⟩ => show win0_1.index t (1 : Fin 2) * 64 + 1 * (y 1).val = (y 1).val; omega

/-- The key weight's block likewise. -/
theorem wblk2_apply (c : Dev nD) (t : Fin cfg0.N) (y : S1024x64.Idx) :
    ((iblk m c 2 t : Vec Ideal S1024x64 .f32) y : EReal) = ((m ((c.tc : Thread nD τ).loc main_arg2)) : S1024x64.Idx → EReal) y := by
  obtain ⟨-, -, -, -, -, e0, e1, -⟩ := idx_facts t
  show V m c main_arg2 (((cfg0.win 2).blk t).view.emb y) = _
  rw [V_main_arg2]
  refine congrArg _ ?_
  funext a; apply Fin.ext
  match a with
  | ⟨0, _⟩ => show win0_2.index t (0 : Fin 2) * 1024 + 1 * (y 0).val = (y 0).val; omega
  | ⟨1, _⟩ => show win0_2.index t (1 : Fin 2) * 64 + 1 * (y 1).val = (y 1).val; omega

/-- The value weight's block likewise. -/
theorem wblk3_apply (c : Dev nD) (t : Fin cfg0.N) (y : S1024x64.Idx) :
    ((iblk m c 3 t : Vec Ideal S1024x64 .f32) y : EReal) = ((m ((c.tc : Thread nD τ).loc main_arg3)) : S1024x64.Idx → EReal) y := by
  obtain ⟨-, -, -, -, -, -, -, e0, e1, -⟩ := idx_facts t
  show V m c main_arg3 (((cfg0.win 3).blk t).view.emb y) = _
  rw [V_main_arg3]
  refine congrArg _ ?_
  funext a; apply Fin.ext
  match a with
  | ⟨0, _⟩ => show win0_3.index t (0 : Fin 2) * 1024 + 1 * (y 0).val = (y 0).val; omega
  | ⟨1, _⟩ => show win0_3.index t (1 : Fin 2) * 64 + 1 * (y 1).val = (y 1).val; omega

/-- Where an entry of the result's block at point t sits in the result array: batch row t, same row, same lane. -/
theorem oblk_emb (t : Fin cfg0.N) (j : ((cfg0.win 4).xblock (cfg0.grid.coords t)).Idx) :
    ((((cfg0.win 4).blk t).view.emb j) 0).val = t.val ∧ ((((cfg0.win 4).blk t).view.emb j) 1).val = (j 1).val
      ∧ ((((cfg0.win 4).blk t).view.emb j) 2).val = (j 2).val := by
  obtain ⟨-, -, -, -, -, -, -, -, -, e0, e1, e2⟩ := idx_facts t
  have hj : (j 0).val < 1 := (j 0).isLt
  refine ⟨?_, ?_, ?_⟩
  · show win0_4.index t (0 : Fin 3) * 1 + 1 * (j 0).val = t.val; omega
  · show win0_4.index t (1 : Fin 3) * 2048 + 1 * (j 1).val = (j 1).val; omega
  · show win0_4.index t (2 : Fin 3) * 64 + 1 * (j 2).val = (j 2).val; omega

/-- What point t writes back is block t of the specification of the argument arrays. -/
theorem flushed_eq (c : Dev nD)
    (hfin : AllReal (m ((c.tc : Thread nD τ).loc main_arg0)) ∧ AllReal (m ((c.tc : Thread nD τ).loc main_arg1)) ∧ AllReal (m ((c.tc : Thread nD τ).loc main_arg2)) ∧ AllReal (m ((c.tc : Thread nD τ).loc main_arg3))) (t : Fin cfg0.N) :
    (dats m 0 c).flushed 4 t = ((cfg0.win 4).blk t).view.read (Elt Ideal) (G (m ((c.tc : Thread nD τ).loc main_arg0)) (m ((c.tc : Thread nD τ).loc main_arg1)) (m ((c.tc : Thread nD τ).loc main_arg2)) (m ((c.tc : Thread nD τ).loc main_arg3))) := by
  obtain ⟨hr0, hr1, hr2, hr3⟩ := hfin
  have hb0 : ∀ j, ((iblk m c 0 t : Vec Ideal S1x2048x1024 .f32) j : EReal) = ((((iblk m c 0 t : Vec Ideal S1x2048x1024 .f32) j : EReal).toReal : ℝ) : EReal) :=
    fun j => hr0 (((cfg0.win 0).blk t).view.emb j)
  have hb1 : ∀ j, ((iblk m c 1 t : Vec Ideal S1024x64 .f32) j : EReal) = ((((iblk m c 1 t : Vec Ideal S1024x64 .f32) j : EReal).toReal : ℝ) : EReal) :=
    fun j => hr1 (((cfg0.win 1).blk t).view.emb j)
  have hb2 : ∀ j, ((iblk m c 2 t : Vec Ideal S1024x64 .f32) j : EReal) = ((((iblk m c 2 t : Vec Ideal S1024x64 .f32) j : EReal).toReal : ℝ) : EReal) :=
    fun j => hr2 (((cfg0.win 2).blk t).view.emb j)
  have hb3 : ∀ j, ((iblk m c 3 t : Vec Ideal S1024x64 .f32) j : EReal) = ((((iblk m c 3 t : Vec Ideal S1024x64 .f32) j : EReal).toReal : ℝ) : EReal) :=
    fun j => hr3 (((cfg0.win 3).blk t).view.emb j)
  rw [Value.flushed4_A]
  rw [block_attn c _ _ _ _ _ _ _ _ _ _ _ _ _ _ _ _ _ _ _ _ _ (iblk m c 0 t) (iblk m c 1 t) (iblk m c 2 t) (iblk m c 3 t) hb0 hb1 hb2 hb3]
  funext j
  obtain ⟨p0, p1, p2⟩ := oblk_emb t j
  have hA : rowsReal (iblk m c 0 t) = xReal (m ((c.tc : Thread nD τ).loc main_arg0)) ((((cfg0.win 4).blk t).view.emb j) 0 : Fin 8) := by
    funext i c'
    exact congrArg EReal.toReal (xblk_apply m c t (ix3 (0 : Fin 1) i c') (ix3 _ i c') p0 rfl rfl)
  have hB : wReal (iblk m c 1 t) = wReal (m ((c.tc : Thread nD τ).loc main_arg1)) := by
    funext i c'; exact congrArg EReal.toReal (wblk1_apply m c t _)
  have hC : wReal (iblk m c 2 t) = wReal (m ((c.tc : Thread nD τ).loc main_arg2)) := by
    funext i c'; exact congrArg EReal.toReal (wblk2_apply m c t _)
  have hD : wReal (iblk m c 3 t) = wReal (m ((c.tc : Thread nD τ).loc main_arg3)) := by
    funext i c'; exact congrArg EReal.toReal (wblk3_apply m c t _)
  have q1 : ((((cfg0.win 4).blk t).view.emb j) 1 : Fin 2048) = (j 1 : Fin 2048) := Fin.ext p1
  have q2 : ((((cfg0.win 4).blk t).view.emb j) 2 : Fin 64) = (j 2 : Fin 64) := Fin.ext p2
  show ((attn scR (rowsReal (iblk m c 0 t)) (wReal (iblk m c 1 t)) (wReal (iblk m c 2 t)) (wReal (iblk m c 3 t)) (j 1 : Fin 2048) (j 2 : Fin 64) : ℝ) : EReal)
    = ((attn scR (xReal (m ((c.tc : Thread nD τ).loc main_arg0)) ((((cfg0.win 4).blk t).view.emb j) 0 : Fin 8)) (wReal (m ((c.tc : Thread nD τ).loc main_arg1))) (wReal (m ((c.tc : Thread nD τ).loc main_arg2))) (wReal (m ((c.tc : Thread nD τ).loc main_arg3)))
        ((((cfg0.win 4).blk t).view.emb j) 1 : Fin 2048) ((((cfg0.win 4).blk t).view.emb j) 2 : Fin 64) : ℝ) : EReal)
  rw [hA, hB, hC, hD, q1, q2]

/-- An index of the result array is in point t's block iff each coordinate is in the block's range on its axis. -/
theorem mem_blk (t : Fin cfg0.N) (i : S8x2048x64.Idx) :
    i ∈ ((cfg0.win 4).blk t).view.set ↔ ∀ a : Fin 3, win0_4.index t a * S1x2048x64.size a ≤ (i a).val ∧ (i a).val < win0_4.index t a * S1x2048x64.size a + S1x2048x64.size a := by
  show i ∈ ((View.whole main_v0).slice (win0_4.rect t)).set ↔ _
  rw [View.set_slice_whole, Rect.mem_set_unit]
  exact Iff.rfl

/-- Every index of the result array lies in the block of the point that is its batch row. -/
theorem covered (i : S8x2048x64.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 64 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, e0, e1, e2⟩ := idx_facts t
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 64 ≤ (i 2).val ∧ (i 2).val < win0_4.index t (2 : Fin 3) * 64 + 64; omega

/-- The result array after the run is the specification of the argument arrays. -/
theorem final (c : Dev nD)
    (hfin : AllReal (m ((c.tc : Thread nD τ).loc main_arg0)) ∧ AllReal (m ((c.tc : Thread nD τ).loc main_arg1)) ∧ AllReal (m ((c.tc : Thread nD τ).loc main_arg2)) ∧ AllReal (m ((c.tc : Thread nD τ).loc main_arg3))) :
    (dats m 0 c).arrAt 4 cfg0.N = G (m ((c.tc : Thread nD τ).loc main_arg0)) (m ((c.tc : Thread nD τ).loc main_arg1)) (m ((c.tc : Thread nD τ).loc main_arg2)) (m ((c.tc : Thread nD τ).loc main_arg3)) :=
  (dats m 0 c).arrAt_eq_of_cover 4 (G (m ((c.tc : Thread nD τ).loc main_arg0)) (m ((c.tc : Thread nD τ).loc main_arg1)) (m ((c.tc : Thread nD τ).loc main_arg2)) (m ((c.tc : Thread nD τ).loc main_arg3))) (fun t _ => flushed_eq m c hfin t) covered

end Blocks

/-- From real arguments every weakly fair execution of the kernel ends with the result array at the
    specification of the arguments, the arguments unchanged. -/
theorem run (m : (ℓ : Loc nD τ sig) → Buf (Elt Ideal) ℓ) (ρ : Dev nD → PrngReg)
    (hfin : ∀ c : Dev nD, AllReal (m ((c.tc : Thread nD τ).loc main_arg0)) ∧ AllReal (m ((c.tc : Thread nD τ).loc main_arg1))
      ∧ AllReal (m ((c.tc : Thread nD τ).loc main_arg2)) ∧ AllReal (m ((c.tc : Thread nD τ).loc main_arg3))) :
    θ_run defs (onTc (τ := τ) (main (F := Ideal))) ⟨m, fun _ => 0, ρ⟩ fun r => ∀ c : Dev nD,
      r.2.mem ((c.tc : Thread nD τ).loc main_v0)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (final m c (hfin c)), (h c).2⟩) (Value.run_blocks m ρ)

end Cert.KernelIdeal.AttnValue

end
-- ==== Proof.RefValue.lean ====
/-
  The reference computes the specification: its scores, causal mask, row maximum, exponentials, row sums,
  quotients and the final product with the values are, entry by entry, the causal attention of the reals the
  arguments denote. The row maximum only shifts the scores, and a shift cancels in the quotient.
-/
import proofs.«409854_j43765716746377_3_alg».proof.Proof.SpecG
import proofs.«409854_j43765716746377_3_alg».proof.Proof.Gen.ReferenceIdeal.Read
import Idealize.ShloMosaic.Lib.StableHlo.Predicate

noncomputable section

namespace Cert.ReferenceIdeal.AttnRef

open Cert.ReferenceIdeal Cert.ReferenceIdeal.Gen Idealize.ShloMosaic Idealize.ShloMosaic.TcCoe Idealize.SL.Sem Idealize.ShloMosaic.ValueIdx Cert.Spec

/-! ## Extended reals that are reals -/

/-- The coercion of a finite sum of reals is the sum of the coercions. -/
theorem coe_sum {ι : Type} (s : Finset ι) (f : ι → ℝ) : ((∑ k ∈ s, f k : ℝ) : EReal) = ∑ k ∈ s, (f k : EReal) := by
  classical
  refine Finset.induction_on s (by simp) fun a s ha ih => ?_
  rw [Finset.sum_insert ha, Finset.sum_insert ha, EReal.coe_add, ih]

/-- A product of two extended reals that are reals is the real product. -/
theorem mul_of_real {a b : EReal} (ha : a = ((a.toReal : ℝ) : EReal)) (hb : b = ((b.toReal : ℝ) : EReal)) :
    a * b = ((a.toReal * b.toReal : ℝ) : EReal) := by
  rw [EReal.coe_mul, ← ha, ← hb]

/-- The scale word denotes the real 1/32. -/
theorem scale_word : Ideal.ofBits .f32 0x3D000000#32 = ((scR : ℝ) : EReal) := by
  simp [Ideal.ofBits, Ideal.ieee, scR, -EReal.coe_mul]
  norm_num

/-- The mask word denotes the bottom element. -/
theorem ninf_word : Ideal.ofBits .f32 0xFF800000#32 = (⊥ : EReal) := by
  simp [Ideal.ofBits, Ideal.ieee]

/-! ## The three projections -/

section
variable (x : S8x2048x1024.Idx → EReal) (wq wk wv : S1024x64.Idx → EReal)

theorem lidx0 (b : Fin 8) (t : Fin 2048) (h : Fin 64) (k : Fin 1024) : Read.lidx_main_v0 (ix3 b t h) k = ix3 b t k :=
  funext fun a => by match a with | ⟨0, _⟩ => rfl | ⟨1, _⟩ => rfl | ⟨2, _⟩ => rfl
theorem ridx0 (b : Fin 8) (t : Fin 2048) (h : Fin 64) (k : Fin 1024) : Read.ridx_main_v0 (ix3 b t h) k = ix2 k h :=
  funext fun a => by match a with | ⟨0, _⟩ => rfl | ⟨1, _⟩ => rfl
theorem lidx1 (b : Fin 8) (t : Fin 2048) (h : Fin 64) (k : Fin 1024) : Read.lidx_main_v1 (ix3 b t h) k = ix3 b t k :=
  funext fun a => by match a with | ⟨0, _⟩ => rfl | ⟨1, _⟩ => rfl | ⟨2, _⟩ => rfl
theorem ridx1 (b : Fin 8) (t : Fin 2048) (h : Fin 64) (k : Fin 1024) : Read.ridx_main_v1 (ix3 b t h) k = ix2 k h :=
  funext fun a => by match a with | ⟨0, _⟩ => rfl | ⟨1, _⟩ => rfl
theorem lidx2 (b : Fin 8) (t : Fin 2048) (h : Fin 64) (k : Fin 1024) : Read.lidx_main_v2 (ix3 b t h) k = ix3 b t k :=
  funext fun a => by match a with | ⟨0, _⟩ => rfl | ⟨1, _⟩ => rfl | ⟨2, _⟩ => rfl
theorem ridx2 (b : Fin 8) (t : Fin 2048) (h : Fin 64) (k : Fin 1024) : Read.ridx_main_v2 (ix3 b t h) k = ix2 k h :=
  funext fun a => by match a with | ⟨0, _⟩ => rfl | ⟨1, _⟩ => rfl

/-- A row of the input times a weight matrix, entry by entry, is the real projection. -/
theorem sum_proj (hx : AllReal x) (w : S1024x64.Idx → EReal) (hw : AllReal w) (b : Fin 8) (t : Fin 2048) (h : Fin 64) :
    ∑ k : Fin 1024, x (ix3 b t k) * w (ix2 k h) = ((proj (xReal x b) (wReal w) t h : ℝ) : EReal) := by
  unfold proj
  rw [coe_sum]
  exact Finset.sum_congr rfl fun k _ => mul_of_real (hx (ix3 b t k)) (hw (ix2 k h))

theorem q_eq (hx : AllReal x) (hq : AllReal wq) (b : Fin 8) (t : Fin 2048) (h : Fin 64) :
    Read.val_main_v0 (F := Ideal) x wq (ix3 b t h) = ((proj (xReal x b) (wReal wq) t h : ℝ) : EReal) := by
  rw [Read.val_main_v0_apply]
  simp only [lidx0, ridx0]
  exact sum_proj x hx wq hq b t h

theorem k_eq (hx : AllReal x) (hk : AllReal wk) (b : Fin 8) (t : Fin 2048) (h : Fin 64) :
    Read.val_main_v1 (F := Ideal) x wk (ix3 b t h) = ((proj (xReal x b) (wReal wk) t h : ℝ) : EReal) := by
  rw [Read.val_main_v1_apply]
  simp only [lidx1, ridx1]
  exact sum_proj x hx wk hk b t h

theorem v_eq (hx : AllReal x) (hv : AllReal wv) (b : Fin 8) (t : Fin 2048) (h : Fin 64) :
    Read.val_main_v2 (F := Ideal) x wv (ix3 b t h) = ((proj (xReal x b) (wReal wv) t h : ℝ) : EReal) := by
  rw [Read.val_main_v2_apply]
  simp only [lidx2, ridx2]
  exact sum_proj x hx wv hv b t h

end

/-! ## Scores, causal mask, masked scores -/

section
variable (x : S8x2048x1024.Idx → EReal) (wq wk wv : S1024x64.Idx → EReal)

theorem lidx3 (b : Fin 8) (i j : Fin 2048) (k : Fin 64) : Read.lidx_main_v3 (ix3 b i j) k = ix3 b i k :=
  funext fun a => by match a with | ⟨0, _⟩ => rfl | ⟨1, _⟩ => rfl | ⟨2, _⟩ => rfl
theorem ridx3 (b : Fin 8) (i j : Fin 2048) (k : Fin 64) : Read.ridx_main_v3 (ix3 b i j) k = ix3 b j k :=
  funext fun a => by match a with | ⟨0, _⟩ => rfl | ⟨1, _⟩ => rfl | ⟨2, _⟩ => rfl

/-- The scaled product of a query row and a key row is the real score. -/
theorem score_eq (hx : AllReal x) (hq : AllReal wq) (hk : AllReal wk) (b : Fin 8) (i j : Fin 2048) :
    Read.val_main_v5 (F := Ideal) x wq wk (ix3 b i j)
      = ((score scR (xReal x b) (wReal wq) (wReal wk) i j : ℝ) : EReal) := by
  rw [Read.val_main_v5_apply, Read.val_main_v4_apply, Read.val_main_cst_apply, Read.val_main_v3_apply]
  simp only [lidx3, ridx3, q_eq x wq hx hq, k_eq x wk hx hk]
  rw [Ideal.mulf_def, Ideal.ofBits_def, scale_word]
  unfold score
  rw [EReal.coe_mul, coe_sum]
  refine congrArg (· * _) (Finset.sum_congr rfl fun k _ => ?_)
  rw [EReal.coe_mul]

/-- The comparison of the two coordinates as 32-bit words is the comparison of the coordinates. -/
theorem cmp_coord (i j : Fin 2048) :
    IntOp.cmpi .sge (IntOp.addi (BitVec.ofNat 32 i.val) 0#32) (BitVec.ofNat 32 j.val) = 1#1 ↔ j ≤ i := by
  have hi := i.isLt
  have hj := j.isLt
  have e1 : (IntOp.addi (BitVec.ofNat 32 i.val) 0#32).toNat = i.val := by
    show (BitVec.ofNat 32 i.val + 0#32).toNat = i.val
    rw [BitVec.add_zero, BitVec.toNat_ofNat]; omega
  have e2 : (BitVec.ofNat 32 j.val).toNat = j.val := by
    rw [BitVec.toNat_ofNat]; omega
  rw [StableHlo.Predicate.sge_iff_toNat (by rw [e1]; omega) (by rw [e2]; omega), e1, e2]
  exact Fin.le_def.symm

/-- The causal mask: one on and below the diagonal, zero above. -/
theorem mask_eq (b : Fin 8) (i j : Fin 2048) :
    Read.val_main_call1_v1 (F := Ideal) (ix3 b i j) = if j ≤ i then 1#1 else 0#1 := by
  have e : Read.idx_main_call1_v1 (ix3 b i j) = ix2 i j :=
    funext fun a => by match a with | ⟨0, _⟩ => rfl | ⟨1, _⟩ => rfl
  rw [Read.val_main_call1_v1_apply, e, Read.val_main_v7_apply, Read.val_main_call0_v4_apply, Read.val_main_call0_v2_apply,
    Read.val_main_call0_v0_apply, Read.val_main_call0_v1_apply, Read.val_main_call0_c_apply, Read.val_main_call0_v3_apply,
    Read.val_main_v6_apply, Read.val_main_c_apply, Read.val_main_call0_v5_apply, Read.val_main_call0_c_0_apply]
  show Scalar.select (IntOp.cmpi .sge (IntOp.addi (BitVec.ofNat 32 i.val) 0#32) (BitVec.ofNat 32 j.val)) 1#1 0#1 = _
  by_cases h : j ≤ i
  · rw [if_pos h, (cmp_coord i j).mpr h, select_one]
  · rw [if_neg h, eq_zero_of_ne_one (mt (cmp_coord i j).mp h), select_zero]

/-- The masked score: the real score on and below the diagonal, the bottom element above. -/
theorem masked_eq (hx : AllReal x) (hq : AllReal wq) (hk : AllReal wk) (b : Fin 8) (i j : Fin 2048) :
    Read.val_main_v8 (F := Ideal) x wq wk (ix3 b i j)
      = if j ≤ i then ((score scR (xReal x b) (wReal wq) (wReal wk) i j : ℝ) : EReal) else ⊥ := by
  rw [Read.val_main_v8_apply, mask_eq, score_eq x wq wk hx hq hk, Read.val_main_call1_v2_apply, Read.val_main_call1_v0_apply,
    Read.val_main_cst_0_apply, Ideal.ofBits_def, ninf_word]
  by_cases h : j ≤ i
  · rw [if_pos h, if_pos h, select_one]
  · rw [if_neg h, if_neg h, select_zero]

end

/-! ## Row maximum, exponentials, row sums, quotients, the product with the values -/

/-- A maximum, from the bottom element, of finitely many values each a real or the bottom element, one of them a
    real, is a real. -/
theorem fold_max_real {n : ℕ} (f : Fin n → EReal) (hf : ∀ k, f k = ⊥ ∨ ∃ r : ℝ, f k = (r : EReal)) (k0 : Fin n)
    (h0 : ∃ r : ℝ, f k0 = (r : EReal)) : ∃ μ : ℝ, (Finset.univ : Finset (Fin n)).fold max ⊥ f = (μ : EReal) := by
  have hlt : (Finset.univ : Finset (Fin n)).fold max ⊥ f < ⊤ := by
    rw [Finset.fold_max_lt]
    refine ⟨bot_lt_top, fun k _ => ?_⟩
    rcases hf k with h | ⟨r, h⟩
    · rw [h]; exact bot_lt_top
    · rw [h]; exact EReal.coe_lt_top r
  have hgt : ⊥ < (Finset.univ : Finset (Fin n)).fold max ⊥ f := by
    obtain ⟨r, hr⟩ := h0
    refine lt_of_lt_of_le (EReal.bot_lt_coe r) ?_
    rw [Finset.le_fold_max]
    exact Or.inr ⟨k0, Finset.mem_univ _, hr.ge⟩
  exact ⟨_, (EReal.coe_toReal hlt.ne hgt.ne').symm⟩

section
variable (x : S8x2048x1024.Idx → EReal) (wq wk wv : S1024x64.Idx → EReal)

/-- The row maximum of the masked scores is a real: every entry is a real or the bottom element, the diagonal one a
    real. -/
theorem rowmax_real (hx : AllReal x) (hq : AllReal wq) (hk : AllReal wk) (b : Fin 8) (i : Fin 2048) :
    ∃ μ : ℝ, Read.val_main_v11 (F := Ideal) x wq wk (ix2 b i) = (μ : EReal) := by
  have hred : S8x2048x2048.Reduces [2] S8x2048 := by decide
  have hl : ∀ k : Fin 2048, hred.lift (ix2 b i) k = ix3 b i k := fun k =>
    funext fun a => Fin.ext (by match a with | ⟨0, _⟩ => rfl | ⟨1, _⟩ => rfl | ⟨2, _⟩ => rfl)
  rw [Read.val_main_v11_apply, Read.val_main_v10_apply, Read.val_main_cst_2_apply, Ideal.maximumf_def, Ideal.ofBits_def,
    ninf_word, max_eq_right bot_le]
  unfold Read.val_main_v9
  rw [Host.reduce_eq_fold_single FloatOps.maximumf _ _ reducesTo_S8x2048x2048_S8x2048_d2 hred h_S_,
    Read.val_main_cst_1_apply, Ideal.ofBits_def, ninf_word]
  refine fold_max_real (n := 2048) (fun k => Read.val_main_v8 (F := Ideal) x wq wk (hred.lift (ix2 b i) k)) (fun k => ?_) i ?_
  · rw [hl k, masked_eq x wq wk hx hq hk]
    by_cases h : k ≤ i
    · rw [if_pos h]; exact Or.inr ⟨_, rfl⟩
    · rw [if_neg h]; exact Or.inl rfl
  · rw [hl i, masked_eq x wq wk hx hq hk, if_pos le_rfl]; exact ⟨_, rfl⟩

/-- The exponential of a masked score less the row maximum is the real weight, zero above the diagonal. -/
theorem exp_eq (hx : AllReal x) (hq : AllReal wq) (hk : AllReal wk) (b : Fin 8) (i j : Fin 2048) (μ : ℝ)
    (hμ : Read.val_main_v11 (F := Ideal) x wq wk (ix2 b i) = (μ : EReal)) :
    Read.val_main_v15 (F := Ideal) x wq wk (ix3 b i j)
      = ((wgt scR (xReal x b) (wReal wq) (wReal wk) μ i j : ℝ) : EReal) := by
  have e : Read.idx_main_v12 (Read.idx_main_v13 (ix3 b i j)) = ix2 b i :=
    funext fun a => by match a with | ⟨0, _⟩ => rfl | ⟨1, _⟩ => rfl
  rw [Read.val_main_v15_apply, Read.val_main_v14_apply, masked_eq x wq wk hx hq hk, Read.val_main_v13_apply,
    Read.val_main_v12_apply, e, hμ, Ideal.hostUnary_exp_def, Ideal.subf_def]
  unfold wgt
  by_cases h : j ≤ i
  · rw [if_pos h, if_pos h, ← EReal.coe_sub, Ideal.exp_coe]
  · rw [if_neg h, if_neg h, EReal.bot_sub, Ideal.exp_bot, EReal.coe_zero]

/-- The row sum of the exponentials is the real sum of the weights. -/
theorem denom_eq (hx : AllReal x) (hq : AllReal wq) (hk : AllReal wk) (b : Fin 8) (i : Fin 2048) (μ : ℝ)
    (hμ : Read.val_main_v11 (F := Ideal) x wq wk (ix2 b i) = (μ : EReal)) :
    Read.val_main_v16 (F := Ideal) x wq wk (ix2 b i)
      = ((∑ j, wgt scR (xReal x b) (wReal wq) (wReal wk) μ i j : ℝ) : EReal) := by
  rw [Read.val_main_v16_apply, Read.val_main_cst_3_apply, Ideal.ofBits_def, Ideal.ofBits_zero_f32, zero_add, coe_sum]
  refine Finset.sum_congr rfl fun k _ => ?_
  have e : Read.idx_main_v16 (ix2 b i) k = ix3 b i k :=
    funext fun a => by match a with | ⟨0, _⟩ => rfl | ⟨1, _⟩ => rfl | ⟨2, _⟩ => rfl
  rw [e]
  exact exp_eq x wq wk hx hq hk b i k μ hμ

/-- The quotient of an exponential by its row sum is the real quotient: the row sum is positive. -/
theorem quot_eq (hx : AllReal x) (hq : AllReal wq) (hk : AllReal wk) (b : Fin 8) (i j : Fin 2048) (μ : ℝ)
    (hμ : Read.val_main_v11 (F := Ideal) x wq wk (ix2 b i) = (μ : EReal)) :
    Read.val_main_v19 (F := Ideal) x wq wk (ix3 b i j)
      = ((wgt scR (xReal x b) (wReal wq) (wReal wk) μ i j
          / ∑ j', wgt scR (xReal x b) (wReal wq) (wReal wk) μ i j' : ℝ) : EReal) := by
  have e : Read.idx_main_v17 (Read.idx_main_v18 (ix3 b i j)) = ix2 b i :=
    funext fun a => by match a with | ⟨0, _⟩ => rfl | ⟨1, _⟩ => rfl
  rw [Read.val_main_v19_apply, exp_eq x wq wk hx hq hk b i j μ hμ, Read.val_main_v18_apply, Read.val_main_v17_apply, e,
    denom_eq x wq wk hx hq hk b i μ hμ, Ideal.hostDivf_def,
    Ideal.div_coe (denom_pos scR (xReal x b) (wReal wq) (wReal wk) μ i).ne', ← EReal.coe_mul, mul_one_div]

/-- Entry (b, i, h) of the result is the attention of batch row b at (i, h). -/
theorem out_eq (hx : AllReal x) (hq : AllReal wq) (hk : AllReal wk) (hv : AllReal wv) (b : Fin 8) (i : Fin 2048)
    (h : Fin 64) :
    Read.val_main_v20 (F := Ideal) x wq wk wv (ix3 b i h)
      = ((attn scR (xReal x b) (wReal wq) (wReal wk) (wReal wv) i h : ℝ) : EReal) := by
  obtain ⟨μ, hμ⟩ := rowmax_real x wq wk hx hq hk b i
  rw [Read.val_main_v20_apply, ← attn_shift scR (xReal x b) (wReal wq) (wReal wk) (wReal wv) μ i h, Finset.sum_div, coe_sum]
  refine Finset.sum_congr rfl fun k _ => ?_
  have el : Read.lidx_main_v20 (ix3 b i h) k = ix3 b i k :=
    funext fun a => by match a with | ⟨0, _⟩ => rfl | ⟨1, _⟩ => rfl | ⟨2, _⟩ => rfl
  have er : Read.ridx_main_v20 (ix3 b i h) k = ix3 b k h :=
    funext fun a => by match a with | ⟨0, _⟩ => rfl | ⟨1, _⟩ => rfl | ⟨2, _⟩ => rfl
  rw [el, er, quot_eq x wq wk hx hq hk b i k μ hμ, v_eq x wv hx hv, ← EReal.coe_mul, div_mul_eq_mul_div]

/-- The reference's result array is the specification's. -/
theorem result_eq (hx : AllReal x) (hq : AllReal wq) (hk : AllReal wk) (hv : AllReal wv) :
    Read.val_main_v20 (F := Ideal) x wq wk wv = G x wq wk wv := by
  funext idx
  obtain ⟨b, i, h, rfl⟩ : ∃ (b : Fin 8) (i : Fin 2048) (h : Fin 64), idx = ix3 b i h := ⟨_, _, _, eq_ix3 idx⟩
  exact out_eq x wq wk wv hx hq hk hv b i h

end

/-- From real arguments every weakly fair execution of the reference ends with the result array at the
    specification of the arguments, the arguments unchanged. -/
theorem run (m : (ℓ : Loc nD τ sig) → Buf (Elt Ideal) ℓ) (ρ : Dev nD → PrngReg)
    (hfin : ∀ c : Dev nD, AllReal (m ((c.tc : Thread nD τ).loc main_arg0)) ∧ AllReal (m ((c.tc : Thread nD τ).loc main_arg1))
      ∧ AllReal (m ((c.tc : Thread nD τ).loc main_arg2)) ∧ AllReal (m ((c.tc : Thread nD τ).loc main_arg3))) :
    θ_run defs (onTc (τ := τ) (main (F := Ideal))) ⟨m, fun _ => 0, ρ⟩ fun r => ∀ c : Dev nD,
      r.2.mem ((c.tc : Thread nD τ).loc main_v20)
        = G (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun _ h c => ⟨(h c).1.trans ?_, (h c).2⟩) (Cert.ReferenceIdeal.Value.run (F := Ideal) m ρ)
  rw [Read.val_main_v20_eq]
  exact result_eq _ _ _ _ (hfin c).1 (hfin c).2.1 (hfin c).2.2.1 (hfin c).2.2.2

end Cert.ReferenceIdeal.AttnRef

end
-- ==== Proof.Finite.lean ====
/-
  The precondition makes every argument entry a real: "|x| < +infinity" at every index, read at the exact
  instance, excludes both infinities.
-/
import proofs.«409854_j43765716746377_3_alg».proof.Proof.SpecG
import proofs.«409854_j43765716746377_3_alg».proof.Proof.Gen.Pre_finite_inputs
import Idealize.ShloMosaic.Lib.ReduceAll

noncomputable section

namespace Cert.Pre_finite_inputs.Real

open Cert.Pre_finite_inputs Cert.Pre_finite_inputs.Gen Idealize.ShloMosaic Idealize.ShloMosaic.ValueIdx Cert.Spec

/-- The word 0x7F800000 (exponent all ones, fraction zero, sign clear) denotes +infinity. -/
theorem ofBits_inf : Ideal.ofBits .f32 0x7F800000#32 = (⊤ : EReal) := by
  simp [Ideal.ofBits, Ideal.ieee]

/-- An extended real whose absolute value max a (-a) is strictly below +infinity is a real: at -infinity the
absolute value is +infinity, at +infinity it is +infinity, and neither is below +infinity. -/
theorem real_of_abs_lt_top (a : EReal) (h : Ideal.cmp .olt (max a (-a)) (⊤ : EReal) = 1#1) :
    a = ((a.toReal : ℝ) : EReal) := by
  induction a using EReal.rec with
  | bot => simp [Ideal.cmp] at h
  | top => simp [Ideal.cmp] at h
  | coe r => simp

/-- The scalar result shape has one index. -/
instance : Subsingleton S_.Idx := ⟨fun a b => funext fun d => d.elim0⟩

/-- One entry of the comparison "|x| < +infinity" (the scalar +infinity broadcast to the array's shape) being 1
makes that entry of x a real. -/
theorem real_of_cmp {T : Shape} (hb : S_.BroadcastsInDim T (![] : Fin 0 → Fin T.rank)) (x : FVec Ideal T .f32)
    (i : T.Idx)
    (h : cmpf .olt (Host.absf x) (broadcastInDim T ![] hb (constant (F := Ideal) S_ .f32 0x7F800000#32)) i = 1#1) :
    x i = (((x i).toReal : ℝ) : EReal) := by
  refine real_of_abs_lt_top (x i) ?_
  rw [← ofBits_inf]
  exact h

/-- If the finiteness predicate of the four arguments is all ones, every entry of each of them is a real. -/
theorem allReal_of_pre (x : FVec Ideal S8x2048x1024 .f32) (wq wk wv : FVec Ideal S1024x64 .f32)
    (h : Cert.Pre_finite_inputs.fn (F := Ideal) x wq wk wv = fun _ => 1#1) :
    AllReal x ∧ AllReal wq ∧ AllReal wk ∧ AllReal wv := by
  -- the predicate at its one index: the conjunction of the four "all" reductions
  have h0 := congrFun h ValueIdx.ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  -- each reduction by "and" that is 1 had a 1 at every entry of its comparison
  refine ⟨fun i => ?_, fun i => ?_, fun i => ?_, fun i => ?_⟩
  · exact real_of_cmp _ x i (Host.reduce_andi_all _ _ _ _ _ h1 i)
  · exact real_of_cmp _ wq i (Host.reduce_andi_all _ _ _ _ _ h2 i)
  · exact real_of_cmp _ wk i (Host.reduce_andi_all _ _ _ _ _ h3 i)
  · exact real_of_cmp _ wv i (Host.reduce_andi_all _ _ _ _ _ h4 i)

end Cert.Pre_finite_inputs.Real

end
-- ==== Proof.lean ====
/-
  The certificate of the fused causal-attention kernel against its jnp reference.
  The kernel computes, per batch row, the three projections of the input, and for each tile of 256 query rows the
  online-softmax recurrence over the key tiles up to the diagonal (running maximum, running denominator, running
  numerator), masking only the diagonal tile and writing numerator / denominator. The reference computes the full
  masked score matrix, a row softmax and the product with the values. Over the extended reals, with every input
  finite, both are the causal attention of the reals the inputs denote: a common shift of a row's scores (the
  running maximum on one side, the row maximum on the other) cancels in the quotient, the masked entries weigh
  exp (-infinity) = 0, and the scale 2^-5 multiplies the query on one side and the score on the other.
  The three frames are the generated frame runs (the reference's is its generated run with the result dropped);
  the idealization's eight ledger entries all name the kernel's finite stand-in for minus infinity.
-/
import proofs.«409854_j43765716746377_3_alg».proof.Defs
import proofs.«409854_j43765716746377_3_alg».proof.Proof.Gen.Kernel
import proofs.«409854_j43765716746377_3_alg».proof.Proof.Gen.Kernel.Skeleton
import proofs.«409854_j43765716746377_3_alg».proof.Proof.Gen.Kernel.Launch
import proofs.«409854_j43765716746377_3_alg».proof.Proof.Gen.Kernel.Points
import proofs.«409854_j43765716746377_3_alg».proof.Proof.Gen.Kernel.Frame
import proofs.«409854_j43765716746377_3_alg».proof.Proof.Gen.KernelIdeal
import proofs.«409854_j43765716746377_3_alg».proof.Proof.Gen.KernelIdeal.Skeleton
import proofs.«409854_j43765716746377_3_alg».proof.Proof.Gen.KernelIdeal.Launch
import proofs.«409854_j43765716746377_3_alg».proof.Proof.Gen.KernelIdeal.Points
import proofs.«409854_j43765716746377_3_alg».proof.Proof.Gen.KernelIdeal.Frame
import proofs.«409854_j43765716746377_3_alg».proof.Proof.Gen.KernelIdeal.Value
import proofs.«409854_j43765716746377_3_alg».proof.Proof.Gen.ReferenceIdeal
import proofs.«409854_j43765716746377_3_alg».proof.Proof.Gen.ReferenceIdeal.Run
import proofs.«409854_j43765716746377_3_alg».proof.Proof.Gen.ReferenceIdeal.Read
import proofs.«409854_j43765716746377_3_alg».proof.Proof.Gen.Pre_finite_inputs
import proofs.«409854_j43765716746377_3_alg».proof.Proof.KernelValue
import proofs.«409854_j43765716746377_3_alg».proof.Proof.RefValue
import proofs.«409854_j43765716746377_3_alg».proof.Proof.Finite
import Idealize.ShloMosaic.Adequacy
import Idealize.ShloMosaic.Init

noncomputable section

namespace Cert.Proof

open Idealize.ShloMosaic Idealize.SL.Sem Cert.Spec

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- One ledger entry: the certificate's table gives the mask's fill value the meaning minus infinity. -/
theorem neg_big : IdealRules.named_const.Statement Cert.KernelIdeal.κ "neg_big" .f32 0xFF333332#32 ⊥ :=
  IdealRules.named_const.statement Cert.KernelIdeal.κ "neg_big" .f32 0xFF333332#32 ⊥ rfl

/-- The eight ledger entries are that one, at the eight diagonal tiles. -/
theorem preserves : Cert.preserves_Kernel_KernelIdeal :=
  ⟨neg_big, neg_big, neg_big, neg_big, neg_big, neg_big, neg_big, neg_big⟩

/-- Under the precondition both programs end with the result array at the specification of the arguments. -/
theorem algebraic : Cert.algebraic_KernelIdeal_ReferenceIdeal := by
  intro m ρ m' ρ' hpre hagree
  have hfin : ∀ c : Dev Cert.KernelIdeal.nD,
      AllReal (m ((c.tc : Thread Cert.KernelIdeal.nD Cert.KernelIdeal.τ).loc Cert.KernelIdeal.main_arg0))
      ∧ AllReal (m ((c.tc : Thread Cert.KernelIdeal.nD Cert.KernelIdeal.τ).loc Cert.KernelIdeal.main_arg1))
      ∧ AllReal (m ((c.tc : Thread Cert.KernelIdeal.nD Cert.KernelIdeal.τ).loc Cert.KernelIdeal.main_arg2))
      ∧ AllReal (m ((c.tc : Thread Cert.KernelIdeal.nD Cert.KernelIdeal.τ).loc Cert.KernelIdeal.main_arg3)) :=
    fun c => Cert.Pre_finite_inputs.Real.allReal_of_pre _ _ _ _ (hpre c)
  have hfin' : ∀ c : Dev Cert.ReferenceIdeal.nD,
      AllReal (m' ((c.tc : Thread Cert.ReferenceIdeal.nD Cert.ReferenceIdeal.τ).loc Cert.ReferenceIdeal.main_arg0))
      ∧ AllReal (m' ((c.tc : Thread Cert.ReferenceIdeal.nD Cert.ReferenceIdeal.τ).loc Cert.ReferenceIdeal.main_arg1))
      ∧ AllReal (m' ((c.tc : Thread Cert.ReferenceIdeal.nD Cert.ReferenceIdeal.τ).loc Cert.ReferenceIdeal.main_arg2))
      ∧ AllReal (m' ((c.tc : Thread Cert.ReferenceIdeal.nD Cert.ReferenceIdeal.τ).loc Cert.ReferenceIdeal.main_arg3)) := by
    intro c
    rw [(hagree c).1, (hagree c).2.1, (hagree c).2.2.1, (hagree c).2.2.2]
    exact hfin c
  refine ⟨fun c => G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.AttnValue.run m ρ hfin, ?_⟩
  refine (θ_run Cert.ReferenceIdeal.defs _ _).mono (fun _ h c => ⟨(h c).1.trans ?_, (h c).2⟩)
    (Cert.ReferenceIdeal.AttnRef.run m' ρ' hfin')
  rw [(hagree c).1, (hagree c).2.1, (hagree c).2.2.1, (hagree c).2.2.2]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
